-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096 : Shape := ⟨1, ![4096]⟩
abbrev S4096x4096 : Shape := ⟨2, ![4096, 4096]⟩
abbrev S4096x22016 : Shape := ⟨2, ![4096, 22016]⟩
abbrev S11008x4096 : Shape := ⟨2, ![11008, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x22016 : S_.BroadcastsInDim S4096x22016 (![] : Fin 0 → Fin S4096x22016.rank)
  reducesTo_S4096x22016_S_d0_1 : S4096x22016.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg4 : FVec F S4096x22016 .f32) (main_arg5 : FVec F S11008x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x22016 .f32 := Host.absf main_arg4
  let main_cst_6 : FVec F S_ .f32 := constant S_ .f32 0x7F800000#32
  let main_v20 : FVec F S4096x22016 .f32 := broadcastInDim S4096x22016 ![] bcast_S_S4096x22016 main_cst_6
  let main_v21 : IVec S4096x22016 1 := cmpf .olt main_v19 main_v20
  let main_c_7 : IVec S_ 1 := constantI S_ 1 1#1
  let main_v22 : IVec S_ 1 := (fun x v => Host.reduce IntOp.andi x v reducesTo_S4096x22016_S_d0_1 h_S_) main_v21 main_c_7
  let main_v23 : IVec S_ 1 := andi main_v18 main_v22
  let main_v24 : FVec F S11008x4096 .f32 := Host.absf main_arg5
  let main_cst_8 : FVec F S_ .f32 := constant S_ .f32 0x7F800000#32
  let main_v25 : FVec F S11008x4096 .f32 := broadcastInDim S11008x4096 ![] bcast_S_S11008x4096 main_cst_8
  let main_v26 : IVec S11008x4096 1 := cmpf .olt main_v24 main_v25
  let main_c_9 : IVec S_ 1 := constantI S_ 1 1#1
  let main_v27 : IVec S_ 1 := (fun x v => Host.reduce IntOp.andi x v reducesTo_S11008x4096_S_d0_1 h_S_) main_v26 main_c_9
  let main_v28 : IVec S_ 1 := andi main_v23 main_v27
  main_v28

def fn {F : FTy → Type} [FloatOps F] (main_arg0 : FVec F S2x2048x4096 .f32) (main_arg1 : FVec F S4096 .f32) (main_arg2 : FVec F S4096x4096 .f32) (main_arg3 : FVec F S4096 .f32) (main_arg4 : FVec F S4096x22016 .f32) (main_arg5 : FVec F S11008x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S2x2048x4096 : Shape := ⟨3, ![2, 2048, 4096]⟩
abbrev S4096 : Shape := ⟨1, ![4096]⟩
abbrev S4096x4096 : Shape := ⟨2, ![4096, 4096]⟩
abbrev S4096x22016 : Shape := ⟨2, ![4096, 22016]⟩
abbrev S11008x4096 : Shape := ⟨2, ![11008, 4096]⟩
abbrev S256x4096 : Shape := ⟨2, ![256, 4096]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S1x4096 : Shape := ⟨2, ![1, 4096]⟩
abbrev S4096x11008 : Shape := ⟨2, ![4096, 11008]⟩
abbrev S_ : Shape := ⟨0, ![]⟩
abbrev S4096x11264 : Shape := ⟨2, ![4096, 11264]⟩
abbrev S11264x4096 : Shape := ⟨2, ![11264, 4096]⟩
abbrev S128x4096 : Shape := ⟨2, ![128, 4096]⟩
abbrev S128x1024 : Shape := ⟨2, ![128, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 26
  | .vmem => 25
  | .smem => 0
  | _ => 0

abbrev bufTy : (tb : Table) → Fin (tcTables nBuf tb) → BufTy
  | .hbm, ⟨0, _⟩ => ⟨S2x2048x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S4096x22016, .f32⟩
  | .hbm, ⟨5, _⟩ => ⟨S11008x4096, .f32⟩
  | .hbm, ⟨6, _⟩ => ⟨S4096x4096, .f32⟩
  | .hbm, ⟨7, _⟩ => ⟨S4096x4096, .bf16⟩
  | .hbm, ⟨8, _⟩ => ⟨S4096x4096, .f32⟩
  | .hbm, ⟨9, _⟩ => ⟨S4096x11008, .f32⟩
  | .hbm, ⟨10, _⟩ => ⟨S4096x11008, .f32⟩
  | .hbm, ⟨11, _⟩ => ⟨S_, .i32⟩
  | .hbm, ⟨12, _⟩ => ⟨S_, .f32⟩
  | .hbm, ⟨13, _⟩ => ⟨S4096x11264, .f32⟩
  | .hbm, ⟨14, _⟩ => ⟨S4096x11264, .bf16⟩
  | .hbm, ⟨15, _⟩ => ⟨S_, .i32⟩
  | .hbm, ⟨16, _⟩ => ⟨S_, .f32⟩
  | .hbm, ⟨17, _⟩ => ⟨S4096x11264, .f32⟩
  | .hbm, ⟨18, _⟩ => ⟨S4096x11264, .bf16⟩
  | .hbm, ⟨19, _⟩ => ⟨S_, .i32⟩
  | .hbm, ⟨20, _⟩ => ⟨S_, .f32⟩
  | .hbm, ⟨21, _⟩ => ⟨S11264x4096, .f32⟩
  | .hbm, ⟨22, _⟩ => ⟨S11264x4096, .bf16⟩
  | .hbm, ⟨23, _⟩ => ⟨S4096x11264, .bf16⟩
  | .hbm, ⟨24, _⟩ => ⟨S4096x4096, .f32⟩
  | .hbm, ⟨25, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S4096, .f32⟩
  | .local _ .vmem, ⟨3, _⟩ => ⟨S4096x1024, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S128x4096, .f32⟩
  | .local _ .vmem, ⟨8, _⟩ => ⟨S128x4096, .f32⟩
  | .local _ .vmem, ⟨9, _⟩ => ⟨S4096, .f32⟩
  | .local _ .vmem, ⟨10, _⟩ => ⟨S4096x1024, .bf16⟩
  | .local _ .vmem, ⟨11, _⟩ => ⟨S4096x1024, .bf16⟩
  | .local _ .vmem, ⟨12, _⟩ => ⟨S4096x1024, .bf16⟩
  | .local _ .vmem, ⟨13, _⟩ => ⟨S4096x1024, .bf16⟩
  | .local _ .vmem, ⟨14, _⟩ => ⟨S128x1024, .bf16⟩
  | .local _ .vmem, ⟨15, _⟩ => ⟨S128x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v20 : BitVec 32 := Scalar.muli arg1 c1024_i32
  v20
def k0_off1 (i : grid0.Coords) : Fin 2 → Nat :=
  let c0_7 : Index := 0#32
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  ![0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨3, ![4, 4, 11], ![false, false, false]⟩

def k2_cond2 (i : grid2.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S2x2048x4096_S4096x4096 : S2x2048x4096.ShapeCasts S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  h_S256x1024 : 0 < S256x1024.numel
  shapeCasts_S256x1024_S256x1024 : S256x1024.ShapeCasts S256x1024
  inb_S256x1024_S256x1024_0_0 : ∀ a, (![0, 0] : Fin 2 → Nat) a + S256x1024.size a ≤ S256x1024.size a
  slices_S4096x22016_S4096x11008_0_0 : S4096x22016.Slices ![0, 0] S4096x11008
  slices_S4096x22016_S4096x11008_0_11008 : S4096x22016.Slices ![0, 11008] S4096x11008
  pads_S4096x11008_S4096x11264_000_02560 : S4096x11008.Pads (![0, 0] : Fin 2 → Nat) ![0, 256] ![0, 0] S4096x11264
  h_S_ : 0 < S_.numel
  pads_S11008x4096_S11264x4096_02560_000 : S11008x4096.Pads (![0, 0] : Fin 2 → Nat) ![256, 0] ![0, 0] S11264x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  broadcasts_S1x4096_S128x4096 : S1x4096.Broadcasts S128x4096
  inb_S128x1024_S128x1024_0_0 : ∀ a, (![0, 0] : Fin 2 → Nat) a + S128x1024.size a ≤ S128x1024.size a
  h_S128x1024 : 0 < S128x1024.numel
  packedbf16_S128x1024_S128x1024_0_0 : (Rect.unit (s := S128x1024) ![0, 0] S128x1024.size inb_S128x1024_S128x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S2x2048x4096 : S4096x4096.ShapeCasts S2x2048x4096
  dot_S256x4096_S4096x1024_S256x1024_1_0_0_1_n_n_wf : DotDims.WF S256x4096 S4096x1024 S256x1024 [1] [0] [0] [1] [] []
  dot_S128x4096_S4096x1024_S128x1024_1_0_0_1_n_n_wf : DotDims.WF S128x4096 S4096x1024 S128x1024 [1] [0] [0] [1] [] []
  dot_S1024x1024_S1024x1024_S1024x1024_1_0_0_1_n_n_wf : DotDims.WF S1024x1024 S1024x1024 S1024x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x1024.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x4096.size a
  hwx0_2 : ∀ i : grid0.Coords, EltTy.bits .bf16 = 32 ∨ (Rect.block (s := S4096x4096) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x4096.size a
  hwx0_3 : ∀ i : grid0.Coords, EltTy.bits .f32 = 32 ∨ (Rect.block (s := S4096x4096) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S4096.size a
  hwx1_1 : ∀ i : grid1.Coords, EltTy.bits .f32 = 32 ∨ (Rect.block (s := S4096) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x11264.size a
  hwx1_2 : ∀ i : grid1.Coords, EltTy.bits .bf16 = 32 ∨ (Rect.block (s := S4096x11264) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x11264.size a
  hwx1_3 : ∀ i : grid1.Coords, EltTy.bits .bf16 = 32 ∨ (Rect.block (s := S4096x11264) S4096x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S4096x11264.size a
  hwx1_4 : ∀ i : grid1.Coords, EltTy.bits .bf16 = 32 ∨ (Rect.block (s := S4096x11264) S128x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x11264.size a
  hwx2_0 : ∀ i : grid2.Coords, EltTy.bits .bf16 = 32 ∨ (Rect.block (s := S4096x11264) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S11264x4096.size a
  hwx2_1 : ∀ i : grid2.Coords, EltTy.bits .bf16 = 32 ∨ (Rect.block (s := S11264x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4096x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4096x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096 : Shape := ⟨1, ![4096]⟩
abbrev S4096x4096 : Shape := ⟨2, ![4096, 4096]⟩
abbrev S4096x22016 : Shape := ⟨2, ![4096, 22016]⟩
abbrev S11008x4096 : Shape := ⟨2, ![11008, 4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S2x2048x22016 : Shape := ⟨3, ![2, 2048, 22016]⟩
abbrev S2x2048x11008 : Shape := ⟨3, ![2, 2048, 11008]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S4096x22016, .f32⟩
  | .hbm, ⟨5, _⟩ => ⟨S11008x4096, .f32⟩
  | .hbm, ⟨6, _⟩ => ⟨S2x2048x4096, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x4096, .f32⟩
  | .hbm, ⟨18, _⟩ => ⟨S2x2048x4096, .f32⟩
  | .hbm, ⟨19, _⟩ => ⟨S1x1x4096, .f32⟩
  | .hbm, ⟨20, _⟩ => ⟨S2x2048x4096, .f32⟩
  | .hbm, ⟨21, _⟩ => ⟨S2x2048x4096, .f32⟩
  | .hbm, ⟨22, _⟩ => ⟨S2x2048x4096, .f32⟩
  | .hbm, ⟨23, _⟩ => ⟨S2x2048x4096, .f32⟩
  | .hbm, ⟨24, _⟩ => ⟨S2x2048x4096, .f32⟩
  | .hbm, ⟨25, _⟩ => ⟨S_, .f32⟩
  | .hbm, ⟨26, _⟩ => ⟨S2x2048, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1, .f32⟩
  | .hbm, ⟨35, _⟩ => ⟨S2x2048x4096, .f32⟩
  | .hbm, ⟨36, _⟩ => ⟨S2x2048x4096, .f32⟩
  | .hbm, ⟨37, _⟩ => ⟨S1x1x4096, .f32⟩
  | .hbm, ⟨38, _⟩ => ⟨S2x2048x4096, .f32⟩
  | .hbm, ⟨39, _⟩ => ⟨S2x2048x4096, .f32⟩
  | .hbm, ⟨40, _⟩ => ⟨S2x2048x22016, .f32⟩
  | .hbm, ⟨41, _⟩ => ⟨S2x2048x11008, .f32⟩
  | .hbm, ⟨42, _⟩ => ⟨S2x2048x11008, .f32⟩
  | .hbm, ⟨43, _⟩ => ⟨S2x2048x11008, .f32⟩
  | .hbm, ⟨44, _⟩ => ⟨S2x2048x11008, .f32⟩
  | .hbm, ⟨45, _⟩ => ⟨S_, .f32⟩
  | .hbm, ⟨46, _⟩ => ⟨S2x2048x11008, .f32⟩
  | .hbm, ⟨47, _⟩ => ⟨S2x2048x11008, .f32⟩
  | .hbm, ⟨48, _⟩ => ⟨S_, .f32⟩
  | .hbm, ⟨49, _⟩ => ⟨S2x2048x11008, .f32⟩
  | .hbm, ⟨50, _⟩ => ⟨S2x2048x11008, .f32⟩
  | .hbm, ⟨51, _⟩ => ⟨S2x2048x11008, .f32⟩
  | .hbm, ⟨52, _⟩ => ⟨S2x2048x11008, .f32⟩
  | .hbm, ⟨53, _⟩ => ⟨S2x2048x4096, .f32⟩
  | .hbm, ⟨54, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  slices_S2x2048x22016_S2x2048x11008_0_0_0 : S2x2048x22016.Slices ![0, 0, 0] S2x2048x11008
  slices_S2x2048x22016_S2x2048x11008_0_0_11008 : S2x2048x22016.Slices ![0, 0, 11008] S2x2048x11008
  bcast_S_S2x2048x11008 : S_.BroadcastsInDim S2x2048x11008 (![] : Fin 0 → Fin S2x2048x11008.rank)
  dot_S2x2048x4096_S4096x4096_S2x2048x4096_2_0_01_1_n_n_wf : DotDims.WF S2x2048x4096 S4096x4096 S2x2048x4096 [2] [0] [0, 1] [1] [] []
  dot_S2x2048x4096_S4096x22016_S2x2048x22016_2_0_01_1_n_n_wf : DotDims.WF S2x2048x4096 S4096x22016 S2x2048x22016 [2] [0] [0, 1] [1] [] []
  dot_S2x2048x11008_S11008x4096_S2x2048x4096_2_0_01_1_n_n_wf : DotDims.WF S2x2048x11008 S11008x4096 S2x2048x4096 [2] [0] [0, 1] [1] [] []

variable [Facts₀]

def dot_S2x2048x4096_S4096x4096_S2x2048x4096_2_0_01_1_n_n : DotDims S2x2048x4096 S4096x4096 S2x2048x4096 where
  lhsContracting := [2]
  rhsContracting := [0]
  lhsNonContracting := [0, 1]
  rhsNonContracting := [1]
  lhsBatch := []
  rhsBatch := []
  wf := dot_S2x2048x4096_S4096x4096_S2x2048x4096_2_0_01_1_n_n_wf
def dot_S2x2048x4096_S4096x22016_S2x2048x22016_2_0_01_1_n_n : DotDims S2x2048x4096 S4096x22016 S2x2048x22016 where
  lhsContracting := [2]
  rhsContracting := [0]
  lhsNonContracting := [0, 1]
  rhsNonContracting := [1]
  lhsBatch := []
  rhsBatch := []
  wf := dot_S2x2048x4096_S4096x22016_S2x2048x22016_2_0_01_1_n_n_wf
def dot_S2x2048x11008_S11008x4096_S2x2048x4096_2_0_01_1_n_n : DotDims S2x2048x11008 S11008x4096 S2x2048x4096 where
  lhsContracting := [2]
  rhsContracting := [0]
  lhsNonContracting := [0, 1]
  rhsNonContracting := [1]
  lhsBatch := []
  rhsBatch := []
  wf := dot_S2x2048x11008_S11008x4096_S2x2048x4096_2_0_01_1_n_n_wf

class Facts : Prop extends Facts₀ where

variable [Facts]
-- ==== Proof.K.Region0.lean ====
/-
  Region 0 of the program (the attention projection): one grid point (i, j) of 16 × 4 reads a block of 256 rows of the
  input (all 4096 columns), the whole norm weight and a 4096 × 1024 column block of the projection weight, and stores the
  256 × 1024 block  x[r, j·1024 + e] + Σ_d (x[r, d] · rsqrt(Σ_d' x[r, d']² / 4096 + ε) · w[d]) · o[d, j·1024 + e].
  This module states what the body leaves in its output buffer as a function of the three input blocks and the point's
  column offset, the body's triple, the proof data of the pipeline at any entry contents `V`, and the body obligation.
-/
import proofs.«135343_j29592324669776_1_alg».proof.Proof.Gen.Kernel.Launch
import proofs.«135343_j29592324669776_1_alg».proof.Proof.Gen.Kernel.Skeleton
import proofs.«135343_j29592324669776_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: the three input buffers whole, the residual's 256 × 1024 columns of the
    row block at the point's column offset, the output buffer whole. -/
abbrev r0_x : Rect S256x4096 := Rect.unit (s := S256x4096) ![0, 0] S256x4096.size inb_S256x4096_S256x4096_0_0
abbrev r0_w : Rect S4096 := Rect.unit (s := S4096) ![0] S4096.size inb_S4096_S4096_0
abbrev r0_o : Rect S4096x1024 := Rect.unit (s := S4096x1024) ![0, 0] S4096x1024.size inb_S4096x1024_S4096x1024_0_0
abbrev r0_res (i : grid0.Coords) : Rect S256x4096 := Rect.unit (s := S256x4096) (k0_off1 i) S256x1024.size (k0_off1_inb i)
abbrev r0_out : Rect S256x1024 := Rect.unit (s := S256x1024) ![0, 0] S256x1024.size inb_S256x1024_S256x1024_0_0

/-- What the body leaves in the output window's buffer at grid coordinates `i`, from the three input blocks. -/
def out0_3 (i : grid0.Coords) (x0 : Vec F S256x4096 .f32) (x1 : Vec F S4096 .f32) (x2 : Vec F S4096x1024 .bf16) : Vec F S256x1024 .f32 :=
  View.canon [⟨r0_out, k0_pay1 (View.ld x0 r0_x) (View.ld x1 r0_w) (View.ld x2 r0_o) (View.ld x0 (r0_res i))⟩]

theorem cover0_3 (p0 : Vec F S256x1024 .f32) (y : S256x1024.Idx) :
    ∃ pc ∈ ([⟨r0_out, p0⟩] : List (View.Piece (Elt F) S256x1024 .f32)), y ∈ pc.1.set :=
  View.cover_of_tiled [⟨r0_out, p0⟩] S256x1024.size (by rfl) y

set_option maxHeartbeats 1000000 in
/-- The body's triple on whole staging memrefs. -/
theorem sound_kernel0 (c : Dev nD) (E : Set ℕ) (i : grid0.Coords)
    (arg2 : Memref sig .tc .vmem S256x4096 .f32) (harg2 : arg2.IsWhole) (arg3 : Memref sig .tc .vmem S4096 .f32) (harg3 : arg3.IsWhole)
    (arg4 : Memref sig .tc .vmem S4096x1024 .bf16) (harg4 : arg4.IsWhole) (arg5 : Memref sig .tc .vmem S256x1024 .f32) (harg5 : arg5.IsWhole)
    (x0 : Vec F S256x4096 .f32) (x1 : Vec F S4096 .f32) (x2 : Vec F S4096x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c` at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]

/-- The first input window (the row block, all columns) finds its block in its current staging buffer at every point:
    the window is an input, never idle, its blocks tile the array, and the body leaves its buffer as found; where the
    pipeline does not fetch (the block index has not moved) the buffer still holds the same block. Stated for any proof
    data whose array is the entry contents and whose body keeps the block. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ s, (cfg0.win 0).cut (cfg0.grid.coords s) (dat.after 0 s) = dat.blockOf 0 s := by
    intro s; rw [hafter s]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The same of the norm weight (one block, fetched once). -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ s, (cfg0.win 1).cut (cfg0.grid.coords s) (dat.after 1 s) = dat.blockOf 1 s := by
    intro s; rw [hafter s]; unfold Dat.blockOf iblk0; rw [hA]; try rfl
  rw [dat.before_in_eq_fetched 1 rfl (fun _ => rfl) (fun _ _ _ => rfl) hkeep t d]
  unfold Dat.fetched Dat.blockOf iblk0; rw [hA]; try rfl

/-- The same of the projection weight's column block (fetched at every point). -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ s, (cfg0.win 2).cut (cfg0.grid.coords s) (dat.after 2 s) = dat.blockOf 2 s := by
    intro s; rw [hafter s]; unfold Dat.blockOf iblk0; rw [hA]; try rfl
  rw [dat.before_in_eq_fetched 2 rfl (fun _ => rfl) (fun _ _ _ => rfl) hkeep t d]
  unfold Dat.fetched Dat.blockOf iblk0; rw [hA]; try rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`: the invariant, what the core owes, and each window's current staging buffer
    at what it holds before the body (the output's at anything). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at point `t`: the three input buffers hold their blocks, so the body's triple applies at the point's
    staging memrefs; the invariant and the debt are neither read nor changed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
/-
  Region 1 of the program (the gated up-projection): one grid point (i, j) of 32 × 11 reads a block of 128 rows of the
  activations (all 4096 columns), the whole norm weight and the j-th 4096 × 1024 column blocks of the gate and the up
  weights, and stores the 128 × 1024 block  act[r, j·1024 + e] = (g · logistic g) · u  with  g = Σ_d h[r, d] · G[d, j·1024 + e],
  u = Σ_d h[r, d] · U[d, j·1024 + e]  and  h[r, d] = y[r, d] · rsqrt(Σ_d' y[r, d']² / 4096 + ε) · w[d].
  This module states what the body leaves in its output buffer as a function of the four input blocks, the body's triple,
  the proof data of the pipeline at any entry contents `V`, and the body obligation.
-/
import proofs.«135343_j29592324669776_1_alg».proof.Proof.Gen.Kernel.Launch
import proofs.«135343_j29592324669776_1_alg».proof.Proof.Gen.Kernel.Skeleton
import proofs.«135343_j29592324669776_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: every buffer whole. -/
abbrev r1_x : Rect S128x4096 := Rect.unit (s := S128x4096) ![0, 0] S128x4096.size inb_S128x4096_S128x4096_0_0
abbrev r1_w : Rect S4096 := Rect.unit (s := S4096) ![0] S4096.size inb_S4096_S4096_0
abbrev r1_g : Rect S4096x1024 := Rect.unit (s := S4096x1024) ![0, 0] S4096x1024.size inb_S4096x1024_S4096x1024_0_0
abbrev r1_out : Rect S128x1024 := Rect.unit (s := S128x1024) ![0, 0] S128x1024.size inb_S128x1024_S128x1024_0_0

/-- What the body leaves in the output window's buffer, from the four input blocks. -/
def out1_4 (x0 : Vec F S128x4096 .f32) (x1 : Vec F S4096 .f32) (x2 x3 : Vec F S4096x1024 .bf16) : Vec F S128x1024 .bf16 :=
  View.canon [⟨r1_out, k1_pay1 (View.ld x0 r1_x) (View.ld x1 r1_w) (View.ld x2 r1_g) (View.ld x3 r1_g)⟩]

theorem cover1_4 (p0 : Vec F S128x1024 .bf16) (y : S128x1024.Idx) :
    ∃ pc ∈ ([⟨r1_out, p0⟩] : List (View.Piece (Elt F) S128x1024 .bf16)), y ∈ pc.1.set :=
  View.cover_of_tiled [⟨r1_out, p0⟩] S128x1024.size (by rfl) y

set_option maxHeartbeats 1000000 in
/-- The body's triple on whole staging memrefs. -/
theorem sound_kernel1 (c : Dev nD) (E : Set ℕ) (i : grid1.Coords)
    (arg2 : Memref sig .tc .vmem S128x4096 .f32) (harg2 : arg2.IsWhole) (arg3 : Memref sig .tc .vmem S4096 .f32) (harg3 : arg3.IsWhole)
    (arg4 : Memref sig .tc .vmem S4096x1024 .bf16) (harg4 : arg4.IsWhole) (arg5 : Memref sig .tc .vmem S4096x1024 .bf16) (harg5 : arg5.IsWhole)
    (arg6 : Memref sig .tc .vmem S128x1024 .bf16) (harg6 : arg6.IsWhole)
    (x0 : Vec F S128x4096 .f32) (x1 : Vec F S4096 .f32) (x2 x3 : Vec F S4096x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__mlp_up_kernel i arg2 harg2 arg3 harg3 arg4 harg4 arg5 harg5 arg6 harg6) K := by
  simp only [cc1__mlp_up_kernel_eq_skeleton]; unfold cc1__mlp_up_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c` at entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! The input windows' buffers as the body finds them. -/

/-- Input window 0's current staging buffer holds its block at every point, whether or not the point fetches it: for any
    proof data whose array 0 is `V`'s and whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1's current staging buffer holds its block at every point, whether or not the point fetches it: for any
    proof data whose array 1 is `V`'s and whose body leaves that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2's current staging buffer holds its block at every point, whether or not the point fetches it: for any
    proof data whose array 2 is `V`'s and whose body leaves that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- Input window 3's current staging buffer holds its block at every point, whether or not the point fetches it: for any
    proof data whose array 3 is `V`'s and whose body leaves that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The body at a point `t`: each input's staging buffer holds its block, so the body's triple applies at the point's staging
    memrefs; the invariant and what the core owes are the same before and after, and pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t))) := by
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := by
  intro t
  rw [bigSep_W1, bigSep_W1]
  exact sound_body1 V c t

end Region1

end Cert.Kernel.Hand

end
-- ==== Proof.K.Region2.lean ====
/-
  Region 2 of the program (the down-projection with its residual): the grid is 4 × 4 × 11, its last axis the eleven
  1024-wide steps of the contraction. At a point (i, j, k) the body reads the (i, k) block of the activations, the (k, j)
  block of the down weight and the (i, j) block of the residual; a 1024 × 1024 scratch carries the partial sum over k:
  it is reset to zero at k = 0, the step's product is added at every k, and at k = 10 the sum plus the residual block
  is stored into the output block (i, j), which is written back there and only there.
  This module states the scratch after each point as a recursion over the points, the output buffer at the last step,
  the proof data at any entry contents `V` with the invariant that holds the scratch at that recursion's value,
  the body obligation, and the invariant's two ends.
-/
import proofs.«135343_j29592324669776_1_alg».proof.Proof.Gen.Kernel.Launch
import proofs.«135343_j29592324669776_1_alg».proof.Proof.Gen.Kernel.Skeleton
import proofs.«135343_j29592324669776_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Every access of the body is to a whole 1024 × 1024 buffer. -/
abbrev r2 : Rect S1024x1024 := Rect.unit (s := S1024x1024) ![0, 0] S1024x1024.size inb_S1024x1024_S1024x1024_0_0
/-- The scratch the kernel carries between points. -/
abbrev scM2 : Memref sig .tc .vmem S1024x1024 .f32 := Memref.whole cc2_scratch0

/-- The scratch after the reset: zero everywhere. -/
def reset2 : Vec F S1024x1024 .f32 := k2_pay1 (F := F)
/-- The scratch after a step, from what it held and the step's two blocks: the held value plus their product. -/
def step2 (s : Vec F S1024x1024 .f32) (a d : Vec F S1024x1024 .bf16) : Vec F S1024x1024 .f32 := k2_pay2 s a d
/-- The output block at the last step, from the scratch and the residual block: their sum. -/
def fin2 (s x : Vec F S1024x1024 .f32) : Vec F S1024x1024 .f32 := k2_pay3 s x

/-- The first conditional's test as the body computes it from the grid coordinates: the last coordinate is zero. -/
abbrev cond2_0 (i : grid2.Coords) : Prop :=
  (Scalar.cmpi .ne (Scalar.extui (Scalar.cmpi .eq (BitVec.ofNat 32 (i 2).val) 0#32)) 0#32) = 1#1
/-- The second conditional's test: the last coordinate is ten. -/
abbrev cond2_1 (i : grid2.Coords) : Prop := k2_cond2 i = 1#1

/-- The whole-buffer rectangle's offsets are zero. -/
theorem off2 : (![0, 0] : Fin 2 → ℕ) = fun _ => 0 := funext fun a => by fin_cases a <;> rfl

/-- A store through the whole-buffer rectangle, made last, covers every index. -/
theorem cover2 {e : EltTy} (w : S1024x1024.Idx → Elt F e) (L : List (View.Piece (Elt F) S1024x1024 e)) (y : S1024x1024.Idx) :
    ∃ pc ∈ ((⟨r2, w⟩ : View.Piece (Elt F) S1024x1024 e) :: L), y ∈ pc.1.set :=
  ⟨_, List.mem_cons_self .., View.mem_set_unit_zero off2 inb_S1024x1024_S1024x1024_0_0 y⟩

/-- After a whole-buffer store, made last, the buffer reads as the value stored, whatever it held and whatever was stored before. -/
theorem read_store2 {κ : Kind} {sp : Space} {e : EltTy} (v : View sig κ sp S1024x1024 e) (f : v.ty.Contents (Elt F))
    (w : S1024x1024.Idx → Elt F e) (L : List (View.Piece (Elt F) S1024x1024 e)) :
    v.read (Elt F) (v.writes (Elt F) f ((⟨r2, w⟩ : View.Piece (Elt F) S1024x1024 e) :: L)) = w := by
  rw [View.read_writes_eq_canon _ _ _ (cover2 w L), View.canon_cons_unit_zero off2]

/-- A whole-buffer load reads the buffer's contents. -/
theorem load2 {κ : Kind} {sp : Space} {e : EltTy} (v : View sig κ sp S1024x1024 e) (f : v.ty.Contents (Elt F)) :
    v.readAt (Elt F) r2.toLoadRect f = v.read (Elt F) f := by
  rw [View.readAt_eq_ld, View.ld_unit_zero off2]

/-- The step's value from whole-buffer loads of the scratch and the two blocks is the step from their contents. -/
theorem step2_of_loads {κ : Kind} {sp : Space} (v7 : View sig κ sp S1024x1024 .f32) (v3 v4 : View sig κ sp S1024x1024 .bf16)
    (f7 : v7.ty.Contents (Elt F)) (f0 : v3.ty.Contents (Elt F)) (f1 : v4.ty.Contents (Elt F)) :
    k2_pay2 (v7.readAt (Elt F) r2.toLoadRect f7) (v3.readAt (Elt F) r2.toLoadRect f0) (v4.readAt (Elt F) r2.toLoadRect f1)
      = step2 (v7.read (Elt F) f7) (v3.read (Elt F) f0) (v4.read (Elt F) f1) := by
  rw [load2, load2, load2]; rfl

/-! ## Where the two conditionals hold on the grid, and where the output window is idle -/

/-- The first conditional holds exactly at the first step of each contraction. -/
theorem hcond2_0 : ∀ t : Fin cfg2.N, cond2_0 (grid2.coords t) ↔ t.val % 11 = 0 :=
  (by decide +kernel : ∀ t : Fin grid2.N, cond2_0 (grid2.coords t) ↔ t.val % 11 = 0)
/-- The second conditional holds exactly at the last step of each contraction. -/
theorem hcond2_1 : ∀ t : Fin cfg2.N, cond2_1 (grid2.coords t) ↔ t.val % 11 = 10 :=
  (by decide +kernel : ∀ t : Fin grid2.N, cond2_1 (grid2.coords t) ↔ t.val % 11 = 10)

/-- Where the second conditional fails the output window is idle, -/
theorem idleAt2_3 (i : grid2.Coords) (h : ¬ cond2_1 i) : cfg2.idle 3 i = true := by
  show (!(k2_cond2 i == 1#1)) = true
  rw [Bool.not_eq_true', beq_eq_false_iff_ne]; exact h
/-- and where it holds the window is live. -/
theorem liveAt2_3 (i : grid2.Coords) (h : cond2_1 i) : cfg2.idle 3 i = false := by
  show (!(k2_cond2 i == 1#1)) = false
  rw [Bool.not_eq_false', beq_iff_eq]; exact h
/-- Away from the last step of a contraction the output block is not written back. -/
theorem noFlush2_3 (t : Fin cfg2.N) (h : ¬ t.val % 11 = 10) : (cfg2.win 3).flush t = false :=
  Bool.eq_false_iff.mpr fun hf => h ((flush2_3 t).mp hf)

/-! ## The body on whole buffers, control case by control case -/

set_option maxHeartbeats 1000000 in
/-- The body at a first step of the contraction (last coordinate zero): the scratch, whatever it held, is reset and then
    holds the step from the reset value; nothing else changes. -/
theorem sound_kernel2_A (c : Dev nD) (E : Set ℕ) (i : grid2.Coords) (hc0 : cond2_0 i) (hc1 : ¬ cond2_1 i)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .bf16) (x2 x3 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (step2 reset2 x0 x1)) -∗ K ⟨⟩))
      ⊢ wp frame (wpE (defs₀ (F := F)) Variants.none c none) E (cc2__mlp_down_kernel i arg3 harg3 arg4 harg4 arg5 harg5 arg6 harg6 arg7 harg7) K := by
  simp only [cc2__mlp_down_kernel_eq_skeleton]; unfold cc2__mlp_down_kernel_skel
  unfold owns
  iintro ⟨⟨%f0, %hf0, H0⟩, ⟨%f1, %hf1, H1⟩, ⟨%f2, %hf2, H2⟩, ⟨%f3, %hf3, H3⟩, ⟨%d7, %f7, -, H7⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H7
  ipureintro
  rw [read_store2, load2, load2]
  unfold step2 reset2
  congr 1
  sl_unfold_run_names
  exact View.readCov_unit_zero _ off2 _ _

set_option maxHeartbeats 1000000 in
/-- The body at an inner step of the contraction (last coordinate neither zero nor ten): the scratch holds the step from
    what it held; nothing else changes. -/
theorem sound_kernel2_B (c : Dev nD) (E : Set ℕ) (i : grid2.Coords) (hc0 : ¬ cond2_0 i) (hc1 : ¬ cond2_1 i)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .bf16) (x2 x3 s : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (step2 s x0 x1)) -∗ K ⟨⟩))
      ⊢ wp frame (wpE (defs₀ (F := F)) Variants.none c none) E (cc2__mlp_down_kernel i arg3 harg3 arg4 harg4 arg5 harg5 arg6 harg6 arg7 harg7) K := by
  simp only [cc2__mlp_down_kernel_eq_skeleton]; unfold cc2__mlp_down_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  subst hf0; subst hf1; subst hf2; subst hf3; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H7
  ipureintro
  rw [read_store2, load2, load2, load2]
  rfl

set_option maxHeartbeats 1000000 in
/-- The body at the last step of the contraction (last coordinate ten): the scratch holds the step from what it held, and
    the output buffer, whatever it held, that value plus the residual block. -/
theorem sound_kernel2_C (c : Dev nD) (E : Set ℕ) (i : grid2.Coords) (hc0 : ¬ cond2_0 i) (hc1 : cond2_1 i)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .bf16) (x2 s : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (fin2 (step2 s x0 x1) x2) ∗ owns (c : Thread nD τ) arg7 fullShare (step2 s x0 x1)) -∗ K ⟨⟩))
      ⊢ wp frame (wpE (defs₀ (F := F)) Variants.none c none) E (cc2__mlp_down_kernel i arg3 harg3 arg4 harg4 arg5 harg5 arg6 harg6 arg7 harg7) K := by
  simp only [cc2__mlp_down_kernel_eq_skeleton]; unfold cc2__mlp_down_kernel_skel
  unfold owns
  iintro ⟨⟨%f0, %hf0, H0⟩, ⟨%f1, %hf1, H1⟩, ⟨%f2, %hf2, H2⟩, ⟨%d3, %f3, -, H3⟩, ⟨%f7, %hf7, H7⟩, Hk⟩
  subst hf0; subst hf1; subst hf2; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store2, load2]
    unfold fin2
    congr 1
    sl_unfold_run_names
    refine (View.readCov_unit_zero _ off2 _ _).trans ?_
    exact step2_of_loads _ _ _ _ _ _
  iexists _; isplitr
  swap; · iexact H7
  ipureintro
  sl_unfold_run_names
  refine (read_store2 _ _ _ _).trans ?_
  exact step2_of_loads _ _ _ _ _ _

/-- THE ACCUMULATION: what the scratch holds after the body at position `n` — at the first step of a contraction
    (`n ≡ 0 mod 11`) the step from the reset value, otherwise the step from what the point before left. -/
def acc2 (c : Dev nD) : (n : ℕ) → n < cfg2.N → Vec F S1024x1024 .f32
  | 0, hn => step2 reset2 (iblk2 V c 0 ⟨0, hn⟩) (iblk2 V c 1 ⟨0, hn⟩)
  | n + 1, hn =>
    if (n + 1) % 11 = 0 then step2 reset2 (iblk2 V c 0 ⟨n + 1, hn⟩) (iblk2 V c 1 ⟨n + 1, hn⟩)
    else step2 (acc2 c n (Nat.lt_of_succ_lt hn)) (iblk2 V c 0 ⟨n + 1, hn⟩) (iblk2 V c 1 ⟨n + 1, hn⟩)

theorem acc2_reset (c : Dev nD) (t : Fin cfg2.N) (h : t.val % 11 = 0) :
    acc2 V c t.val t.isLt = step2 reset2 (iblk2 V c 0 t) (iblk2 V c 1 t) := by
  obtain ⟨n, hn⟩ := t
  cases n with
  | zero => rfl
  | succ n => exact (if_pos h)

theorem acc2_step (c : Dev nD) (t : Fin cfg2.N) (h : ¬ t.val % 11 = 0) :
    acc2 V c t.val t.isLt = step2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact (if_neg h)

/-- The core's scoped buffers that region 2 neither stages nor carries (the other regions' staging buffers), each whole
    at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's invariant before position `n`: before the first point the scoped rest and the generator register as
    the region is handed them; afterwards the scratch at what the point before left, the other scoped buffers at
    anything, the generator register at some state. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ rest2 (F := F) c ∗ (∃ r, prngReg c r))

/-- The proof data of pipeline 2 on core `c` at entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = fin2 (acc2 V c t.val t.isLt) (iblk2 V c 2 t) := by dsimp only [dat2]

/-! ## The invariant's forms -/

/-- The rest of the core's scoped buffers and the scratch are what the region is handed: the scratch at anything. -/
theorem PhiA2_open (c : Dev nD) :
    (Pipeline.ΦA spec2 c : sProp 𝕄) ⊢ iprop((∃ d, owns (c : Thread nD τ) scM2 fullShare d) ∗ rest2 (F := F) c ∗ (∃ r, prngReg c r)) := by
  unfold Pipeline.ΦA rest2; rw [scopedRest2_eq]; simp only [owns_whole]
  iintro ⟨⟨R1, R2, R3, R4, R5, R6, R7, R8, R9, R10, R11, R12, R13, R14, R15, R16, HS⟩, Hg⟩
  isplitl [HS]; · iexact HS
  isplitr [Hg]; swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact R16

/-- Conversely, with the scratch's contents forgotten they are the scoped rest and the generator register. -/
theorem PhiA2_close (c : Dev nD) :
    iprop((∃ d, owns (c : Thread nD τ) scM2 fullShare d) ∗ rest2 (F := F) c ∗ (∃ r, prngReg c r)) ⊢ (Pipeline.ΦA spec2 c : sProp 𝕄) := by
  unfold Pipeline.ΦA rest2; rw [scopedRest2_eq]; simp only [owns_whole]
  iintro ⟨HS, ⟨R1, R2, R3, R4, R5, R6, R7, R8, R9, R10, R11, R12, R13, R14, R15, R16⟩, Hg⟩
  isplitr [Hg]; swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact HS

/-- Before a position that is not the first the scratch holds what the point before left. -/
theorem PhiS2_pos (c : Dev nD) (n : ℕ) (h : n ≤ cfg2.N) (hz : n ≠ 0) :
    PhiS2 V c n h = iprop(owns (c : Thread nD τ) scM2 fullShare (acc2 V c (n - 1) (by omega)) ∗ rest2 (F := F) c ∗ (∃ r, prngReg c r)) := by
  cases n with
  | zero => exact absurd rfl hz
  | succ n => rfl

/-- Before any position the invariant holds the scratch at something, the other scoped buffers and the generator register. -/
theorem PhiS2_open (c : Dev nD) (n : ℕ) (h : n ≤ cfg2.N) :
    PhiS2 V c n h ⊢ iprop((∃ d, owns (c : Thread nD τ) scM2 fullShare d) ∗ rest2 (F := F) c ∗ (∃ r, prngReg c r)) := by
  cases n with
  | zero => exact PhiA2_open c
  | succ n =>
    show iprop(owns (c : Thread nD τ) scM2 fullShare (acc2 V c n h) ∗ rest2 (F := F) c ∗ (∃ r, prngReg c r)) ⊢ _
    iintro ⟨HS, Hr, Hg⟩
    isplitl [HS]; · iexists _; iexact HS
    isplitl [Hr]; · iexact Hr
    iexact Hg

/-- The invariant at a point's start, restated at the point's position. -/
theorem PhiS2_castSucc (c : Dev nD) (t : Fin cfg2.N) :
    (dat2 V c).Φ t.castSucc = PhiS2 V c t.val (Nat.le_of_lt t.isLt) := rfl

/-- The invariant after a point: the scratch at that point's value. -/
theorem PhiS2_succ (c : Dev nD) (t : Fin cfg2.N) :
    (dat2 V c).Φ t.succ = iprop(owns (c : Thread nD τ) scM2 fullShare (acc2 V c t.val t.isLt) ∗ rest2 (F := F) c ∗ (∃ r, prngReg c r)) := rfl

/-! ## What the input windows' buffers hold when the body runs -/

/-- The activations' block sits in its current staging buffer at every point: the window is an input, never idle, its
    blocks tile the array, the body leaves the buffer as found, and where the block is not fetched anew its index has not
    moved. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := by
    intro s; rw [after2_0 V c s]; unfold Dat.blockOf iblk2; rw [A_eq2 V c 0]; try rfl
  rw [(dat2 V c).before_in_eq_fetched 0 rfl (fun _ => rfl) (fun _ _ _ => rfl) hkeep t d]
  unfold Dat.fetched Dat.blockOf iblk2; rw [A_eq2 V c 0]; try rfl

/-- The same of the down weight's block. -/
theorem before2_1 (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := by
    intro s; rw [after2_1 V c s]; unfold Dat.blockOf iblk2; rw [A_eq2 V c 1]; try rfl
  rw [(dat2 V c).before_in_eq_fetched 1 rfl (fun _ => rfl) (fun _ _ _ => rfl) hkeep t d]
  unfold Dat.fetched Dat.blockOf iblk2; rw [A_eq2 V c 1]; try rfl

/-- The same of the residual's block, fetched only at the first step of a contraction and kept through it. -/
theorem before2_2 (c : Dev nD) (t : Fin cfg2.N) (d) : (dat2 V c).before 2 t d = iblk2 V c 2 t := by
  have hkeep : ∀ s, (cfg2.win 2).cut (cfg2.grid.coords s) ((dat2 V c).after 2 s) = (dat2 V c).blockOf 2 s := by
    intro s; rw [after2_2 V c s]; unfold Dat.blockOf iblk2; rw [A_eq2 V c 2]; try rfl
  rw [(dat2 V c).before_in_eq_fetched 2 rfl (fun _ => rfl) (fun _ _ _ => rfl) hkeep t d]
  unfold Dat.fetched Dat.blockOf iblk2; rw [A_eq2 V c 2]; try rfl

/-! ## The body obligation at a point -/

/-- What the body is handed at point `t`: the invariant, what the core owes, and each window's current staging buffer
    at what it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body hands back: the invariant after the point, the same debt, each buffer at what the body leaves in it
    (the output's as found where the window is idle and not written back). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 2000000 in
/-- The body at any point. The three input buffers hold their blocks; the position within the contraction says which of
    the three control cases the point is in. At a first step the scratch, at whatever the invariant holds it, is reset, so
    it ends at the step from the reset value; at a later step the invariant holds it at what the point before left and it
    ends at the step from that; either way that is the accumulation's value at the point. The output buffer is handed
    back as found except at a last step, where it ends at the scratch plus the residual block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl, PhiS2_succ, PhiS2_castSucc]
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2]
  have hN : t.val < 176 := lt_of_lt_of_eq t.isLt (show cfg2.N = 176 from N_2)
  by_cases h0 : t.val % 11 = 0
  · -- a first step: reset, then accumulate; the output window idle
    have h1 : ¬ t.val % 11 = 10 := by omega
    have hc0 : cond2_0 (grid2.coords t) := (hcond2_0 t).mpr h0
    have hc1 : ¬ cond2_1 (grid2.coords t) := fun h => h1 ((hcond2_1 t).mp h)
    rw [Dat.leavesExact_idle (dat2 V c) 3 t (idleAt2_3 _ hc1) (noFlush2_3 t h1), acc2_reset V c t h0]
    iintro ⟨HΦ, Ho, ⟨%d0, H0⟩, ⟨%d1, H1⟩, ⟨%d2, H2⟩, ⟨%d3, H3⟩⟩
    ihave HΦ' := (PhiS2_open V c t.val _) $$ HΦ
    icases HΦ' with ⟨HS, Hr, Hg⟩
    iapply (sound_kernel2_A c Set.univ (grid2.coords t) hc0 hc1 _ _ _ _ _ _ _ _ _ _
      (iblk2 V c 0 t) (iblk2 V c 1 t) (iblk2 V c 2 t) ((dat2 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬ cond2_0 (grid2.coords t) := fun h => h0 ((hcond2_0 t).mp h)
    rw [PhiS2_pos V c _ _ hz, acc2_step V c t h0]
    by_cases h1 : t.val % 11 = 10
    · -- a last step: accumulate, then store the output
      have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 _ hc1], after2_3, acc2_step V c t h0]
      iintro ⟨⟨HS, Hr, Hg⟩, Ho, ⟨%d0, H0⟩, ⟨%d1, H1⟩, ⟨%d2, H2⟩, ⟨%d3, H3⟩⟩
      iapply (sound_kernel2_C c Set.univ (grid2.coords t) hc0 hc1 _ _ _ _ _ _ _ _ _ _
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · -- an inner step: accumulate; the output window idle
      have hc1 : ¬ cond2_1 (grid2.coords t) := fun h => h1 ((hcond2_1 t).mp h)
      rw [Dat.leavesExact_idle (dat2 V c) 3 t (idleAt2_3 _ hc1) (noFlush2_3 t h1)]
      iintro ⟨⟨HS, Hr, Hg⟩, Ho, ⟨%d0, H0⟩, ⟨%d1, H1⟩, ⟨%d2, H2⟩, ⟨%d3, H3⟩⟩
      iapply (sound_kernel2_B c Set.univ (grid2.coords t) hc0 hc1 _ _ _ _ _ _ _ _ _ _
        (iblk2 V c 0 t) (iblk2 V c 1 t) (iblk2 V c 2 t) ((dat2 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : (Pipeline.ΦA spec2 c : sProp 𝕄) ⊢ (dat2 V c).Φ 0 := by
  rw [show (dat2 V c).Φ 0 = PhiS2 V c 0 (Nat.zero_le _) from rfl]
  exact Idealize.SL.BI.Entails.refl _

/-- After the last point the invariant gives the scoped rest and the generator register back, the scratch's contents forgotten. -/
theorem hout2 (c : Dev nD) : (dat2 V c).Φ (Fin.last cfg2.N) ⊢ (Pipeline.ΦA spec2 c : sProp 𝕄) := by
  rw [show (dat2 V c).Φ (Fin.last cfg2.N) = PhiS2 V c cfg2.N (Nat.le_refl _) from rfl]
  exact (PhiS2_open V c _ _).trans (PhiA2_close c)

end Region2

end Cert.Kernel.Hand

end
-- ==== Proof.K.Fold.lean ====
/-
  A core's unscoped buffers followed through @main's twelve items, from the launch memory: a stretch of host operations
  leaves what its operations compute from what it found; a region leaves each of its windows' arrays at what its
  write-backs fold to after the last point (an input's array as entered) and every other buffer as entered.
  `W0` is the launch, `W1` the entry of region 0, `W2` its exit, `W3` … `W9` after each of the seven stretches that
  follow (`W9` the entry of region 1), `W10` region 1's exit and region 2's entry, `W11` region 2's exit, `W12` the end.
-/
import proofs.«135343_j29592324669776_1_alg».proof.Proof.K.Region0
import proofs.«135343_j29592324669776_1_alg».proof.Proof.K.Region1
import proofs.«135343_j29592324669776_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first stretch: what region 0 is entered from, -/
abbrev W1 : Dev nD → Valuation τ sig (Elt F) := fun c => StableHlo.after hostOps0 (W0 m c)
/-- and the same read at the core's references (what region 0's proof data take). -/
abbrev V1 : (c : Dev nD) → (b : Ref sig .tc) → Buf (Elt F) ((c : Thread nD τ).loc b) := fun c b => W1 m c b

/-- After region 0. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- After each of the seven stretches between region 0 and region 1. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
/-- Region 1's entry contents at the core's references. -/
abbrev V9 : (c : Dev nD) → (b : Ref sig .tc) → Buf (Elt F) ((c : Thread nD τ).loc b) := fun c b => W9 m c b

/-- After region 1. -/
def W10 (c : Dev nD) : Valuation τ sig (Elt F) :=
  Pipeline.withArrays spec1 c (W9 m c) fun w => (dat1 (V9 m) c).arrAt w cfg1.N
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
/-- Region 2's entry contents at the core's references. -/
abbrev V10 : (c : Dev nD) → (b : Ref sig .tc) → Buf (Elt F) ((c : Thread nD τ).loc b) := fun c b => W10 m c b

/-- After region 2. -/
def W11 (c : Dev nD) : Valuation τ sig (Elt F) :=
  Pipeline.withArrays spec2 c (W10 m c) fun w => (dat2 (V10 m) c).arrAt w cfg2.N
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb

/-- After the last stretch: what the program ends with. -/
abbrev W12 : Dev nD → Valuation τ sig (Elt F) := fun c => StableHlo.after hostOps3 (W11 m c)

end Cert.Kernel.Hand

end
-- ==== Proof.K.Run.lean ====
/-
  The launch of the whole program. @main is twelve items in order: a stretch of host operations, region 0 (the attention
  projection), seven stretches of host operations, region 1 (the gated up-projection), region 2 (the down-projection
  with its residual), and a last stretch of host operations. Over the fold of a core's unscoped buffers through the
  twelve items, this module makes each item a segment over the thread state "every unscoped buffer at the boundary's
  contents, the generator register at some state, nothing owed", and concludes that every weakly fair execution
  terminates with every unscoped buffer at the last boundary's contents; in particular the six argument arrays end as
  launched.
-/
import proofs.«135343_j29592324669776_1_alg».proof.Proof.Gen.Kernel.Launch
import proofs.«135343_j29592324669776_1_alg».proof.Proof.Gen.Kernel.Skeleton
import proofs.«135343_j29592324669776_1_alg».proof.Proof.Gen.Kernel.Points
import proofs.«135343_j29592324669776_1_alg».proof.Proof.Gen.Kernel.Regions
import proofs.«135343_j29592324669776_1_alg».proof.Proof.K.Region0
import proofs.«135343_j29592324669776_1_alg».proof.Proof.K.Region1
import proofs.«135343_j29592324669776_1_alg».proof.Proof.K.Region2
import proofs.«135343_j29592324669776_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit contents are, in the two forms its exit takes them -/

/-- Region 0's exit contents at the core's references; each of its arrays holds what the pipeline leaves and every other
    buffer what it held at entry. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same of region 1 (its exit contents are region 2's entry contents) -/
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)
/-- and of region 2. -/
abbrev V11 : (c : Dev nD) → (b : Ref sig .tc) → Buf (Elt F) ((c : Thread nD τ).loc b) := fun c b => W11 m c b
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => W11_of_ne m c b fun w e => hb (Finset.mem_image.mpr ⟨w, Finset.mem_univ _, e⟩)

/-! ## The proof data of the three pipelines and the thread state -/

/-- Each pipeline's proof data at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V9 m) c
  | ⟨2, _⟩ => fun c => dat2 (V10 m) c
abbrev 𝒱₀ : Variants := Variants.none
/-- No core owes another anything. -/
abbrev L : GSem nD τ sig → Finset Unit := fun _ => ∅
abbrev lv : GSem nD τ sig → Unit → ℕ := fun _ _ => 0
/-- Beside the buffers a core holds its generator register at some state and owes nothing. -/
abbrev R (c : Dev nD) : sProp 𝕄 := iprop((∃ r, prngReg c r) ∗ ∃ T, owes (c : Thread nD τ) (0 : CellTallies nD τ sig Unit) T)
/-- A stretch of host operations as a segment over every unscoped buffer, entered at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is one the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debt. -/
abbrev Tₙ (c : Dev nD) : sProp 𝕄 := iprop(StableHlo.held (c : Thread nD τ) (Pipeline.ucRefs τ sig) (W12 m c) ∗ ∃ r, prngReg c r)

/-! ## The three regions as segments

Each region takes its windows' arrays out of the unscoped buffers at entry and puts them back at exit, at what its
write-backs leave; the generator register and the scoped buffers enter the pipeline's invariant and come back. Regions 0
and 1 carry nothing between points; region 2's invariant carries its scratch, and is entered and left through the two
ends stated with it. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hgen]; · iexact Hgen
    iexact Hrest
  hin c := by
    rw [show (pdats m 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%T, -, Howes⟩; iexists T; iexact Howes

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hgen]; · iexact Hgen
    iexact Hrest
  hin c := by
    rw [show (pdats m 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%T, -, Howes⟩; iexists T; iexact Howes

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m) c).loose
  hwaits := Pipeline.hwaits_of_owed_zero _ _ _ _ L lv 2 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec2 c (V10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V10 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hgen]; · iexact Hgen
    iexact Hrest
  hin c := by
    have hΦ : (Pipeline.ΦA spec2 c : sProp 𝕄) ⊢ (pdats m 2 c).Φ 0 := hin2 (V10 m) c
    unfold Pipeline.ΦA at hΦ
    iintro ⟨Hg, -, Hs⟩
    iapply hΦ
    isplitl [Hs]; · iexact Hs
    iexact Hg
  hout c := by
    rw [Pipeline.ownSems0_none]
    have hΦ : (pdats m 2 c).Φ (Fin.last _) ⊢ (Pipeline.ΦA spec2 c : sProp 𝕄) := hout2 (V10 m) c
    unfold Pipeline.ΦA at hΦ
    iintro HΦ
    ihave Hsg := hΦ $$ HΦ
    icases Hsg with ⟨Hs, Hg⟩
    isplitl [Hg]; · iexact Hg
    isplitr; · iempintro
    iexact Hs
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V10 m c) (V11 m c) ((pdats m 2 c).arrAt · cfg2.N) (hF2 m c) (hrest2 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%T, -, Howes⟩; iexists T; iexact Howes

/-- The last stretch's exit state is the last thread state beside the core owing nothing. -/
theorem last_state (c : Dev nD) :
    iprop(StableHlo.held (c : Thread nD τ) (Pipeline.ucRefs τ sig) (W12 m c) ∗ R (F := F) c)
      ⊢ iprop(Tₙ m c ∗ ∃ T, owes (c : Thread nD τ) (0 : CellTallies nD τ sig Unit) T) := by
  iintro ⟨Hh, Hg, Ho⟩
  isplitl [Hh Hg]
  · isplitl [Hh]; · iexact Hh
    iexact Hg
  iexact Ho

/-! ## @main as the run of its twelve segments -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .region (reg1 m),
    .region (reg2 m),
    .host (hseg hostOps3 hostOps3_sub hostOps3_fresh (W11 m)) ]

/-- @main is the run of the segments: it is the chain of its items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main on the cores terminates, nothing
    faulting, and in every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-! ## The arguments end as launched

No stretch writes an argument, and a region either reads it through an input window (whose array it leaves as entered)
or does not touch it, so the fold at an argument's buffer walks back to the launch memory. -/

/-- The seven stretches between region 0 and region 1 leave a buffer none of them writes as region 0 left it. -/
theorem W9_of_W2 (c : Dev nD) (r : Ref sig .tc) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W) :
    W9 m c (Proc.devRef .tc r) = W2 m c (Proc.devRef .tc r) :=
  calc W9 m c (Proc.devRef .tc r)
    _ = W8 m c (Proc.devRef .tc r) := StableHlo.after_of_writes_sub hostOps1_6 _ hostOps1_6_writes h7
    _ = W7 m c (Proc.devRef .tc r) := StableHlo.after_of_writes_sub hostOps1_5 _ hostOps1_5_writes h6
    _ = W6 m c (Proc.devRef .tc r) := StableHlo.after_of_writes_sub hostOps1_4 _ hostOps1_4_writes h5
    _ = W5 m c (Proc.devRef .tc r) := StableHlo.after_of_writes_sub hostOps1_3 _ hostOps1_3_writes h4
    _ = W4 m c (Proc.devRef .tc r) := StableHlo.after_of_writes_sub hostOps1_2 _ hostOps1_2_writes h3
    _ = W3 m c (Proc.devRef .tc r) := StableHlo.after_of_writes_sub hostOps1_1 _ hostOps1_1_writes h2
    _ = W2 m c (Proc.devRef .tc r) := StableHlo.after_of_writes_sub hostOps1 _ hostOps1_writes h1

theorem W12_main_arg0 (c : Dev nD) : W12 m c (Proc.devRef .tc main_arg0) = m ((c : Thread nD τ).loc main_arg0) :=
  calc W12 m c (Proc.devRef .tc main_arg0)
    _ = W11 m c (Proc.devRef .tc main_arg0) := StableHlo.after_of_writes_sub hostOps3 _ hostOps3_writes (r := main_arg0) (by decide)
    _ = W10 m c (Proc.devRef .tc main_arg0) := W11_of_ne m c main_arg0 (by decide)
    _ = W9 m c (Proc.devRef .tc main_arg0) := W10_of_ne m c main_arg0 (by decide)
    _ = W2 m c (Proc.devRef .tc main_arg0) := W9_of_W2 m c main_arg0 (by decide) (by decide) (by decide) (by decide) (by decide) (by decide) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W12_main_arg1 (c : Dev nD) : W12 m c (Proc.devRef .tc main_arg1) = m ((c : Thread nD τ).loc main_arg1) :=
  calc W12 m c (Proc.devRef .tc main_arg1)
    _ = W11 m c (Proc.devRef .tc main_arg1) := StableHlo.after_of_writes_sub hostOps3 _ hostOps3_writes (r := main_arg1) (by decide)
    _ = W10 m c (Proc.devRef .tc main_arg1) := W11_of_ne m c main_arg1 (by decide)
    _ = W9 m c (Proc.devRef .tc main_arg1) := W10_of_ne m c main_arg1 (by decide)
    _ = W2 m c (Proc.devRef .tc main_arg1) := W9_of_W2 m c main_arg1 (by decide) (by decide) (by decide) (by decide) (by decide) (by decide) (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (r := main_arg1) (by decide)
    _ = m ((c : Thread nD τ).loc main_arg1) := rfl
theorem W12_main_arg2 (c : Dev nD) : W12 m c (Proc.devRef .tc main_arg2) = m ((c : Thread nD τ).loc main_arg2) :=
  calc W12 m c (Proc.devRef .tc main_arg2)
    _ = W11 m c (Proc.devRef .tc main_arg2) := StableHlo.after_of_writes_sub hostOps3 _ hostOps3_writes (r := main_arg2) (by decide)
    _ = W10 m c (Proc.devRef .tc main_arg2) := W11_of_ne m c main_arg2 (by decide)
    _ = W9 m c (Proc.devRef .tc main_arg2) := W10_of_ne m c main_arg2 (by decide)
    _ = W2 m c (Proc.devRef .tc main_arg2) := W9_of_W2 m c main_arg2 (by decide) (by decide) (by decide) (by decide) (by decide) (by decide) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W12_main_arg3 (c : Dev nD) : W12 m c (Proc.devRef .tc main_arg3) = m ((c : Thread nD τ).loc main_arg3) :=
  calc W12 m c (Proc.devRef .tc main_arg3)
    _ = W11 m c (Proc.devRef .tc main_arg3) := StableHlo.after_of_writes_sub hostOps3 _ hostOps3_writes (r := main_arg3) (by decide)
    _ = W10 m c (Proc.devRef .tc main_arg3) := W11_of_ne m c main_arg3 (by decide)
    _ = W9 m c (Proc.devRef .tc main_arg3) := (W10_arr m c 1).trans (((dat1 (V9 m) c).arrAt_in 1 rfl _).trans (A_eq1 (V9 m) c 1))
    _ = W2 m c (Proc.devRef .tc main_arg3) := W9_of_W2 m c main_arg3 (by decide) (by decide) (by decide) (by decide) (by decide) (by decide) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W12_main_arg4 (c : Dev nD) : W12 m c (Proc.devRef .tc main_arg4) = m ((c : Thread nD τ).loc main_arg4) :=
  calc W12 m c (Proc.devRef .tc main_arg4)
    _ = W11 m c (Proc.devRef .tc main_arg4) := StableHlo.after_of_writes_sub hostOps3 _ hostOps3_writes (r := main_arg4) (by decide)
    _ = W10 m c (Proc.devRef .tc main_arg4) := W11_of_ne m c main_arg4 (by decide)
    _ = W9 m c (Proc.devRef .tc main_arg4) := W10_of_ne m c main_arg4 (by decide)
    _ = W2 m c (Proc.devRef .tc main_arg4) := W9_of_W2 m c main_arg4 (by decide) (by decide) (by decide) (by decide) (by decide) (by decide) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W12_main_arg5 (c : Dev nD) : W12 m c (Proc.devRef .tc main_arg5) = m ((c : Thread nD τ).loc main_arg5) :=
  calc W12 m c (Proc.devRef .tc main_arg5)
    _ = W11 m c (Proc.devRef .tc main_arg5) := StableHlo.after_of_writes_sub hostOps3 _ hostOps3_writes (r := main_arg5) (by decide)
    _ = W10 m c (Proc.devRef .tc main_arg5) := W11_of_ne m c main_arg5 (by decide)
    _ = W9 m c (Proc.devRef .tc main_arg5) := W10_of_ne m c main_arg5 (by decide)
    _ = W2 m c (Proc.devRef .tc main_arg5) := W9_of_W2 m c main_arg5 (by decide) (by decide) (by decide) (by decide) (by decide) (by decide) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-- THE FRAME: every weakly fair execution of @main terminates, nothing faulting, and every final state has the six
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W12_main_arg0 m c),
      (h c _ (mem_uc main_arg1 (by decide))).trans (W12_main_arg1 m c),
      (h c _ (mem_uc main_arg2 (by decide))).trans (W12_main_arg2 m c),
      (h c _ (mem_uc main_arg3 (by decide))).trans (W12_main_arg3 m c),
      (h c _ (mem_uc main_arg4 (by decide))).trans (W12_main_arg4 m c),
      (h c _ (mem_uc main_arg5 (by decide))).trans (W12_main_arg5 m c)⟩) (run_all m ρ)

end Cert.Kernel.Hand

end
-- ==== Proof.KI.Region0.lean ====
/-
  Region 0 of the program (the attention projection): one grid point (i, j) of 16 × 4 reads a block of 256 rows of the
  input (all 4096 columns), the whole norm weight and a 4096 × 1024 column block of the projection weight, and stores the
  256 × 1024 block  x[r, j·1024 + e] + Σ_d (x[r, d] · rsqrt(Σ_d' x[r, d']² / 4096 + ε) · w[d]) · o[d, j·1024 + e].
  This module states what the body leaves in its output buffer as a function of the three input blocks and the point's
  column offset, the body's triple, the proof data of the pipeline at any entry contents `V`, and the body obligation.
-/
import proofs.«135343_j29592324669776_1_alg».proof.Proof.Gen.KernelIdeal.Launch
import proofs.«135343_j29592324669776_1_alg».proof.Proof.Gen.KernelIdeal.Skeleton
import proofs.«135343_j29592324669776_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: the three input buffers whole, the residual's 256 × 1024 columns of the
    row block at the point's column offset, the output buffer whole. -/
abbrev r0_x : Rect S256x4096 := Rect.unit (s := S256x4096) ![0, 0] S256x4096.size inb_S256x4096_S256x4096_0_0
abbrev r0_w : Rect S4096 := Rect.unit (s := S4096) ![0] S4096.size inb_S4096_S4096_0
abbrev r0_o : Rect S4096x1024 := Rect.unit (s := S4096x1024) ![0, 0] S4096x1024.size inb_S4096x1024_S4096x1024_0_0
abbrev r0_res (i : grid0.Coords) : Rect S256x4096 := Rect.unit (s := S256x4096) (k0_off1 i) S256x1024.size (k0_off1_inb i)
abbrev r0_out : Rect S256x1024 := Rect.unit (s := S256x1024) ![0, 0] S256x1024.size inb_S256x1024_S256x1024_0_0

/-- What the body leaves in the output window's buffer at grid coordinates `i`, from the three input blocks. -/
def out0_3 (i : grid0.Coords) (x0 : Vec F S256x4096 .f32) (x1 : Vec F S4096 .f32) (x2 : Vec F S4096x1024 .bf16) : Vec F S256x1024 .f32 :=
  View.canon [⟨r0_out, k0_pay1 (View.ld x0 r0_x) (View.ld x1 r0_w) (View.ld x2 r0_o) (View.ld x0 (r0_res i))⟩]

theorem cover0_3 (p0 : Vec F S256x1024 .f32) (y : S256x1024.Idx) :
    ∃ pc ∈ ([⟨r0_out, p0⟩] : List (View.Piece (Elt F) S256x1024 .f32)), y ∈ pc.1.set :=
  View.cover_of_tiled [⟨r0_out, p0⟩] S256x1024.size (by rfl) y

set_option maxHeartbeats 1000000 in
/-- The body's triple on whole staging memrefs. -/
theorem sound_kernel0 (c : Dev nD) (E : Set ℕ) (i : grid0.Coords)
    (arg2 : Memref sig .tc .vmem S256x4096 .f32) (harg2 : arg2.IsWhole) (arg3 : Memref sig .tc .vmem S4096 .f32) (harg3 : arg3.IsWhole)
    (arg4 : Memref sig .tc .vmem S4096x1024 .bf16) (harg4 : arg4.IsWhole) (arg5 : Memref sig .tc .vmem S256x1024 .f32) (harg5 : arg5.IsWhole)
    (x0 : Vec F S256x4096 .f32) (x1 : Vec F S4096 .f32) (x2 : Vec F S4096x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c` at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]

/-- The first input window (the row block, all columns) finds its block in its current staging buffer at every point:
    the window is an input, never idle, its blocks tile the array, and the body leaves its buffer as found; where the
    pipeline does not fetch (the block index has not moved) the buffer still holds the same block. Stated for any proof
    data whose array is the entry contents and whose body keeps the block. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ s, (cfg0.win 0).cut (cfg0.grid.coords s) (dat.after 0 s) = dat.blockOf 0 s := by
    intro s; rw [hafter s]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The same of the norm weight (one block, fetched once). -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ s, (cfg0.win 1).cut (cfg0.grid.coords s) (dat.after 1 s) = dat.blockOf 1 s := by
    intro s; rw [hafter s]; unfold Dat.blockOf iblk0; rw [hA]; try rfl
  rw [dat.before_in_eq_fetched 1 rfl (fun _ => rfl) (fun _ _ _ => rfl) hkeep t d]
  unfold Dat.fetched Dat.blockOf iblk0; rw [hA]; try rfl

/-- The same of the projection weight's column block (fetched at every point). -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ s, (cfg0.win 2).cut (cfg0.grid.coords s) (dat.after 2 s) = dat.blockOf 2 s := by
    intro s; rw [hafter s]; unfold Dat.blockOf iblk0; rw [hA]; try rfl
  rw [dat.before_in_eq_fetched 2 rfl (fun _ => rfl) (fun _ _ _ => rfl) hkeep t d]
  unfold Dat.fetched Dat.blockOf iblk0; rw [hA]; try rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`: the invariant, what the core owes, and each window's current staging buffer
    at what it holds before the body (the output's at anything). -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant and debt, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at point `t`: the three input buffers hold their blocks, so the body's triple applies at the point's
    staging memrefs; the invariant and the debt are neither read nor changed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  Region 1 of the program (the gated up-projection): one grid point (i, j) of 32 × 11 reads a block of 128 rows of the
  activations (all 4096 columns), the whole norm weight and the j-th 4096 × 1024 column blocks of the gate and the up
  weights, and stores the 128 × 1024 block  act[r, j·1024 + e] = (g · logistic g) · u  with  g = Σ_d h[r, d] · G[d, j·1024 + e],
  u = Σ_d h[r, d] · U[d, j·1024 + e]  and  h[r, d] = y[r, d] · rsqrt(Σ_d' y[r, d']² / 4096 + ε) · w[d].
  This module states what the body leaves in its output buffer as a function of the four input blocks, the body's triple,
  the proof data of the pipeline at any entry contents `V`, and the body obligation.
-/
import proofs.«135343_j29592324669776_1_alg».proof.Proof.Gen.KernelIdeal.Launch
import proofs.«135343_j29592324669776_1_alg».proof.Proof.Gen.KernelIdeal.Skeleton
import proofs.«135343_j29592324669776_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: every buffer whole. -/
abbrev r1_x : Rect S128x4096 := Rect.unit (s := S128x4096) ![0, 0] S128x4096.size inb_S128x4096_S128x4096_0_0
abbrev r1_w : Rect S4096 := Rect.unit (s := S4096) ![0] S4096.size inb_S4096_S4096_0
abbrev r1_g : Rect S4096x1024 := Rect.unit (s := S4096x1024) ![0, 0] S4096x1024.size inb_S4096x1024_S4096x1024_0_0
abbrev r1_out : Rect S128x1024 := Rect.unit (s := S128x1024) ![0, 0] S128x1024.size inb_S128x1024_S128x1024_0_0

/-- What the body leaves in the output window's buffer, from the four input blocks. -/
def out1_4 (x0 : Vec F S128x4096 .f32) (x1 : Vec F S4096 .f32) (x2 x3 : Vec F S4096x1024 .bf16) : Vec F S128x1024 .bf16 :=
  View.canon [⟨r1_out, k1_pay1 (View.ld x0 r1_x) (View.ld x1 r1_w) (View.ld x2 r1_g) (View.ld x3 r1_g)⟩]

theorem cover1_4 (p0 : Vec F S128x1024 .bf16) (y : S128x1024.Idx) :
    ∃ pc ∈ ([⟨r1_out, p0⟩] : List (View.Piece (Elt F) S128x1024 .bf16)), y ∈ pc.1.set :=
  View.cover_of_tiled [⟨r1_out, p0⟩] S128x1024.size (by rfl) y

set_option maxHeartbeats 1000000 in
/-- The body's triple on whole staging memrefs. -/
theorem sound_kernel1 (c : Dev nD) (E : Set ℕ) (i : grid1.Coords)
    (arg2 : Memref sig .tc .vmem S128x4096 .f32) (harg2 : arg2.IsWhole) (arg3 : Memref sig .tc .vmem S4096 .f32) (harg3 : arg3.IsWhole)
    (arg4 : Memref sig .tc .vmem S4096x1024 .bf16) (harg4 : arg4.IsWhole) (arg5 : Memref sig .tc .vmem S4096x1024 .bf16) (harg5 : arg5.IsWhole)
    (arg6 : Memref sig .tc .vmem S128x1024 .bf16) (harg6 : arg6.IsWhole)
    (x0 : Vec F S128x4096 .f32) (x1 : Vec F S4096 .f32) (x2 x3 : Vec F S4096x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__mlp_up_kernel i arg2 harg2 arg3 harg3 arg4 harg4 arg5 harg5 arg6 harg6) K := by
  simp only [cc1__mlp_up_kernel_eq_skeleton]; unfold cc1__mlp_up_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c` at entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! The input windows' buffers as the body finds them. -/

/-- Input window 0's current staging buffer holds its block at every point, whether or not the point fetches it: for any
    proof data whose array 0 is `V`'s and whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1's current staging buffer holds its block at every point, whether or not the point fetches it: for any
    proof data whose array 1 is `V`'s and whose body leaves that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2's current staging buffer holds its block at every point, whether or not the point fetches it: for any
    proof data whose array 2 is `V`'s and whose body leaves that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- Input window 3's current staging buffer holds its block at every point, whether or not the point fetches it: for any
    proof data whose array 3 is `V`'s and whose body leaves that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The body at a point `t`: each input's staging buffer holds its block, so the body's triple applies at the point's staging
    memrefs; the invariant and what the core owes are the same before and after, and pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t))) := by
  unfold bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := by
  intro t
  rw [bigSep_W1, bigSep_W1]
  exact sound_body1 V c t

end Region1

end Cert.KernelIdeal.Hand

end
-- ==== Proof.KI.Region2.lean ====
/-
  Region 2 of the program (the down-projection with its residual): the grid is 4 × 4 × 11, its last axis the eleven
  1024-wide steps of the contraction. At a point (i, j, k) the body reads the (i, k) block of the activations, the (k, j)
  block of the down weight and the (i, j) block of the residual; a 1024 × 1024 scratch carries the partial sum over k:
  it is reset to zero at k = 0, the step's product is added at every k, and at k = 10 the sum plus the residual block
  is stored into the output block (i, j), which is written back there and only there.
  This module states the scratch after each point as a recursion over the points, the output buffer at the last step,
  the proof data at any entry contents `V` with the invariant that holds the scratch at that recursion's value,
  the body obligation, and the invariant's two ends.
-/
import proofs.«135343_j29592324669776_1_alg».proof.Proof.Gen.KernelIdeal.Launch
import proofs.«135343_j29592324669776_1_alg».proof.Proof.Gen.KernelIdeal.Skeleton
import proofs.«135343_j29592324669776_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Every access of the body is to a whole 1024 × 1024 buffer. -/
abbrev r2 : Rect S1024x1024 := Rect.unit (s := S1024x1024) ![0, 0] S1024x1024.size inb_S1024x1024_S1024x1024_0_0
/-- The scratch the kernel carries between points. -/
abbrev scM2 : Memref sig .tc .vmem S1024x1024 .f32 := Memref.whole cc2_scratch0

/-- The scratch after the reset: zero everywhere. -/
def reset2 : Vec F S1024x1024 .f32 := k2_pay1 (F := F)
/-- The scratch after a step, from what it held and the step's two blocks: the held value plus their product. -/
def step2 (s : Vec F S1024x1024 .f32) (a d : Vec F S1024x1024 .bf16) : Vec F S1024x1024 .f32 := k2_pay2 s a d
/-- The output block at the last step, from the scratch and the residual block: their sum. -/
def fin2 (s x : Vec F S1024x1024 .f32) : Vec F S1024x1024 .f32 := k2_pay3 s x

/-- The first conditional's test as the body computes it from the grid coordinates: the last coordinate is zero. -/
abbrev cond2_0 (i : grid2.Coords) : Prop :=
  (Scalar.cmpi .ne (Scalar.extui (Scalar.cmpi .eq (BitVec.ofNat 32 (i 2).val) 0#32)) 0#32) = 1#1
/-- The second conditional's test: the last coordinate is ten. -/
abbrev cond2_1 (i : grid2.Coords) : Prop := k2_cond2 i = 1#1

/-- The whole-buffer rectangle's offsets are zero. -/
theorem off2 : (![0, 0] : Fin 2 → ℕ) = fun _ => 0 := funext fun a => by fin_cases a <;> rfl

/-- A store through the whole-buffer rectangle, made last, covers every index. -/
theorem cover2 {e : EltTy} (w : S1024x1024.Idx → Elt F e) (L : List (View.Piece (Elt F) S1024x1024 e)) (y : S1024x1024.Idx) :
    ∃ pc ∈ ((⟨r2, w⟩ : View.Piece (Elt F) S1024x1024 e) :: L), y ∈ pc.1.set :=
  ⟨_, List.mem_cons_self .., View.mem_set_unit_zero off2 inb_S1024x1024_S1024x1024_0_0 y⟩

/-- After a whole-buffer store, made last, the buffer reads as the value stored, whatever it held and whatever was stored before. -/
theorem read_store2 {κ : Kind} {sp : Space} {e : EltTy} (v : View sig κ sp S1024x1024 e) (f : v.ty.Contents (Elt F))
    (w : S1024x1024.Idx → Elt F e) (L : List (View.Piece (Elt F) S1024x1024 e)) :
    v.read (Elt F) (v.writes (Elt F) f ((⟨r2, w⟩ : View.Piece (Elt F) S1024x1024 e) :: L)) = w := by
  rw [View.read_writes_eq_canon _ _ _ (cover2 w L), View.canon_cons_unit_zero off2]

/-- A whole-buffer load reads the buffer's contents. -/
theorem load2 {κ : Kind} {sp : Space} {e : EltTy} (v : View sig κ sp S1024x1024 e) (f : v.ty.Contents (Elt F)) :
    v.readAt (Elt F) r2.toLoadRect f = v.read (Elt F) f := by
  rw [View.readAt_eq_ld, View.ld_unit_zero off2]

/-- The step's value from whole-buffer loads of the scratch and the two blocks is the step from their contents. -/
theorem step2_of_loads {κ : Kind} {sp : Space} (v7 : View sig κ sp S1024x1024 .f32) (v3 v4 : View sig κ sp S1024x1024 .bf16)
    (f7 : v7.ty.Contents (Elt F)) (f0 : v3.ty.Contents (Elt F)) (f1 : v4.ty.Contents (Elt F)) :
    k2_pay2 (v7.readAt (Elt F) r2.toLoadRect f7) (v3.readAt (Elt F) r2.toLoadRect f0) (v4.readAt (Elt F) r2.toLoadRect f1)
      = step2 (v7.read (Elt F) f7) (v3.read (Elt F) f0) (v4.read (Elt F) f1) := by
  rw [load2, load2, load2]; rfl

/-! ## Where the two conditionals hold on the grid, and where the output window is idle -/

/-- The first conditional holds exactly at the first step of each contraction. -/
theorem hcond2_0 : ∀ t : Fin cfg2.N, cond2_0 (grid2.coords t) ↔ t.val % 11 = 0 :=
  (by decide +kernel : ∀ t : Fin grid2.N, cond2_0 (grid2.coords t) ↔ t.val % 11 = 0)
/-- The second conditional holds exactly at the last step of each contraction. -/
theorem hcond2_1 : ∀ t : Fin cfg2.N, cond2_1 (grid2.coords t) ↔ t.val % 11 = 10 :=
  (by decide +kernel : ∀ t : Fin grid2.N, cond2_1 (grid2.coords t) ↔ t.val % 11 = 10)

/-- Where the second conditional fails the output window is idle, -/
theorem idleAt2_3 (i : grid2.Coords) (h : ¬ cond2_1 i) : cfg2.idle 3 i = true := by
  show (!(k2_cond2 i == 1#1)) = true
  rw [Bool.not_eq_true', beq_eq_false_iff_ne]; exact h
/-- and where it holds the window is live. -/
theorem liveAt2_3 (i : grid2.Coords) (h : cond2_1 i) : cfg2.idle 3 i = false := by
  show (!(k2_cond2 i == 1#1)) = false
  rw [Bool.not_eq_false', beq_iff_eq]; exact h
/-- Away from the last step of a contraction the output block is not written back. -/
theorem noFlush2_3 (t : Fin cfg2.N) (h : ¬ t.val % 11 = 10) : (cfg2.win 3).flush t = false :=
  Bool.eq_false_iff.mpr fun hf => h ((flush2_3 t).mp hf)

/-! ## The body on whole buffers, control case by control case -/

set_option maxHeartbeats 1000000 in
/-- The body at a first step of the contraction (last coordinate zero): the scratch, whatever it held, is reset and then
    holds the step from the reset value; nothing else changes. -/
theorem sound_kernel2_A (c : Dev nD) (E : Set ℕ) (i : grid2.Coords) (hc0 : cond2_0 i) (hc1 : ¬ cond2_1 i)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .bf16) (x2 x3 : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (step2 reset2 x0 x1)) -∗ K ⟨⟩))
      ⊢ wp frame (wpE (defs₀ (F := F)) Variants.none c none) E (cc2__mlp_down_kernel i arg3 harg3 arg4 harg4 arg5 harg5 arg6 harg6 arg7 harg7) K := by
  simp only [cc2__mlp_down_kernel_eq_skeleton]; unfold cc2__mlp_down_kernel_skel
  unfold owns
  iintro ⟨⟨%f0, %hf0, H0⟩, ⟨%f1, %hf1, H1⟩, ⟨%f2, %hf2, H2⟩, ⟨%f3, %hf3, H3⟩, ⟨%d7, %f7, -, H7⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H7
  ipureintro
  rw [read_store2, load2, load2]
  unfold step2 reset2
  congr 1
  sl_unfold_run_names
  exact View.readCov_unit_zero _ off2 _ _

set_option maxHeartbeats 1000000 in
/-- The body at an inner step of the contraction (last coordinate neither zero nor ten): the scratch holds the step from
    what it held; nothing else changes. -/
theorem sound_kernel2_B (c : Dev nD) (E : Set ℕ) (i : grid2.Coords) (hc0 : ¬ cond2_0 i) (hc1 : ¬ cond2_1 i)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .bf16) (x2 x3 s : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (step2 s x0 x1)) -∗ K ⟨⟩))
      ⊢ wp frame (wpE (defs₀ (F := F)) Variants.none c none) E (cc2__mlp_down_kernel i arg3 harg3 arg4 harg4 arg5 harg5 arg6 harg6 arg7 harg7) K := by
  simp only [cc2__mlp_down_kernel_eq_skeleton]; unfold cc2__mlp_down_kernel_skel
  unfold owns
  iintro ⟨⟨%f0, %hf0, H0⟩, ⟨%f1, %hf1, H1⟩, ⟨%f2, %hf2, H2⟩, ⟨%f3, %hf3, H3⟩, ⟨%f7, %hf7, H7⟩, Hk⟩
  subst hf0; subst hf1; subst hf2; subst hf3; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H7
  ipureintro
  rw [read_store2, load2, load2, load2]
  rfl

set_option maxHeartbeats 1000000 in
/-- The body at the last step of the contraction (last coordinate ten): the scratch holds the step from what it held, and
    the output buffer, whatever it held, that value plus the residual block. -/
theorem sound_kernel2_C (c : Dev nD) (E : Set ℕ) (i : grid2.Coords) (hc0 : ¬ cond2_0 i) (hc1 : cond2_1 i)
    (arg3 : Memref sig .tc .vmem S1024x1024 .bf16) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S1024x1024 .f32) (harg6 : arg6.IsWhole)
    (arg7 : Memref sig .tc .vmem S1024x1024 .f32) (harg7 : arg7.IsWhole)
    (x0 x1 : Vec F S1024x1024 .bf16) (x2 s : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (fin2 (step2 s x0 x1) x2) ∗ owns (c : Thread nD τ) arg7 fullShare (step2 s x0 x1)) -∗ K ⟨⟩))
      ⊢ wp frame (wpE (defs₀ (F := F)) Variants.none c none) E (cc2__mlp_down_kernel i arg3 harg3 arg4 harg4 arg5 harg5 arg6 harg6 arg7 harg7) K := by
  simp only [cc2__mlp_down_kernel_eq_skeleton]; unfold cc2__mlp_down_kernel_skel
  unfold owns
  iintro ⟨⟨%f0, %hf0, H0⟩, ⟨%f1, %hf1, H1⟩, ⟨%f2, %hf2, H2⟩, ⟨%d3, %f3, -, H3⟩, ⟨%f7, %hf7, H7⟩, Hk⟩
  subst hf0; subst hf1; subst hf2; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store2, load2]
    unfold fin2
    congr 1
    sl_unfold_run_names
    refine (View.readCov_unit_zero _ off2 _ _).trans ?_
    exact step2_of_loads _ _ _ _ _ _
  iexists _; isplitr
  swap; · iexact H7
  ipureintro
  sl_unfold_run_names
  refine (read_store2 _ _ _ _).trans ?_
  exact step2_of_loads _ _ _ _ _ _

/-- THE ACCUMULATION: what the scratch holds after the body at position `n` — at the first step of a contraction
    (`n ≡ 0 mod 11`) the step from the reset value, otherwise the step from what the point before left. -/
def acc2 (c : Dev nD) : (n : ℕ) → n < cfg2.N → Vec F S1024x1024 .f32
  | 0, hn => step2 reset2 (iblk2 V c 0 ⟨0, hn⟩) (iblk2 V c 1 ⟨0, hn⟩)
  | n + 1, hn =>
    if (n + 1) % 11 = 0 then step2 reset2 (iblk2 V c 0 ⟨n + 1, hn⟩) (iblk2 V c 1 ⟨n + 1, hn⟩)
    else step2 (acc2 c n (Nat.lt_of_succ_lt hn)) (iblk2 V c 0 ⟨n + 1, hn⟩) (iblk2 V c 1 ⟨n + 1, hn⟩)

theorem acc2_reset (c : Dev nD) (t : Fin cfg2.N) (h : t.val % 11 = 0) :
    acc2 V c t.val t.isLt = step2 reset2 (iblk2 V c 0 t) (iblk2 V c 1 t) := by
  obtain ⟨n, hn⟩ := t
  cases n with
  | zero => rfl
  | succ n => exact (if_pos h)

theorem acc2_step (c : Dev nD) (t : Fin cfg2.N) (h : ¬ t.val % 11 = 0) :
    acc2 V c t.val t.isLt = step2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact (if_neg h)

/-- The core's scoped buffers that region 2 neither stages nor carries (the other regions' staging buffers), each whole
    at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's invariant before position `n`: before the first point the scoped rest and the generator register as
    the region is handed them; afterwards the scratch at what the point before left, the other scoped buffers at
    anything, the generator register at some state. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ rest2 (F := F) c ∗ (∃ r, prngReg c r))

/-- The proof data of pipeline 2 on core `c` at entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = fin2 (acc2 V c t.val t.isLt) (iblk2 V c 2 t) := by dsimp only [dat2]

/-! ## The invariant's forms -/

/-- The rest of the core's scoped buffers and the scratch are what the region is handed: the scratch at anything. -/
theorem PhiA2_open (c : Dev nD) :
    (Pipeline.ΦA spec2 c : sProp 𝕄) ⊢ iprop((∃ d, owns (c : Thread nD τ) scM2 fullShare d) ∗ rest2 (F := F) c ∗ (∃ r, prngReg c r)) := by
  unfold Pipeline.ΦA rest2; rw [scopedRest2_eq]; simp only [owns_whole]
  iintro ⟨⟨R1, R2, R3, R4, R5, R6, R7, R8, R9, R10, R11, R12, R13, R14, R15, R16, HS⟩, Hg⟩
  isplitl [HS]; · iexact HS
  isplitr [Hg]; swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact R16

/-- Conversely, with the scratch's contents forgotten they are the scoped rest and the generator register. -/
theorem PhiA2_close (c : Dev nD) :
    iprop((∃ d, owns (c : Thread nD τ) scM2 fullShare d) ∗ rest2 (F := F) c ∗ (∃ r, prngReg c r)) ⊢ (Pipeline.ΦA spec2 c : sProp 𝕄) := by
  unfold Pipeline.ΦA rest2; rw [scopedRest2_eq]; simp only [owns_whole]
  iintro ⟨HS, ⟨R1, R2, R3, R4, R5, R6, R7, R8, R9, R10, R11, R12, R13, R14, R15, R16⟩, Hg⟩
  isplitr [Hg]; swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact HS

/-- Before a position that is not the first the scratch holds what the point before left. -/
theorem PhiS2_pos (c : Dev nD) (n : ℕ) (h : n ≤ cfg2.N) (hz : n ≠ 0) :
    PhiS2 V c n h = iprop(owns (c : Thread nD τ) scM2 fullShare (acc2 V c (n - 1) (by omega)) ∗ rest2 (F := F) c ∗ (∃ r, prngReg c r)) := by
  cases n with
  | zero => exact absurd rfl hz
  | succ n => rfl

/-- Before any position the invariant holds the scratch at something, the other scoped buffers and the generator register. -/
theorem PhiS2_open (c : Dev nD) (n : ℕ) (h : n ≤ cfg2.N) :
    PhiS2 V c n h ⊢ iprop((∃ d, owns (c : Thread nD τ) scM2 fullShare d) ∗ rest2 (F := F) c ∗ (∃ r, prngReg c r)) := by
  cases n with
  | zero => exact PhiA2_open c
  | succ n =>
    show iprop(owns (c : Thread nD τ) scM2 fullShare (acc2 V c n h) ∗ rest2 (F := F) c ∗ (∃ r, prngReg c r)) ⊢ _
    iintro ⟨HS, Hr, Hg⟩
    isplitl [HS]; · iexists _; iexact HS
    isplitl [Hr]; · iexact Hr
    iexact Hg

/-- The invariant at a point's start, restated at the point's position. -/
theorem PhiS2_castSucc (c : Dev nD) (t : Fin cfg2.N) :
    (dat2 V c).Φ t.castSucc = PhiS2 V c t.val (Nat.le_of_lt t.isLt) := rfl

/-- The invariant after a point: the scratch at that point's value. -/
theorem PhiS2_succ (c : Dev nD) (t : Fin cfg2.N) :
    (dat2 V c).Φ t.succ = iprop(owns (c : Thread nD τ) scM2 fullShare (acc2 V c t.val t.isLt) ∗ rest2 (F := F) c ∗ (∃ r, prngReg c r)) := rfl

/-! ## What the input windows' buffers hold when the body runs -/

/-- The activations' block sits in its current staging buffer at every point: the window is an input, never idle, its
    blocks tile the array, the body leaves the buffer as found, and where the block is not fetched anew its index has not
    moved. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := by
    intro s; rw [after2_0 V c s]; unfold Dat.blockOf iblk2; rw [A_eq2 V c 0]; try rfl
  rw [(dat2 V c).before_in_eq_fetched 0 rfl (fun _ => rfl) (fun _ _ _ => rfl) hkeep t d]
  unfold Dat.fetched Dat.blockOf iblk2; rw [A_eq2 V c 0]; try rfl

/-- The same of the down weight's block. -/
theorem before2_1 (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := by
    intro s; rw [after2_1 V c s]; unfold Dat.blockOf iblk2; rw [A_eq2 V c 1]; try rfl
  rw [(dat2 V c).before_in_eq_fetched 1 rfl (fun _ => rfl) (fun _ _ _ => rfl) hkeep t d]
  unfold Dat.fetched Dat.blockOf iblk2; rw [A_eq2 V c 1]; try rfl

/-- The same of the residual's block, fetched only at the first step of a contraction and kept through it. -/
theorem before2_2 (c : Dev nD) (t : Fin cfg2.N) (d) : (dat2 V c).before 2 t d = iblk2 V c 2 t := by
  have hkeep : ∀ s, (cfg2.win 2).cut (cfg2.grid.coords s) ((dat2 V c).after 2 s) = (dat2 V c).blockOf 2 s := by
    intro s; rw [after2_2 V c s]; unfold Dat.blockOf iblk2; rw [A_eq2 V c 2]; try rfl
  rw [(dat2 V c).before_in_eq_fetched 2 rfl (fun _ => rfl) (fun _ _ _ => rfl) hkeep t d]
  unfold Dat.fetched Dat.blockOf iblk2; rw [A_eq2 V c 2]; try rfl

/-! ## The body obligation at a point -/

/-- What the body is handed at point `t`: the invariant, what the core owes, and each window's current staging buffer
    at what it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body hands back: the invariant after the point, the same debt, each buffer at what the body leaves in it
    (the output's as found where the window is idle and not written back). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 2000000 in
/-- The body at any point. The three input buffers hold their blocks; the position within the contraction says which of
    the three control cases the point is in. At a first step the scratch, at whatever the invariant holds it, is reset, so
    it ends at the step from the reset value; at a later step the invariant holds it at what the point before left and it
    ends at the step from that; either way that is the accumulation's value at the point. The output buffer is handed
    back as found except at a last step, where it ends at the scratch plus the residual block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl, PhiS2_succ, PhiS2_castSucc]
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2]
  have hN : t.val < 176 := lt_of_lt_of_eq t.isLt (show cfg2.N = 176 from N_2)
  by_cases h0 : t.val % 11 = 0
  · -- a first step: reset, then accumulate; the output window idle
    have h1 : ¬ t.val % 11 = 10 := by omega
    have hc0 : cond2_0 (grid2.coords t) := (hcond2_0 t).mpr h0
    have hc1 : ¬ cond2_1 (grid2.coords t) := fun h => h1 ((hcond2_1 t).mp h)
    rw [Dat.leavesExact_idle (dat2 V c) 3 t (idleAt2_3 _ hc1) (noFlush2_3 t h1), acc2_reset V c t h0]
    iintro ⟨HΦ, Ho, ⟨%d0, H0⟩, ⟨%d1, H1⟩, ⟨%d2, H2⟩, ⟨%d3, H3⟩⟩
    ihave HΦ' := (PhiS2_open V c t.val _) $$ HΦ
    icases HΦ' with ⟨HS, Hr, Hg⟩
    iapply (sound_kernel2_A c Set.univ (grid2.coords t) hc0 hc1 _ _ _ _ _ _ _ _ _ _
      (iblk2 V c 0 t) (iblk2 V c 1 t) (iblk2 V c 2 t) ((dat2 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬ cond2_0 (grid2.coords t) := fun h => h0 ((hcond2_0 t).mp h)
    rw [PhiS2_pos V c _ _ hz, acc2_step V c t h0]
    by_cases h1 : t.val % 11 = 10
    · -- a last step: accumulate, then store the output
      have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 _ hc1], after2_3, acc2_step V c t h0]
      iintro ⟨⟨HS, Hr, Hg⟩, Ho, ⟨%d0, H0⟩, ⟨%d1, H1⟩, ⟨%d2, H2⟩, ⟨%d3, H3⟩⟩
      iapply (sound_kernel2_C c Set.univ (grid2.coords t) hc0 hc1 _ _ _ _ _ _ _ _ _ _
        (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · -- an inner step: accumulate; the output window idle
      have hc1 : ¬ cond2_1 (grid2.coords t) := fun h => h1 ((hcond2_1 t).mp h)
      rw [Dat.leavesExact_idle (dat2 V c) 3 t (idleAt2_3 _ hc1) (noFlush2_3 t h1)]
      iintro ⟨⟨HS, Hr, Hg⟩, Ho, ⟨%d0, H0⟩, ⟨%d1, H1⟩, ⟨%d2, H2⟩, ⟨%d3, H3⟩⟩
      iapply (sound_kernel2_B c Set.univ (grid2.coords t) hc0 hc1 _ _ _ _ _ _ _ _ _ _
        (iblk2 V c 0 t) (iblk2 V c 1 t) (iblk2 V c 2 t) ((dat2 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : (Pipeline.ΦA spec2 c : sProp 𝕄) ⊢ (dat2 V c).Φ 0 := by
  rw [show (dat2 V c).Φ 0 = PhiS2 V c 0 (Nat.zero_le _) from rfl]
  exact Idealize.SL.BI.Entails.refl _

/-- After the last point the invariant gives the scoped rest and the generator register back, the scratch's contents forgotten. -/
theorem hout2 (c : Dev nD) : (dat2 V c).Φ (Fin.last cfg2.N) ⊢ (Pipeline.ΦA spec2 c : sProp 𝕄) := by
  rw [show (dat2 V c).Φ (Fin.last cfg2.N) = PhiS2 V c cfg2.N (Nat.le_refl _) from rfl]
  exact (PhiS2_open V c _ _).trans (PhiA2_close c)

end Region2

end Cert.KernelIdeal.Hand

end
-- ==== Proof.KI.Fold.lean ====
/-
  A core's unscoped buffers followed through @main's twelve items, from the launch memory: a stretch of host operations
  leaves what its operations compute from what it found; a region leaves each of its windows' arrays at what its
  write-backs fold to after the last point (an input's array as entered) and every other buffer as entered.
  `W0` is the launch, `W1` the entry of region 0, `W2` its exit, `W3` … `W9` after each of the seven stretches that
  follow (`W9` the entry of region 1), `W10` region 1's exit and region 2's entry, `W11` region 2's exit, `W12` the end.
-/
import proofs.«135343_j29592324669776_1_alg».proof.Proof.KI.Region0
import proofs.«135343_j29592324669776_1_alg».proof.Proof.KI.Region1
import proofs.«135343_j29592324669776_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first stretch: what region 0 is entered from, -/
abbrev W1 : Dev nD → Valuation τ sig (Elt F) := fun c => StableHlo.after hostOps0 (W0 m c)
/-- and the same read at the core's references (what region 0's proof data take). -/
abbrev V1 : (c : Dev nD) → (b : Ref sig .tc) → Buf (Elt F) ((c : Thread nD τ).loc b) := fun c b => W1 m c b

/-- After region 0. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- After each of the seven stretches between region 0 and region 1. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
/-- Region 1's entry contents at the core's references. -/
abbrev V9 : (c : Dev nD) → (b : Ref sig .tc) → Buf (Elt F) ((c : Thread nD τ).loc b) := fun c b => W9 m c b

/-- After region 1. -/
def W10 (c : Dev nD) : Valuation τ sig (Elt F) :=
  Pipeline.withArrays spec1 c (W9 m c) fun w => (dat1 (V9 m) c).arrAt w cfg1.N
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
/-- Region 2's entry contents at the core's references. -/
abbrev V10 : (c : Dev nD) → (b : Ref sig .tc) → Buf (Elt F) ((c : Thread nD τ).loc b) := fun c b => W10 m c b

/-- After region 2. -/
def W11 (c : Dev nD) : Valuation τ sig (Elt F) :=
  Pipeline.withArrays spec2 c (W10 m c) fun w => (dat2 (V10 m) c).arrAt w cfg2.N
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb

/-- After the last stretch: what the program ends with. -/
abbrev W12 : Dev nD → Valuation τ sig (Elt F) := fun c => StableHlo.after hostOps3 (W11 m c)

end Cert.KernelIdeal.Hand

end
-- ==== Proof.KI.Run.lean ====
/-
  The launch of the whole program. @main is twelve items in order: a stretch of host operations, region 0 (the attention
  projection), seven stretches of host operations, region 1 (the gated up-projection), region 2 (the down-projection
  with its residual), and a last stretch of host operations. Over the fold of a core's unscoped buffers through the
  twelve items, this module makes each item a segment over the thread state "every unscoped buffer at the boundary's
  contents, the generator register at some state, nothing owed", and concludes that every weakly fair execution
  terminates with every unscoped buffer at the last boundary's contents; in particular the six argument arrays end as
  launched.
-/
import proofs.«135343_j29592324669776_1_alg».proof.Proof.Gen.KernelIdeal.Launch
import proofs.«135343_j29592324669776_1_alg».proof.Proof.Gen.KernelIdeal.Skeleton
import proofs.«135343_j29592324669776_1_alg».proof.Proof.Gen.KernelIdeal.Points
import proofs.«135343_j29592324669776_1_alg».proof.Proof.Gen.KernelIdeal.Regions
import proofs.«135343_j29592324669776_1_alg».proof.Proof.KI.Region0
import proofs.«135343_j29592324669776_1_alg».proof.Proof.KI.Region1
import proofs.«135343_j29592324669776_1_alg».proof.Proof.KI.Region2
import proofs.«135343_j29592324669776_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit contents are, in the two forms its exit takes them -/

/-- Region 0's exit contents at the core's references; each of its arrays holds what the pipeline leaves and every other
    buffer what it held at entry. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same of region 1 (its exit contents are region 2's entry contents) -/
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)
/-- and of region 2. -/
abbrev V11 : (c : Dev nD) → (b : Ref sig .tc) → Buf (Elt F) ((c : Thread nD τ).loc b) := fun c b => W11 m c b
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => W11_of_ne m c b fun w e => hb (Finset.mem_image.mpr ⟨w, Finset.mem_univ _, e⟩)

/-! ## The proof data of the three pipelines and the thread state -/

/-- Each pipeline's proof data at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V9 m) c
  | ⟨2, _⟩ => fun c => dat2 (V10 m) c
abbrev 𝒱₀ : Variants := Variants.none
/-- No core owes another anything. -/
abbrev L : GSem nD τ sig → Finset Unit := fun _ => ∅
abbrev lv : GSem nD τ sig → Unit → ℕ := fun _ _ => 0
/-- Beside the buffers a core holds its generator register at some state and owes nothing. -/
abbrev R (c : Dev nD) : sProp 𝕄 := iprop((∃ r, prngReg c r) ∗ ∃ T, owes (c : Thread nD τ) (0 : CellTallies nD τ sig Unit) T)
/-- A stretch of host operations as a segment over every unscoped buffer, entered at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is one the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debt. -/
abbrev Tₙ (c : Dev nD) : sProp 𝕄 := iprop(StableHlo.held (c : Thread nD τ) (Pipeline.ucRefs τ sig) (W12 m c) ∗ ∃ r, prngReg c r)

/-! ## The three regions as segments

Each region takes its windows' arrays out of the unscoped buffers at entry and puts them back at exit, at what its
write-backs leave; the generator register and the scoped buffers enter the pipeline's invariant and come back. Regions 0
and 1 carry nothing between points; region 2's invariant carries its scratch, and is entered and left through the two
ends stated with it. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hgen]; · iexact Hgen
    iexact Hrest
  hin c := by
    rw [show (pdats m 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m 0 c).Φ (Fin.last _) = Pipeline.ΦA spec0 c from rfl]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%T, -, Howes⟩; iexists T; iexact Howes

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hgen]; · iexact Hgen
    iexact Hrest
  hin c := by
    rw [show (pdats m 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%T, -, Howes⟩; iexists T; iexact Howes

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m) c).loose
  hwaits := Pipeline.hwaits_of_owed_zero _ _ _ _ L lv 2 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec2 c (V10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V10 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%T, Howes⟩; iexists T; isplitr; · ipureintro; exact fun _ _ => Or.inl trivial
      iexact Howes
    isplitl [Hgen]; · iexact Hgen
    iexact Hrest
  hin c := by
    have hΦ : (Pipeline.ΦA spec2 c : sProp 𝕄) ⊢ (pdats m 2 c).Φ 0 := hin2 (V10 m) c
    unfold Pipeline.ΦA at hΦ
    iintro ⟨Hg, -, Hs⟩
    iapply hΦ
    isplitl [Hs]; · iexact Hs
    iexact Hg
  hout c := by
    rw [Pipeline.ownSems0_none]
    have hΦ : (pdats m 2 c).Φ (Fin.last _) ⊢ (Pipeline.ΦA spec2 c : sProp 𝕄) := hout2 (V10 m) c
    unfold Pipeline.ΦA at hΦ
    iintro HΦ
    ihave Hsg := hΦ $$ HΦ
    icases Hsg with ⟨Hs, Hg⟩
    isplitl [Hg]; · iexact Hg
    isplitr; · iempintro
    iexact Hs
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V10 m c) (V11 m c) ((pdats m 2 c).arrAt · cfg2.N) (hF2 m c) (hrest2 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%T, -, Howes⟩; iexists T; iexact Howes

/-- The last stretch's exit state is the last thread state beside the core owing nothing. -/
theorem last_state (c : Dev nD) :
    iprop(StableHlo.held (c : Thread nD τ) (Pipeline.ucRefs τ sig) (W12 m c) ∗ R (F := F) c)
      ⊢ iprop(Tₙ m c ∗ ∃ T, owes (c : Thread nD τ) (0 : CellTallies nD τ sig Unit) T) := by
  iintro ⟨Hh, Hg, Ho⟩
  isplitl [Hh Hg]
  · isplitl [Hh]; · iexact Hh
    iexact Hg
  iexact Ho

/-! ## @main as the run of its twelve segments -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .region (reg1 m),
    .region (reg2 m),
    .host (hseg hostOps3 hostOps3_sub hostOps3_fresh (W11 m)) ]

/-- @main is the run of the segments: it is the chain of its items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main on the cores terminates, nothing
    faulting, and in every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-! ## The arguments end as launched

No stretch writes an argument, and a region either reads it through an input window (whose array it leaves as entered)
or does not touch it, so the fold at an argument's buffer walks back to the launch memory. -/

/-- The seven stretches between region 0 and region 1 leave a buffer none of them writes as region 0 left it. -/
theorem W9_of_W2 (c : Dev nD) (r : Ref sig .tc) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W) :
    W9 m c (Proc.devRef .tc r) = W2 m c (Proc.devRef .tc r) :=
  calc W9 m c (Proc.devRef .tc r)
    _ = W8 m c (Proc.devRef .tc r) := StableHlo.after_of_writes_sub hostOps1_6 _ hostOps1_6_writes h7
    _ = W7 m c (Proc.devRef .tc r) := StableHlo.after_of_writes_sub hostOps1_5 _ hostOps1_5_writes h6
    _ = W6 m c (Proc.devRef .tc r) := StableHlo.after_of_writes_sub hostOps1_4 _ hostOps1_4_writes h5
    _ = W5 m c (Proc.devRef .tc r) := StableHlo.after_of_writes_sub hostOps1_3 _ hostOps1_3_writes h4
    _ = W4 m c (Proc.devRef .tc r) := StableHlo.after_of_writes_sub hostOps1_2 _ hostOps1_2_writes h3
    _ = W3 m c (Proc.devRef .tc r) := StableHlo.after_of_writes_sub hostOps1_1 _ hostOps1_1_writes h2
    _ = W2 m c (Proc.devRef .tc r) := StableHlo.after_of_writes_sub hostOps1 _ hostOps1_writes h1

theorem W12_main_arg0 (c : Dev nD) : W12 m c (Proc.devRef .tc main_arg0) = m ((c : Thread nD τ).loc main_arg0) :=
  calc W12 m c (Proc.devRef .tc main_arg0)
    _ = W11 m c (Proc.devRef .tc main_arg0) := StableHlo.after_of_writes_sub hostOps3 _ hostOps3_writes (r := main_arg0) (by decide)
    _ = W10 m c (Proc.devRef .tc main_arg0) := W11_of_ne m c main_arg0 (by decide)
    _ = W9 m c (Proc.devRef .tc main_arg0) := W10_of_ne m c main_arg0 (by decide)
    _ = W2 m c (Proc.devRef .tc main_arg0) := W9_of_W2 m c main_arg0 (by decide) (by decide) (by decide) (by decide) (by decide) (by decide) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W12_main_arg1 (c : Dev nD) : W12 m c (Proc.devRef .tc main_arg1) = m ((c : Thread nD τ).loc main_arg1) :=
  calc W12 m c (Proc.devRef .tc main_arg1)
    _ = W11 m c (Proc.devRef .tc main_arg1) := StableHlo.after_of_writes_sub hostOps3 _ hostOps3_writes (r := main_arg1) (by decide)
    _ = W10 m c (Proc.devRef .tc main_arg1) := W11_of_ne m c main_arg1 (by decide)
    _ = W9 m c (Proc.devRef .tc main_arg1) := W10_of_ne m c main_arg1 (by decide)
    _ = W2 m c (Proc.devRef .tc main_arg1) := W9_of_W2 m c main_arg1 (by decide) (by decide) (by decide) (by decide) (by decide) (by decide) (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (r := main_arg1) (by decide)
    _ = m ((c : Thread nD τ).loc main_arg1) := rfl
theorem W12_main_arg2 (c : Dev nD) : W12 m c (Proc.devRef .tc main_arg2) = m ((c : Thread nD τ).loc main_arg2) :=
  calc W12 m c (Proc.devRef .tc main_arg2)
    _ = W11 m c (Proc.devRef .tc main_arg2) := StableHlo.after_of_writes_sub hostOps3 _ hostOps3_writes (r := main_arg2) (by decide)
    _ = W10 m c (Proc.devRef .tc main_arg2) := W11_of_ne m c main_arg2 (by decide)
    _ = W9 m c (Proc.devRef .tc main_arg2) := W10_of_ne m c main_arg2 (by decide)
    _ = W2 m c (Proc.devRef .tc main_arg2) := W9_of_W2 m c main_arg2 (by decide) (by decide) (by decide) (by decide) (by decide) (by decide) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W12_main_arg3 (c : Dev nD) : W12 m c (Proc.devRef .tc main_arg3) = m ((c : Thread nD τ).loc main_arg3) :=
  calc W12 m c (Proc.devRef .tc main_arg3)
    _ = W11 m c (Proc.devRef .tc main_arg3) := StableHlo.after_of_writes_sub hostOps3 _ hostOps3_writes (r := main_arg3) (by decide)
    _ = W10 m c (Proc.devRef .tc main_arg3) := W11_of_ne m c main_arg3 (by decide)
    _ = W9 m c (Proc.devRef .tc main_arg3) := (W10_arr m c 1).trans (((dat1 (V9 m) c).arrAt_in 1 rfl _).trans (A_eq1 (V9 m) c 1))
    _ = W2 m c (Proc.devRef .tc main_arg3) := W9_of_W2 m c main_arg3 (by decide) (by decide) (by decide) (by decide) (by decide) (by decide) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W12_main_arg4 (c : Dev nD) : W12 m c (Proc.devRef .tc main_arg4) = m ((c : Thread nD τ).loc main_arg4) :=
  calc W12 m c (Proc.devRef .tc main_arg4)
    _ = W11 m c (Proc.devRef .tc main_arg4) := StableHlo.after_of_writes_sub hostOps3 _ hostOps3_writes (r := main_arg4) (by decide)
    _ = W10 m c (Proc.devRef .tc main_arg4) := W11_of_ne m c main_arg4 (by decide)
    _ = W9 m c (Proc.devRef .tc main_arg4) := W10_of_ne m c main_arg4 (by decide)
    _ = W2 m c (Proc.devRef .tc main_arg4) := W9_of_W2 m c main_arg4 (by decide) (by decide) (by decide) (by decide) (by decide) (by decide) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W12_main_arg5 (c : Dev nD) : W12 m c (Proc.devRef .tc main_arg5) = m ((c : Thread nD τ).loc main_arg5) :=
  calc W12 m c (Proc.devRef .tc main_arg5)
    _ = W11 m c (Proc.devRef .tc main_arg5) := StableHlo.after_of_writes_sub hostOps3 _ hostOps3_writes (r := main_arg5) (by decide)
    _ = W10 m c (Proc.devRef .tc main_arg5) := W11_of_ne m c main_arg5 (by decide)
    _ = W9 m c (Proc.devRef .tc main_arg5) := W10_of_ne m c main_arg5 (by decide)
    _ = W2 m c (Proc.devRef .tc main_arg5) := W9_of_W2 m c main_arg5 (by decide) (by decide) (by decide) (by decide) (by decide) (by decide) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-- THE FRAME: every weakly fair execution of @main terminates, nothing faulting, and every final state has the six
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W12_main_arg0 m c),
      (h c _ (mem_uc main_arg1 (by decide))).trans (W12_main_arg1 m c),
      (h c _ (mem_uc main_arg2 (by decide))).trans (W12_main_arg2 m c),
      (h c _ (mem_uc main_arg3 (by decide))).trans (W12_main_arg3 m c),
      (h c _ (mem_uc main_arg4 (by decide))).trans (W12_main_arg4 m c),
      (h c _ (mem_uc main_arg5 (by decide))).trans (W12_main_arg5 m c)⟩) (run_all m ρ)

end Cert.KernelIdeal.Hand

end
-- ==== Proof.Spec.lean ====
/-
  The mathematics of the transformer block, stated once, over the extended reals, with every array a curried function of
  its coordinates. For a row x of 4096 entries: the RMS factor ρ(x) = rsqrt((Σ_d x_d²) / 4096 + ε) and the normalised,
  weighted row h_d = x_d · ρ(x) · w_d. The attention residual is y[r, e] = x[r, e] + Σ_d h(x[r])_d · O[d, e]; the gated
  activation is a[r, i] = silu(Σ_d h(y[r])_d · G[d, i]) · (Σ_d h(y[r])_d · U[d, i]) with silu g = g · logistic g; the block's
  result is y[r, e] + Σ_i a[r, i] · D[i, e]. The kernel computes the last sum over a contraction axis padded with zeros from
  11008 to 11264 and cut into eleven blocks of 1024; the reference computes it whole. This module has no program in it.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic Idealize.ShloMosaic.ValueIdx

/-- The two float literals both programs share: ε and 4096. -/
def eps : EReal := Ideal.ofBits .f32 0x358637BD#32
def n4096 : EReal := Ideal.ofBits .f32 0x45800000#32

/-- The RMS factor of a row. -/
def rms (x : Fin 4096 → EReal) : EReal := Ideal.rsqrt (Ideal.div (∑ d : Fin 4096, x d * x d) n4096 + eps)
/-- The normalised row times the norm weight. -/
def hrow (x w : Fin 4096 → EReal) (d : Fin 4096) : EReal := x d * rms x * w d
/-- silu g = g · logistic g. -/
def silu (g : EReal) : EReal := g * Ideal.logistic g

/-- The attention residual at (r, e). -/
def xAt (x : Fin 4096 → Fin 4096 → EReal) (w : Fin 4096 → EReal) (o : Fin 4096 → Fin 4096 → EReal) (r e : Fin 4096) : EReal :=
  x r e + ∑ d : Fin 4096, hrow (x r) w d * o d e

/-- The gated activation at (r, i), for gate and up weights of any width. -/
def actAt {I : Nat} (y : Fin 4096 → Fin 4096 → EReal) (w : Fin 4096 → EReal) (G U : Fin 4096 → Fin I → EReal) (r : Fin 4096) (i : Fin I) : EReal :=
  silu (∑ d : Fin 4096, hrow (y r) w d * G d i) * (∑ d : Fin 4096, hrow (y r) w d * U d i)

/-- Position q of block k of the padded contraction axis. -/
def kIdx (k : Fin 11) (q : Fin 1024) : Fin 11264 := ⟨k.val * 1024 + q.val, by have := k.isLt; have := q.isLt; omega⟩

/-- The down-projection as the kernel computes it: the eleven blocks' sums added up, then the residual. -/
def downK (a : Fin 4096 → Fin 11264 → EReal) (D : Fin 11264 → Fin 4096 → EReal) (y : Fin 4096 → Fin 4096 → EReal) (r e : Fin 4096) : EReal :=
  (∑ k : Fin 11, ∑ q : Fin 1024, a r (kIdx k q) * D (kIdx k q) e) + y r e

/-- The down-projection as the reference computes it: the residual, then the whole sum. -/
def downR (a : Fin 4096 → Fin 11008 → EReal) (D : Fin 11008 → Fin 4096 → EReal) (y : Fin 4096 → Fin 4096 → EReal) (r e : Fin 4096) : EReal :=
  y r e + ∑ i : Fin 11008, a r i * D i e

/-- Zero-padding of a weight's columns from 11008 to 11264, and of a weight's rows. -/
def padCols (G : Fin 4096 → Fin 11008 → EReal) : Fin 4096 → Fin 11264 → EReal :=
  fun d i => if h : i.val < 11008 then G d ⟨i.val, h⟩ else 0
def padRows (D : Fin 11008 → Fin 4096 → EReal) : Fin 11264 → Fin 4096 → EReal :=
  fun i e => if h : i.val < 11008 then D ⟨i.val, h⟩ e else 0

/-- The two halves of the fused gate/up weight. -/
def gateOf (W : Fin 4096 → Fin 22016 → EReal) : Fin 4096 → Fin 11008 → EReal := fun d i => W d ⟨i.val, by have := i.isLt; omega⟩
def upOf (W : Fin 4096 → Fin 22016 → EReal) : Fin 4096 → Fin 11008 → EReal := fun d i => W d ⟨11008 + i.val, by have := i.isLt; omega⟩

/-- A row index of the flattened [4096, ·] arrays from batch and position, and back. -/
def rowOf (b : Fin 2) (s : Fin 2048) : Fin 4096 := ⟨b.val * 2048 + s.val, by have := b.isLt; have := s.isLt; omega⟩

/-- THE KERNEL'S FUNCTION of the six inputs, at (b, s, e): over the flattened rows, padded weights, blocked contraction. -/
def kernelAt (hs : Fin 2 → Fin 2048 → Fin 4096 → EReal) (w1 : Fin 4096 → EReal) (o : Fin 4096 → Fin 4096 → EReal)
    (w2 : Fin 4096 → EReal) (gu : Fin 4096 → Fin 22016 → EReal) (dw : Fin 11008 → Fin 4096 → EReal)
    (b : Fin 2) (s : Fin 2048) (e : Fin 4096) : EReal :=
  let x2 : Fin 4096 → Fin 4096 → EReal := fun r d => hs ⟨r.val / 2048, by have := r.isLt; omega⟩ ⟨r.val % 2048, Nat.mod_lt _ (by norm_num)⟩ d
  let y := xAt x2 w1 o
  downK (actAt y w2 (padCols (gateOf gu)) (padCols (upOf gu))) (padRows dw) y (rowOf b s) e

/-- THE REFERENCE'S FUNCTION of the six inputs, at (b, s, e): row by row, whole weights, whole contraction. -/
def referenceAt (hs : Fin 2 → Fin 2048 → Fin 4096 → EReal) (w1 : Fin 4096 → EReal) (o : Fin 4096 → Fin 4096 → EReal)
    (w2 : Fin 4096 → EReal) (gu : Fin 4096 → Fin 22016 → EReal) (dw : Fin 11008 → Fin 4096 → EReal)
    (b : Fin 2) (s : Fin 2048) (e : Fin 4096) : EReal :=
  let y : Fin 4096 → EReal := fun e' => hs b s e' + ∑ d : Fin 4096, hrow (hs b s) w1 d * o d e'
  let a : Fin 11008 → EReal := fun i =>
    silu (∑ d : Fin 4096, hrow y w2 d * gateOf gu d i) * (∑ d : Fin 4096, hrow y w2 d * upOf gu d i)
  y e + ∑ i : Fin 11008, a i * dw i e

/-! ## Lemmas for the bridge -/

/-- The flattened row b·2048 + s gives back (b, s): the row of the flattened input is the row of the batched one. -/
theorem row_back (hs : Fin 2 → Fin 2048 → Fin 4096 → EReal) (b : Fin 2) (s : Fin 2048)
    (h1 : (rowOf b s).val / 2048 < 2) (h2 : (rowOf b s).val % 2048 < 2048) :
    hs ⟨(rowOf b s).val / 2048, h1⟩ ⟨(rowOf b s).val % 2048, h2⟩ = hs b s := by
  have e1 : (⟨(rowOf b s).val / 2048, h1⟩ : Fin 2) = b :=
    Fin.ext (by simp only [rowOf]; have := s.isLt; omega)
  have e2 : (⟨(rowOf b s).val % 2048, h2⟩ : Fin 2048) = s :=
    Fin.ext (by simp only [rowOf]; have := s.isLt; omega)
  rw [e1, e2]

/-- Below 11008 the padded columns are the columns. -/
theorem padCols_lt (G : Fin 4096 → Fin 11008 → EReal) (d : Fin 4096) (i : Fin 11008) (h : 11008 ≤ 11264) :
    padCols G d (Fin.castLE h i) = G d i := by
  unfold padCols
  rw [dif_pos (show (Fin.castLE h i).val < 11008 from i.isLt)]
  rfl

/-- Below 11008 the padded rows are the rows. -/
theorem padRows_lt (D : Fin 11008 → Fin 4096 → EReal) (i : Fin 11008) (e : Fin 4096) (h : 11008 ≤ 11264) :
    padRows D (Fin.castLE h i) e = D i e := by
  unfold padRows
  rw [dif_pos (show (Fin.castLE h i).val < 11008 from i.isLt)]
  rfl

/-- From 11008 on the padded rows are zero. -/
theorem padRows_ge (D : Fin 11008 → Fin 4096 → EReal) (i : Fin 11264) (e : Fin 4096) (hi : 11008 ≤ i.val) :
    padRows D i e = 0 := by
  unfold padRows
  rw [dif_neg (by omega)]

/-- The eleven blocks of 1024 are the whole padded axis: (k, q) ↦ k·1024 + q is a bijection. -/
def blockEquiv : Fin 11 × Fin 1024 ≃ Fin 11264 where
  toFun p := kIdx p.1 p.2
  invFun i := (⟨i.val / 1024, by have := i.isLt; omega⟩, ⟨i.val % 1024, Nat.mod_lt _ (by omega)⟩)
  left_inv := by
    rintro ⟨k, q⟩
    have := q.isLt
    apply Prod.ext
    · apply Fin.ext; show (k.val * 1024 + q.val) / 1024 = k.val; omega
    · apply Fin.ext; show (k.val * 1024 + q.val) % 1024 = q.val; omega
  right_inv := by
    intro i
    apply Fin.ext
    show i.val / 1024 * 1024 + i.val % 1024 = i.val
    omega

/-- A sum block by block is the sum over the whole axis. -/
theorem sum_blocks {M : Type*} [AddCommMonoid M] (f : Fin 11264 → M) :
    (∑ k : Fin 11, ∑ q : Fin 1024, f (kIdx k q)) = ∑ i : Fin 11264, f i := by
  rw [← Fintype.sum_prod_type']
  exact Fintype.sum_equiv blockEquiv _ _ (fun _ => rfl)

/-- A sum whose terms vanish from n on is the sum of its first n terms. -/
theorem sum_zero_tail {M : Type*} [AddCommMonoid M] {n m : ℕ} (h : n ≤ m) (F : Fin m → M)
    (h0 : ∀ i : Fin m, n ≤ i.val → F i = 0) :
    (∑ i : Fin m, F i) = ∑ i : Fin n, F (Fin.castLE h i) := by
  obtain ⟨k, rfl⟩ := Nat.exists_eq_add_of_le h
  rw [Fin.sum_univ_add]
  have ht : (∑ i : Fin k, F (Fin.natAdd n i)) = 0 :=
    Finset.sum_eq_zero (fun i _ => h0 _ (by simp [Fin.natAdd]))
  rw [ht, add_zero]
  rfl

/-- THE BRIDGE: the two are one function. Only regrouping of sums, terms that are products with zero, and the
    commutativity of the last addition are used: no finiteness. -/
theorem kernelAt_eq_referenceAt (hs : Fin 2 → Fin 2048 → Fin 4096 → EReal) (w1 : Fin 4096 → EReal) (o : Fin 4096 → Fin 4096 → EReal)
    (w2 : Fin 4096 → EReal) (gu : Fin 4096 → Fin 22016 → EReal) (dw : Fin 11008 → Fin 4096 → EReal)
    (b : Fin 2) (s : Fin 2048) (e : Fin 4096) :
    kernelAt hs w1 o w2 gu dw b s e = referenceAt hs w1 o w2 gu dw b s e := by
  have hle : 11008 ≤ 11264 := by omega
  unfold kernelAt referenceAt
  -- the row of the attention residual at the flattened row is the reference's row
  have hy : ∀ e' : Fin 4096,
      xAt (fun r d => hs ⟨r.val / 2048, by have := r.isLt; omega⟩ ⟨r.val % 2048, Nat.mod_lt _ (by norm_num)⟩ d) w1 o (rowOf b s) e'
        = hs b s e' + ∑ d : Fin 4096, hrow (hs b s) w1 d * o d e' := by
    intro e'
    unfold xAt
    simp only [row_back hs b s]
  have hyf : xAt (fun r d => hs ⟨r.val / 2048, by have := r.isLt; omega⟩ ⟨r.val % 2048, Nat.mod_lt _ (by norm_num)⟩ d) w1 o (rowOf b s)
        = fun e' => hs b s e' + ∑ d : Fin 4096, hrow (hs b s) w1 d * o d e' := funext hy
  simp only []
  unfold downK
  rw [sum_blocks (fun i => actAt _ w2 (padCols (gateOf gu)) (padCols (upOf gu)) (rowOf b s) i * padRows dw i e)]
  rw [sum_zero_tail hle _ (fun i hi => by rw [padRows_ge dw i e hi, mul_zero])]
  rw [add_comm, hy e]
  congr 1
  apply Finset.sum_congr rfl
  intro i _
  unfold actAt
  simp only [padCols_lt, padRows_lt, hyf]

/-! ## The same functions over arrays indexed by shape indices -/

/-- The attention residual as an array function (region 0's result from its three operand arrays). -/
def X2fun (hs : (⟨2, ![4096, 4096]⟩ : Shape).Idx → EReal) (w : (⟨1, ![4096]⟩ : Shape).Idx → EReal) (o : (⟨2, ![4096, 4096]⟩ : Shape).Idx → EReal) :
    (⟨2, ![4096, 4096]⟩ : Shape).Idx → EReal :=
  fun j => xAt (fun a b => hs (ix2 a b)) (fun a => w (ix1 a)) (fun a b => o (ix2 a b)) ⟨(j 0).val, (j 0).isLt⟩ ⟨(j 1).val, (j 1).isLt⟩

/-- The gated activation as an array function over the padded width (region 1's result from its four operand arrays). -/
def ActFun (y : (⟨2, ![4096, 4096]⟩ : Shape).Idx → EReal) (w : (⟨1, ![4096]⟩ : Shape).Idx → EReal)
    (G U : (⟨2, ![4096, 11264]⟩ : Shape).Idx → EReal) : (⟨2, ![4096, 11264]⟩ : Shape).Idx → EReal :=
  fun j => actAt (fun a b => y (ix2 a b)) (fun a => w (ix1 a)) (fun a b => G (ix2 a b)) (fun a b => U (ix2 a b)) ⟨(j 0).val, (j 0).isLt⟩ ⟨(j 1).val, (j 1).isLt⟩

/-- The blocked down-projection plus residual as an array function (region 2's result from its three operand arrays). -/
def DownFun (a : (⟨2, ![4096, 11264]⟩ : Shape).Idx → EReal) (D : (⟨2, ![11264, 4096]⟩ : Shape).Idx → EReal)
    (y : (⟨2, ![4096, 4096]⟩ : Shape).Idx → EReal) : (⟨2, ![4096, 4096]⟩ : Shape).Idx → EReal :=
  fun j => downK (fun r i => a (ix2 r i)) (fun i e => D (ix2 i e)) (fun r e => y (ix2 r e)) ⟨(j 0).val, (j 0).isLt⟩ ⟨(j 1).val, (j 1).isLt⟩

/-- The kernel's and the reference's whole functions over the six argument arrays. -/
def KFun (hs : (⟨3, ![2, 2048, 4096]⟩ : Shape).Idx → EReal) (w1 : (⟨1, ![4096]⟩ : Shape).Idx → EReal) (o : (⟨2, ![4096, 4096]⟩ : Shape).Idx → EReal)
    (w2 : (⟨1, ![4096]⟩ : Shape).Idx → EReal) (gu : (⟨2, ![4096, 22016]⟩ : Shape).Idx → EReal) (dw : (⟨2, ![11008, 4096]⟩ : Shape).Idx → EReal) :
    (⟨3, ![2, 2048, 4096]⟩ : Shape).Idx → EReal :=
  fun j => kernelAt (fun b s d => hs (ix3 b s d)) (fun a => w1 (ix1 a)) (fun a b => o (ix2 a b)) (fun a => w2 (ix1 a)) (fun a b => gu (ix2 a b)) (fun a b => dw (ix2 a b))
    ⟨(j 0).val, (j 0).isLt⟩ ⟨(j 1).val, (j 1).isLt⟩ ⟨(j 2).val, (j 2).isLt⟩
def RFun (hs : (⟨3, ![2, 2048, 4096]⟩ : Shape).Idx → EReal) (w1 : (⟨1, ![4096]⟩ : Shape).Idx → EReal) (o : (⟨2, ![4096, 4096]⟩ : Shape).Idx → EReal)
    (w2 : (⟨1, ![4096]⟩ : Shape).Idx → EReal) (gu : (⟨2, ![4096, 22016]⟩ : Shape).Idx → EReal) (dw : (⟨2, ![11008, 4096]⟩ : Shape).Idx → EReal) :
    (⟨3, ![2, 2048, 4096]⟩ : Shape).Idx → EReal :=
  fun j => referenceAt (fun b s d => hs (ix3 b s d)) (fun a => w1 (ix1 a)) (fun a b => o (ix2 a b)) (fun a => w2 (ix1 a)) (fun a b => gu (ix2 a b)) (fun a b => dw (ix2 a b))
    ⟨(j 0).val, (j 0).isLt⟩ ⟨(j 1).val, (j 1).isLt⟩ ⟨(j 2).val, (j 2).isLt⟩

theorem KFun_eq_RFun (hs : (⟨3, ![2, 2048, 4096]⟩ : Shape).Idx → EReal) (w1 : (⟨1, ![4096]⟩ : Shape).Idx → EReal) (o : (⟨2, ![4096, 4096]⟩ : Shape).Idx → EReal)
    (w2 : (⟨1, ![4096]⟩ : Shape).Idx → EReal) (gu : (⟨2, ![4096, 22016]⟩ : Shape).Idx → EReal) (dw : (⟨2, ![11008, 4096]⟩ : Shape).Idx → EReal) :
    KFun hs w1 o w2 gu dw = RFun hs w1 o w2 gu dw :=
  funext fun _ => kernelAt_eq_referenceAt _ _ _ _ _ _ _ _ _

end Cert.Spec

end
-- ==== Proof.KI.Val0.lean ====
/-
  Region 0's result array at the ideal instance: after all 64 grid points the output array holds, at (r, e), the attention
  residual  x[r, e] + Σ_d h(x[r])_d · O[d, e]  of the three operand arrays as the region finds them — every point's block
  is the restriction of that one function, and the 16 × 4 blocks of 256 × 1024 tile the array.
-/
import proofs.«135343_j29592324669776_1_alg».proof.Proof.KI.Region0
import proofs.«135343_j29592324669776_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))
open scoped BigOperators

namespace Val0

/-! ## Layout operations of the row statistics, read at coordinates -/

/-- A vector cast to a column reads, at `(p, u)`, its entry `p`. -/
theorem castCol_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at `(p, c)`, the column's entry `p`. -/
theorem bcastCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` with the lane `k` put back is `(p, k)`. -/
theorem lift_lane {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A lane sum of a matrix reads, at row `p`, the sum of that row. -/
theorem laneSum_apply {m n : ℕ} (v : FVec Ideal ⟨2, ![m, n]⟩ .f32) (h : (⟨2, ![m, n]⟩ : Shape).Reduces [1] (⟨1, ![m]⟩ : Shape))
    (hacc : (0x00000000#32 : BitVec 32) = 0x00000000#32) (p : Fin m) :
    multiReduction (F := Ideal) .add [1] ⟨1, ![m]⟩ v 0x00000000#32 h (.inl rfl) hacc (ix1 p) = ∑ d : Fin n, v (ix2 p d) := by
  refine (Ideal.multiReduction_add_single v 0x00000000#32 h (.inl rfl) hacc (ix1 p)).trans ?_
  exact Finset.sum_congr rfl fun k _ => congrArg v (lift_lane h p k)

/-! ## The projection's matrix product, read at coordinates -/

theorem lhs_proj0_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_proj0_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_proj0_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_proj0_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The 256 × 4096 by 4096 × 1024 product into the zero splat reads, at `(p, q)`, the sum over the 4096 of row `p` times column `q`. -/
theorem proj0_apply (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = ∑ d : Fin 4096, a (ix2 p d) * b (ix2 d q) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k := funext fun a => Fin.ext (by
    match a with
    | ⟨0, _⟩ => exact lhs_proj0_0 _ _
    | ⟨1, _⟩ => exact (lhs_proj0_1 _ _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q := funext fun a => Fin.ext (by
    match a with
    | ⟨0, _⟩ => exact (rhs_proj0_0 _ _).trans hk
    | ⟨1, _⟩ => exact rhs_proj0_1 _ _)
  rw [el, er]

/-! ## The body's payload at coordinates -/

/-- What the body stores at `(p, q)` of its block: the residual entry plus the normalised, weighted row `p` against column `q`. -/
theorem pay0_apply (x0 : Vec Ideal S256x4096 .f32) (x1 : Vec Ideal S4096 .f32) (x2 : Vec Ideal S4096x1024 .bf16) (x3 : Vec Ideal S256x1024 .f32)
    (p : Fin 256) (q : Fin 1024) :
    k0_pay1 x0 x1 x2 x3 (ix2 p q)
      = x3 (ix2 p q) + ∑ d : Fin 4096, (x0 (ix2 p d)
          * Ideal.rsqrt (Ideal.div (∑ d' : Fin 4096, x0 (ix2 p d') * x0 (ix2 p d')) Cert.Spec.n4096 + Cert.Spec.eps) * x1 (ix1 d)) * x2 (ix2 d q) := by
  unfold k0_pay1
  simp only [shapeCast_self]
  refine congrArg₂ (fun a b : EReal => a + b) rfl ?_
  refine (proj0_apply _ _ p q).trans ?_
  refine Finset.sum_congr rfl fun d _ => ?_
  refine congrArg₂ (fun a b : EReal => a * b) ?_ rfl
  refine congrArg₂ (fun a b : EReal => a * b) (congrArg₂ (fun a b : EReal => a * b) rfl ?_) ?_
  · refine (bcastCol_apply _ _ p d).trans ?_
    show Ideal.rsqrt (Ideal.div (shapeCast S256x1 _ shapeCasts_S256_S256x1 (ix2 p (0 : Fin 1))) Cert.Spec.n4096 + Cert.Spec.eps) = _
    refine congrArg (fun s => Ideal.rsqrt (Ideal.div s Cert.Spec.n4096 + Cert.Spec.eps)) ?_
    refine (castCol_apply _ _ p 0).trans ?_
    exact laneSum_apply _ _ _ p
  · refine (broadcastTo_1b_ab_apply _ _ p d).trans ?_
    exact shapeCast_a_1a_apply _ _ 0 d

/-! ## A grid point's block is the restriction of the residual function -/

theorem hz2 : (![0, 0] : Fin 2 → Nat) = fun _ => 0 := funext fun a => by fin_cases a <;> rfl
theorem hz1 : (![0] : Fin 1 → Nat) = fun _ => 0 := funext fun a => by fin_cases a <;> rfl

/-- At the point `t` of the 16 × 4 grid the row block is `t / 4` and the column block `t % 4`: the windows' index maps, decided
    over the grid. -/
theorem idx_facts0 : ∀ t : Fin cfg0.N,
    win0_0.index t (0 : Fin 2) = t.val / 4 ∧ win0_0.index t (1 : Fin 2) = 0
    ∧ win0_1.index t (0 : Fin 1) = 0
    ∧ win0_2.index t (0 : Fin 2) = 0 ∧ win0_2.index t (1 : Fin 2) = t.val % 4
    ∧ win0_3.index t (0 : Fin 2) = t.val / 4 ∧ win0_3.index t (1 : Fin 2) = t.val % 4
    ∧ ((grid0.coords t) 1).val = t.val % 4 :=
  (by decide +kernel : ∀ t : Fin grid0.N, _)

/-- The body's payload over blocks that are restrictions of whole arrays `hs`, `w`, `o` — rows `R₀ ..` of `hs`, all of `w`,
    columns `E₀ ..` of `o`, the residual block the same rows' columns `E₀ ..` — is the residual function there. -/
theorem point0 (hs o : S4096x4096.Idx → EReal) (w : S4096.Idx → EReal)
    (x0 : Vec Ideal S256x4096 .f32) (x1 : Vec Ideal S4096 .f32) (x2 : Vec Ideal S4096x1024 .bf16) (x3 : Vec Ideal S256x1024 .f32)
    (p : Fin 256) (q : Fin 1024) (R E : Fin 4096)
    (h0 : ∀ d : Fin 4096, x0 (ix2 p d) = hs (ix2 R d))
    (h1 : ∀ d : Fin 4096, x1 (ix1 d) = w (ix1 d))
    (h2 : ∀ d : Fin 4096, x2 (ix2 d q) = o (ix2 d E))
    (h3 : x3 (ix2 p q) = hs (ix2 R E)) :
    k0_pay1 x0 x1 x2 x3 (ix2 p q) = Cert.Spec.X2fun hs w o (ix2 R E) := by
  rw [pay0_apply, h3]
  simp only [h0, h1, h2]
  rfl

/-- The activations' block at point `t` is rows `(t / 4) · 256 ..` of the array, all columns. -/
theorem iblk0_0_apply (c : Dev nD) (t : Fin cfg0.N) (p : Fin 256) (d : Fin 4096) (R : Fin 4096) (hR : R.val = t.val / 4 * 256 + p.val) :
    (iblk0 V c 0 t : Vec Ideal S256x4096 .f32) (ix2 p d) = (V c main_v0 : S4096x4096.Idx → EReal) (ix2 R d) := by
  obtain ⟨e00, e01, -⟩ := idx_facts0 t
  unfold iblk0
  rw [View.read_apply]
  show V c main_v0 _ = V c main_v0 _
  congr 1
  funext a; apply Fin.ext
  match a with
  | ⟨0, _⟩ => show win0_0.index t (0 : Fin 2) * 256 + 1 * p.val = R.val; rw [e00, hR]; omega
  | ⟨1, _⟩ => show win0_0.index t (1 : Fin 2) * 4096 + 1 * d.val = d.val; rw [e01]; omega

/-- The norm weight's block at every point is the whole weight. -/
theorem iblk0_1_apply (c : Dev nD) (t : Fin cfg0.N) (d : Fin 4096) :
    (iblk0 V c 1 t : Vec Ideal S4096 .f32) (ix1 d) = (V c main_arg1 : S4096.Idx → EReal) (ix1 d) := by
  obtain ⟨-, -, e10, -⟩ := idx_facts0 t
  unfold iblk0
  rw [View.read_apply]
  show V c main_arg1 _ = V c main_arg1 _
  congr 1
  funext a; apply Fin.ext
  match a with
  | ⟨0, _⟩ => show win0_1.index t (0 : Fin 1) * 4096 + 1 * d.val = d.val; rw [e10]; omega

/-- The projection weight's block at point `t` is columns `(t % 4) · 1024 ..` of the array, all rows. -/
theorem iblk0_2_apply (c : Dev nD) (t : Fin cfg0.N) (d : Fin 4096) (q : Fin 1024) (E : Fin 4096) (hE : E.val = t.val % 4 * 1024 + q.val) :
    (iblk0 V c 2 t : Vec Ideal S4096x1024 .bf16) (ix2 d q) = (V c main_v1 : S4096x4096.Idx → EReal) (ix2 d E) := by
  obtain ⟨-, -, -, e20, e21, -⟩ := idx_facts0 t
  unfold iblk0
  rw [View.read_apply]
  show V c main_v1 _ = V c main_v1 _
  congr 1
  funext a; apply Fin.ext
  match a with
  | ⟨0, _⟩ => show win0_2.index t (0 : Fin 2) * 4096 + 1 * d.val = d.val; rw [e20]; omega
  | ⟨1, _⟩ => show win0_2.index t (1 : Fin 2) * 1024 + 1 * q.val = E.val; rw [e21, hE]; omega

/-- The residual read of the activations' block at point `t`: its columns `(t % 4) · 1024 ..`. -/
theorem res0_apply (t : Fin cfg0.N) (x0 : Vec Ideal S256x4096 .f32) (p : Fin 256) (q : Fin 1024) (E : Fin 4096) (hE : E.val = t.val % 4 * 1024 + q.val) :
    View.ld x0 (r0_res (grid0.coords t)) (ix2 p q) = x0 (ix2 p E) := by
  obtain ⟨-, -, -, -, -, -, -, ec⟩ := idx_facts0 t
  show x0 _ = x0 _
  congr 1
  funext a; apply Fin.ext
  match a with
  | ⟨0, _⟩ => show k0_off1 (grid0.coords t) 0 + 1 * p.val = p.val; rw [k0_off1_eq]; show 0 + 1 * p.val = p.val; omega
  | ⟨1, _⟩ => show k0_off1 (grid0.coords t) 1 + 1 * q.val = E.val; rw [k0_off1_eq]; show 1024 * ((grid0.coords t) 1).val + 1 * q.val = E.val; rw [ec, hE]; omega

/-- The residual function of the region's operand arrays: what the output array holds at the end. -/
abbrev res0 (c : Dev nD) : S4096x4096.Idx → EReal := Cert.Spec.X2fun (V c main_v0) (V c main_arg1) (V c main_v1)

/-- The body's payload over point `t`'s blocks, at `(p, q)` of the block, is the residual function at the block's place in the array. -/
theorem point0_at (c : Dev nD) (t : Fin cfg0.N) (p : Fin 256) (q : Fin 1024) (R E : Fin 4096)
    (hR : R.val = t.val / 4 * 256 + p.val) (hE : E.val = t.val % 4 * 1024 + q.val) :
    k0_pay1 (iblk0 V c 0 t) (iblk0 V c 1 t) (iblk0 V c 2 t) (View.ld (iblk0 V c 0 t) (r0_res (grid0.coords t))) (ix2 p q)
      = res0 V c (ix2 R E) :=
  point0 (V c main_v0) (V c main_v1) (V c main_arg1) (iblk0 V c 0 t) (iblk0 V c 1 t) (iblk0 V c 2 t)
    (View.ld (iblk0 V c 0 t) (r0_res (grid0.coords t))) p q R E
    (fun d => iblk0_0_apply V c t p d R hR) (fun d => iblk0_1_apply V c t d) (fun d => iblk0_2_apply V c t d q E hE)
    ((res0_apply t (iblk0 V c 0 t) p q E hE).trans (iblk0_0_apply V c t p E R hR))

/-- What point `t` writes back is block `t` of the residual function of the operand arrays. -/
theorem flushed0_eq (c : Dev nD) (t : Fin cfg0.N) :
    (dat0 (F := Ideal) V c).flushed 3 t = ((cfg0.win 3).blk t).view.read (Elt Ideal) (res0 V c) := by
  show (cfg0.win 3).cut (grid0.coords t) ((dat0 (F := Ideal) V c).after 3 t) = _
  rw [after0_3]
  unfold out0_3
  rw [View.canon_unit_zero hz2]
  simp only [View.ld_unit_zero (S := S256x4096) hz2, View.ld_unit_zero (S := S4096) hz1, View.ld_unit_zero (S := S4096x1024) hz2]
  obtain ⟨-, -, -, -, -, e30, e31, -⟩ := idx_facts0 t
  have ht : t.val < 64 := lt_of_lt_of_eq t.isLt N_0
  funext j
  have hj0 : (j 0).val < 256 := (j 0).isLt
  have hj1 : (j 1).val < 1024 := (j 1).isLt
  rw [View.read_apply]
  show k0_pay1 (iblk0 V c 0 t) (iblk0 V c 1 t) (iblk0 V c 2 t) (View.ld (iblk0 V c 0 t) (r0_res (grid0.coords t))) j
      = res0 V c (((cfg0.win 3).blk t).view.emb j)
  have hj : j = (ix2 (⟨(j 0).val, hj0⟩ : Fin 256) (⟨(j 1).val, hj1⟩ : Fin 1024) : S256x1024.Idx) := by
    funext a; apply Fin.ext
    match a with
    | ⟨0, _⟩ => rfl
    | ⟨1, _⟩ => rfl
  have hemb : ((cfg0.win 3).blk t).view.emb j
      = (ix2 (⟨t.val / 4 * 256 + (j 0).val, by omega⟩ : Fin 4096) (⟨t.val % 4 * 1024 + (j 1).val, by omega⟩ : Fin 4096) : S4096x4096.Idx) := by
    funext a; apply Fin.ext
    match a with
    | ⟨0, _⟩ => show win0_3.index t (0 : Fin 2) * 256 + 1 * (j 0).val = t.val / 4 * 256 + (j 0).val; rw [e30]; omega
    | ⟨1, _⟩ => show win0_3.index t (1 : Fin 2) * 1024 + 1 * (j 1).val = t.val % 4 * 1024 + (j 1).val; rw [e31]; omega
  rw [hemb]
  exact (congrArg (k0_pay1 (iblk0 V c 0 t) (iblk0 V c 1 t) (iblk0 V c 2 t) (View.ld (iblk0 V c 0 t) (r0_res (grid0.coords t)))) hj).trans
    (point0_at V c t ⟨(j 0).val, hj0⟩ ⟨(j 1).val, hj1⟩ _ _ rfl rfl)

/-! ## The 16 × 4 blocks tile the array -/

/-- An index of the array is in point `t`'s block iff each coordinate is in the block's range on its axis. -/
theorem mem_blk0 (t : Fin cfg0.N) (i : S4096x4096.Idx) :
    i ∈ ((cfg0.win 3).blk t).view.set
      ↔ ∀ a : Fin 2, win0_3.index t a * S256x1024.size a ≤ (i a).val ∧ (i a).val < win0_3.index t a * S256x1024.size a + S256x1024.size a := by
  show i ∈ ((View.whole main_v2).slice (win0_3.rect t)).set ↔ _
  rw [View.set_slice_whole, Rect.mem_set_unit]
  exact Iff.rfl

/-- Every index `(r, e)` of the array is in the block of the point `(r / 256, e / 1024)`. -/
theorem cover0 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ : ∃ t : Fin cfg0.N, t.val = (i 0).val / 256 * 4 + (i 1).val / 1024 :=
    ⟨⟨(i 0).val / 256 * 4 + (i 1).val / 1024, lt_of_lt_of_eq (show (i 0).val / 256 * 4 + (i 1).val / 1024 < 64 by omega) N_0.symm⟩, rfl⟩
  obtain ⟨-, -, -, -, -, e30, e31, -⟩ := idx_facts0 t
  refine ⟨t, flush0_3 t, ?_⟩
  rw [mem_blk0]
  intro a
  match a with
  | ⟨0, _⟩ =>
    show win0_3.index t (0 : Fin 2) * 256 ≤ (i 0).val ∧ (i 0).val < win0_3.index t (0 : Fin 2) * 256 + 256
    rw [e30, ht]; omega
  | ⟨1, _⟩ =>
    show win0_3.index t (1 : Fin 2) * 1024 ≤ (i 1).val ∧ (i 1).val < win0_3.index t (1 : Fin 2) * 1024 + 1024
    rw [e31, ht]; omega

end Val0

/-- Region 0's output array after the run is the attention residual of its operand arrays. -/
theorem final0 (c : Dev nD) :
    ((dat0 (F := Ideal) V c).arrAt 3 cfg0.N : S4096x4096.Idx → EReal)
      = Cert.Spec.X2fun (V c main_v0) (V c main_arg1) (V c main_v1) :=
  (dat0 (F := Ideal) V c).arrAt_eq_of_cover 3 (Val0.res0 V c) (fun t _ => Val0.flushed0_eq V c t) Val0.cover0

end Cert.KernelIdeal.Hand

end
-- ==== Proof.KI.Val1.lean ====
/-
  Region 1's result array at the ideal instance: after all 352 grid points the output array holds, at (r, i), the gated
  activation  silu(Σ_d h(y[r])_d · G[d, i]) · (Σ_d h(y[r])_d · U[d, i])  of the four operand arrays as the region finds them
  (the format changes are the identity) — the 32 × 11 blocks of 128 × 1024 tile the array.

  The body at one point, read at an entry (p, q) of its block: the row's sum of squares over the 4096 lanes, divided by 4096,
  plus ε, under the reciprocal square root, gives the row's factor; the entry times that factor times the norm weight is
  h[p, d]; the two block products into the zero accumulator are the sums over the 4096 contraction positions of h[p, d] times
  the gate and the up weight at (d, q); the result is g · logistic g · u. The blocks a point reads are rows (t / 11)·128 .. of the
  activations, the whole norm weight and columns (t % 11)·1024 .. of the two weights; the block it writes is (t / 11, t % 11).
-/
import proofs.«135343_j29592324669776_1_alg».proof.Proof.KI.Region1
import proofs.«135343_j29592324669776_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

namespace Val1

/-! ## Layout operations and the two non-pointwise operations, read at an index -/

/-- A vector cast to a column reads, at (p, u), the vector at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of squares along a row. -/
theorem rowsq_apply (v : FVec Ideal S128x4096 .f32) (hacc : (0x00000000#32 : BitVec 32) = 0x00000000#32) (p : Fin 128) :
    multiReduction (F := Ideal) .add [1] S128 v 0x00000000#32 reduces_S128x4096_S128 (.inl rfl) hacc (ix1 p)
      = ∑ d : Fin 4096, v (ix2 p d) := by
  refine (Ideal.multiReduction_add_single v 0x00000000#32 reduces_S128x4096_S128 (.inl rfl) hacc (ix1 p)).trans ?_
  refine Finset.sum_congr rfl fun d _ => congrArg v ?_
  funext a
  match a with
  | ⟨0, _⟩ => rfl
  | ⟨1, _⟩ => rfl

/-! The block product's operand indices, axis by axis. -/
theorem lhs_up_0 (i : S128x1024.Idx) (q : dot_S128x4096_S4096x1024_S128x1024_1_0_0_1_n_n.contr.Idx) :
    (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl
theorem lhs_up_1 (i : S128x1024.Idx) (q : dot_S128x4096_S4096x1024_S128x1024_1_0_0_1_n_n.contr.Idx) :
    (dot_S128x4096_S4096x1024_S128x1024_1_0_0_1_n_n.lhsIdx i q 1).val = (q ⟨0, by decide⟩).val :=
  dot_S128x4096_S4096x1024_S128x1024_1_0_0_1_n_n.lhsIdx_val_of_single rfl i q
theorem rhs_up_0 (i : S128x1024.Idx) (q : dot_S128x4096_S4096x1024_S128x1024_1_0_0_1_n_n.contr.Idx) :
    (dot_S128x4096_S4096x1024_S128x1024_1_0_0_1_n_n.rhsIdx i q 0).val = (q ⟨0, by decide⟩).val :=
  dot_S128x4096_S4096x1024_S128x1024_1_0_0_1_n_n.rhsIdx_val_of_single rfl i q
theorem rhs_up_1 (i : S128x1024.Idx) (q : dot_S128x4096_S4096x1024_S128x1024_1_0_0_1_n_n.contr.Idx) :
    (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl

/-- The block product into the zero splat at (p, q): the sum over the 4096 contraction positions. -/
theorem up_apply (l : FVec Ideal S128x4096 .bf16) (r : FVec Ideal S4096x1024 .bf16) (p : Fin 128) (q : Fin 1024) :
    matmul dot_S128x4096_S4096x1024_S128x1024_1_0_0_1_n_n none l r (constant (F := Ideal) S128x1024 .f32 0x00000000#32) (ix2 p q)
      = ∑ d : Fin 4096, l (ix2 p d) * r (ix2 d q) := by
  refine (Ideal.matmul_constant_zero_apply dot_S128x4096_S4096x1024_S128x1024_1_0_0_1_n_n none l r (ix2 p q)).trans ?_
  rw [← Equiv.sum_comp (ValueIdx.contrEquiv1 dot_S128x4096_S4096x1024_S128x1024_1_0_0_1_n_n 4096 rfl rfl).symm]
  refine Finset.sum_congr rfl fun k _ => ?_
  have hk := ValueIdx.contrEquiv1_symm_val dot_S128x4096_S4096x1024_S128x1024_1_0_0_1_n_n 4096 rfl rfl k
  have el : dot_S128x4096_S4096x1024_S128x1024_1_0_0_1_n_n.lhsIdx (ix2 p q) ((ValueIdx.contrEquiv1 dot_S128x4096_S4096x1024_S128x1024_1_0_0_1_n_n 4096 rfl rfl).symm k) = ix2 p k := funext fun a => Fin.ext (by
    match a with
    | ⟨0, _⟩ => exact lhs_up_0 _ _
    | ⟨1, _⟩ => exact (lhs_up_1 _ _).trans hk)
  have er : dot_S128x4096_S4096x1024_S128x1024_1_0_0_1_n_n.rhsIdx (ix2 p q) ((ValueIdx.contrEquiv1 dot_S128x4096_S4096x1024_S128x1024_1_0_0_1_n_n 4096 rfl rfl).symm k) = ix2 k q := funext fun a => Fin.ext (by
    match a with
    | ⟨0, _⟩ => exact (rhs_up_0 _ _).trans hk
    | ⟨1, _⟩ => exact rhs_up_1 _ _)
  rw [el, er]

/-! ## The payload at an index -/

/-- The first half of the body: the row block times its RMS factor times the norm weight. -/
def nrm1 {F : FTy → Type} [FloatOps F] (v0 : Vec F S128x4096 .f32) (v12 : Vec F S4096 .f32) : FVec F S128x4096 .bf16 :=
  truncf .bf16
    (mulf
      (mulf v0
        (broadcastTo S128x4096
          (rsqrt (addf
            (divf (shapeCast S128x1 (multiReduction .add [1] S128 (mulf v0 v0) 0x00000000#32 reduces_S128x4096_S128 (.inl rfl) rfl) shapeCasts_S128_S128x1)
              (broadcast S128x1 (Scalar.ofBits .f32 0x45800000#32)))
            (broadcast S128x1 (Scalar.ofBits .f32 0x358637BD#32))))
          broadcasts_S128x1_S128x4096))
      (broadcastTo S128x4096 (shapeCast S1x4096 v12 shapeCasts_S4096_S1x4096) broadcasts_S1x4096_S128x4096))
    bitsLt_bf16_f32

/-- The body's payload is the gated product of the two block products of that row block. -/
theorem pay1_eq {F : FTy → Type} [FloatOps F] (x0 : Vec F S128x4096 .f32) (x1 : Vec F S4096 .f32) (x2 x3 : Vec F S4096x1024 .bf16) :
    k1_pay1 x0 x1 x2 x3
      = truncf .bf16 (mulf
          (mulf (matmul dot_S128x4096_S4096x1024_S128x1024_1_0_0_1_n_n none (nrm1 x0 x1) x2 (constant S128x1024 .f32 0x00000000#32))
            (logistic (matmul dot_S128x4096_S4096x1024_S128x1024_1_0_0_1_n_n none (nrm1 x0 x1) x2 (constant S128x1024 .f32 0x00000000#32))))
          (matmul dot_S128x4096_S4096x1024_S128x1024_1_0_0_1_n_n none (nrm1 x0 x1) x3 (constant S128x1024 .f32 0x00000000#32))) bitsLt_bf16_f32 := by
  unfold k1_pay1 nrm1
  simp only [shapeCast_self]

/-- That row block at (p, d): the entry times the row's RMS factor times the weight. -/
theorem nrm1_apply (x0 : Vec Ideal S128x4096 .f32) (x1 : Vec Ideal S4096 .f32) (p : Fin 128) (d : Fin 4096) :
    nrm1 (F := Ideal) x0 x1 (ix2 p d) = Cert.Spec.hrow (fun e => x0 (ix2 p e)) (fun e => x1 (ix1 e)) d := by
  unfold nrm1
  have e1 : ∀ (v : FVec Ideal S128x1 .f32), broadcastTo S128x4096 v broadcasts_S128x1_S128x4096 (ix2 p d) = v (ix2 p (0 : Fin 1)) :=
    fun v => broadcastTo_a1_ab_apply v _ p d
  have e2 : broadcastTo S128x4096 (shapeCast S1x4096 x1 shapeCasts_S4096_S1x4096) broadcasts_S1x4096_S128x4096 (ix2 p d) = x1 (ix1 d) :=
    (broadcastTo_1b_ab_apply _ _ p d).trans (shapeCast_a_1a_apply x1 _ 0 d)
  have e3 : shapeCast S128x1 (multiReduction (F := Ideal) .add [1] S128 (mulf x0 x0) 0x00000000#32 reduces_S128x4096_S128 (.inl rfl) rfl) shapeCasts_S128_S128x1 (ix2 p (0 : Fin 1))
      = ∑ e : Fin 4096, x0 (ix2 p e) * x0 (ix2 p e) :=
    (shapeCast_a_a1_apply _ _ p 0).trans (rowsq_apply (mulf x0 x0) rfl p)
  simp only [truncf_apply, mulf_apply, e1, e2]
  exact congrArg (fun z => x0 (ix2 p d) * Ideal.rsqrt (Ideal.div z Cert.Spec.n4096 + Cert.Spec.eps) * x1 (ix1 d)) e3

/-- The gated product of two block products of one row block, at (p, q). -/
theorem gate_apply (N : FVec Ideal S128x4096 .bf16) (x2 x3 : FVec Ideal S4096x1024 .bf16) (p : Fin 128) (q : Fin 1024) :
    (truncf .bf16 (mulf
          (mulf (matmul dot_S128x4096_S4096x1024_S128x1024_1_0_0_1_n_n none N x2 (constant (F := Ideal) S128x1024 .f32 0x00000000#32))
            (logistic (matmul dot_S128x4096_S4096x1024_S128x1024_1_0_0_1_n_n none N x2 (constant (F := Ideal) S128x1024 .f32 0x00000000#32))))
          (matmul dot_S128x4096_S4096x1024_S128x1024_1_0_0_1_n_n none N x3 (constant (F := Ideal) S128x1024 .f32 0x00000000#32))) bitsLt_bf16_f32 : FVec Ideal S128x1024 .bf16) (ix2 p q)
      = Cert.Spec.silu (∑ d : Fin 4096, N (ix2 p d) * x2 (ix2 d q)) * (∑ d : Fin 4096, N (ix2 p d) * x3 (ix2 d q)) := by
  have eg := up_apply N x2 p q
  have eu := up_apply N x3 p q
  exact (congrArg₂ (fun a b => a * Ideal.logistic a * b) eg eu)

/-- THE PAYLOAD AT (p, q), for blocks that are rows r.. of y, the whole of w and columns i.. of g and u:
    the gated activation at (r, i). -/
theorem pay1_apply (y : (⟨2, ![4096, 4096]⟩ : Shape).Idx → EReal) (w : (⟨1, ![4096]⟩ : Shape).Idx → EReal)
    (g u : (⟨2, ![4096, 11264]⟩ : Shape).Idx → EReal)
    (x0 : Vec Ideal S128x4096 .f32) (x1 : Vec Ideal S4096 .f32) (x2 x3 : Vec Ideal S4096x1024 .bf16)
    (p : Fin 128) (q : Fin 1024) (r : Fin 4096) (i : Fin 11264)
    (h0 : ∀ e : Fin 4096, x0 (ix2 p e) = y (ix2 r e)) (h1 : ∀ e : Fin 4096, x1 (ix1 e) = w (ix1 e))
    (h2 : ∀ d : Fin 4096, x2 (ix2 d q) = g (ix2 d i)) (h3 : ∀ d : Fin 4096, x3 (ix2 d q) = u (ix2 d i)) :
    k1_pay1 (F := Ideal) x0 x1 x2 x3 (ix2 p q)
      = Cert.Spec.actAt (fun a b => y (ix2 a b)) (fun a => w (ix1 a)) (fun a b => g (ix2 a b)) (fun a b => u (ix2 a b)) r i := by
  rw [pay1_eq]
  refine (gate_apply (nrm1 (F := Ideal) x0 x1) x2 x3 p q).trans ?_
  simp only [nrm1_apply, h2, h3]
  have hx : (fun e => x0 (ix2 p e)) = fun e => y (ix2 r e) := funext h0
  have hw : (fun e => x1 (ix1 e)) = fun e => w (ix1 e) := funext h1
  rw [hx, hw]
  rfl

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: point t = i·11 + j reads row block i of the activations, the whole norm weight,
    column block j of the two weights, and writes block (i, j). -/
theorem idx_facts1 : ∀ t : Fin cfg1.N, win1_0.index t (0 : Fin 2) = t.val / 11 ∧ win1_0.index t (1 : Fin 2) = 0
    ∧ win1_1.index t (0 : Fin 1) = 0
    ∧ win1_2.index t (0 : Fin 2) = 0 ∧ win1_2.index t (1 : Fin 2) = t.val % 11
    ∧ win1_3.index t (0 : Fin 2) = 0 ∧ win1_3.index t (1 : Fin 2) = t.val % 11
    ∧ win1_4.index t (0 : Fin 2) = t.val / 11 ∧ win1_4.index t (1 : Fin 2) = t.val % 11 :=
  (by decide +kernel : ∀ t : Fin grid1.N, _)

/-- The activations' block at point t is rows (t / 11)·128 .. of the array. -/
theorem iblk1_0_apply (c : Dev nD) (t : Fin cfg1.N) (x : S128x4096.Idx) (k : S4096x4096.Idx)
    (hk0 : (k 0).val = t.val / 11 * 128 + (x 0).val) (hk1 : (k 1).val = (x 1).val) :
    (iblk1 V c 0 t : Vec Ideal S128x4096 .f32) x = (V c main_v2 : S4096x4096.Idx → EReal) k := by
  obtain ⟨e0, e1, -⟩ := idx_facts1 t
  unfold iblk1
  rw [View.read_apply]
  show V c main_v2 _ = V c main_v2 _
  congr 1
  funext a
  apply Fin.ext
  match a with
  | ⟨0, _⟩ => show win1_0.index t 0 * 128 + 1 * (x 0).val = (k 0).val; rw [e0, hk0]; omega
  | ⟨1, _⟩ => show win1_0.index t 1 * 4096 + 1 * (x 1).val = (k 1).val; rw [e1, hk1]; omega

/-- The norm weight's block is the whole vector. -/
theorem iblk1_1_apply (c : Dev nD) (t : Fin cfg1.N) (x : S4096.Idx) :
    (iblk1 V c 1 t : Vec Ideal S4096 .f32) x = (V c main_arg3 : S4096.Idx → EReal) x := by
  obtain ⟨-, -, e0, -⟩ := idx_facts1 t
  unfold iblk1
  rw [View.read_apply]
  show V c main_arg3 _ = V c main_arg3 _
  congr 1
  funext a
  apply Fin.ext
  match a with
  | ⟨0, _⟩ => show win1_1.index t 0 * 4096 + 1 * (x 0).val = (x 0).val; rw [e0]; omega

/-- The gate weight's block at point t is columns (t % 11)·1024 .. of the array. -/
theorem iblk1_2_apply (c : Dev nD) (t : Fin cfg1.N) (x : S4096x1024.Idx) (k : S4096x11264.Idx)
    (hk0 : (k 0).val = (x 0).val) (hk1 : (k 1).val = t.val % 11 * 1024 + (x 1).val) :
    (iblk1 V c 2 t : Vec Ideal S4096x1024 .bf16) x = (V c main_v6 : S4096x11264.Idx → EReal) k := by
  obtain ⟨-, -, -, e0, e1, -⟩ := idx_facts1 t
  unfold iblk1
  rw [View.read_apply]
  show V c main_v6 _ = V c main_v6 _
  congr 1
  funext a
  apply Fin.ext
  match a with
  | ⟨0, _⟩ => show win1_2.index t 0 * 4096 + 1 * (x 0).val = (k 0).val; rw [e0, hk0]; omega
  | ⟨1, _⟩ => show win1_2.index t 1 * 1024 + 1 * (x 1).val = (k 1).val; rw [e1, hk1]; omega

/-- The up weight's block at point t likewise. -/
theorem iblk1_3_apply (c : Dev nD) (t : Fin cfg1.N) (x : S4096x1024.Idx) (k : S4096x11264.Idx)
    (hk0 : (k 0).val = (x 0).val) (hk1 : (k 1).val = t.val % 11 * 1024 + (x 1).val) :
    (iblk1 V c 3 t : Vec Ideal S4096x1024 .bf16) x = (V c main_v8 : S4096x11264.Idx → EReal) k := by
  obtain ⟨-, -, -, -, -, e0, e1, -⟩ := idx_facts1 t
  unfold iblk1
  rw [View.read_apply]
  show V c main_v8 _ = V c main_v8 _
  congr 1
  funext a
  apply Fin.ext
  match a with
  | ⟨0, _⟩ => show win1_3.index t 0 * 4096 + 1 * (x 0).val = (k 0).val; rw [e0, hk0]; omega
  | ⟨1, _⟩ => show win1_3.index t 1 * 1024 + 1 * (x 1).val = (k 1).val; rw [e1, hk1]; omega

/-- WHAT POINT t WRITES BACK is block t of the gated activation of the four operand arrays. -/
theorem flushed1_eq (c : Dev nD) (t : Fin cfg1.N) :
    (dat1 (F := Ideal) V c).flushed 4 t
      = ((cfg1.win 4).blk t).view.read (Elt Ideal) (Cert.Spec.ActFun (V c main_v2) (V c main_arg3) (V c main_v6) (V c main_v8)) := by
  show (cfg1.win 4).cut (grid1.coords t) ((dat1 V c).after 4 t) = _
  rw [after1_4]
  unfold out1_4
  rw [View.canon_unit_zero hz2]
  simp only [View.ld_unit_zero (S := S128x4096) hz2, View.ld_unit_zero (S := S4096) hz1, View.ld_unit_zero (S := S4096x1024) hz2]
  funext j
  have hp : (j 0).val < 128 := (j 0).isLt
  have hq : (j 1).val < 1024 := (j 1).isLt
  obtain ⟨-, -, -, -, -, -, -, e0, e1⟩ := idx_facts1 t
  obtain ⟨k, hk⟩ : ∃ k : S4096x11264.Idx, k = ((cfg1.win 4).blk t).view.emb j := ⟨_, rfl⟩
  have hk0 : (k 0).val = t.val / 11 * 128 + (j 0).val := by
    rw [hk]; show win1_4.index t 0 * 128 + 1 * (j 0).val = _; rw [e0]; omega
  have hk1 : (k 1).val = t.val % 11 * 1024 + (j 1).val := by
    rw [hk]; show win1_4.index t 1 * 1024 + 1 * (j 1).val = _; rw [e1]; omega
  have hx : ((win1 4).xinj (grid1.coords t) j : S128x1024.Idx) = ix2 (⟨(j 0).val, hp⟩ : Fin 128) (⟨(j 1).val, hq⟩ : Fin 1024) :=
    funext fun a => by match a with | ⟨0, _⟩ => rfl | ⟨1, _⟩ => rfl
  rw [View.read_apply, ← hk]
  refine (congrArg (k1_pay1 (F := Ideal) (iblk1 V c 0 t) (iblk1 V c 1 t) (iblk1 V c 2 t) (iblk1 V c 3 t)) hx).trans ?_
  exact pay1_apply (V c main_v2) (V c main_arg3) (V c main_v6) (V c main_v8)
    (iblk1 V c 0 t) (iblk1 V c 1 t) (iblk1 V c 2 t) (iblk1 V c 3 t)
    ⟨(j 0).val, hp⟩ ⟨(j 1).val, hq⟩ ⟨(k 0).val, (k 0).isLt⟩ ⟨(k 1).val, (k 1).isLt⟩
    (fun e => iblk1_0_apply V c t _ _ hk0 rfl)
    (fun e => iblk1_1_apply V c t _)
    (fun d => iblk1_2_apply V c t _ _ rfl hk1)
    (fun d => iblk1_3_apply V c t _ _ rfl hk1)

/-- An index of the array is in point t's block iff each coordinate is in the block's range on its axis. -/
theorem mem_blk1 (t : Fin cfg1.N) (i : S4096x11264.Idx) :
    i ∈ ((cfg1.win 4).blk t).view.set ↔ ∀ a : Fin 2, win1_4.index t a * S128x1024.size a ≤ (i a).val ∧ (i a).val < win1_4.index t a * S128x1024.size a + S128x1024.size a := by
  show i ∈ ((View.whole main_v11).slice (win1_4.rect t)).set ↔ _
  rw [View.set_slice_whole, Rect.mem_set_unit]
  exact Iff.rfl

/-- The 32 × 11 blocks of 128 × 1024 tile the 4096 × 11264 array: (r, i) is in the block of point (r / 128)·11 + i / 1024. -/
theorem cover1 (i : S4096x11264.Idx) : ∃ t : Fin cfg1.N, (cfg1.win 4).flush t = true ∧ i ∈ ((cfg1.win 4).blk t).view.set := by
  have hi0 : (i 0).val < 4096 := (i 0).isLt
  have hi1 : (i 1).val < 11264 := (i 1).isLt
  have hN : grid1.N = 352 := N_1
  obtain ⟨t, ht⟩ : ∃ t : Fin cfg1.N, t.val = (i 0).val / 128 * 11 + (i 1).val / 1024 :=
    ⟨⟨(i 0).val / 128 * 11 + (i 1).val / 1024, by show _ < grid1.N; rw [hN]; omega⟩, rfl⟩
  obtain ⟨-, -, -, -, -, -, -, e0, e1⟩ := idx_facts1 t
  refine ⟨t, flush1_4 t, ?_⟩
  rw [mem_blk1]
  intro a
  match a with
  | ⟨0, _⟩ => show win1_4.index t 0 * 128 ≤ (i 0).val ∧ (i 0).val < win1_4.index t 0 * 128 + 128; rw [e0, ht]; omega
  | ⟨1, _⟩ => show win1_4.index t 1 * 1024 ≤ (i 1).val ∧ (i 1).val < win1_4.index t 1 * 1024 + 1024; rw [e1, ht]; omega

end Val1

variable (V : (c : Dev nD) → (b : Ref sig .tc) → Buf (Elt Ideal) ((c : Thread nD τ).loc b))

/-- Region 1's output array after the run is the gated activation of its operand arrays. -/
theorem final1 (c : Dev nD) :
    ((dat1 (F := Ideal) V c).arrAt 4 cfg1.N : S4096x11264.Idx → EReal)
      = Cert.Spec.ActFun (V c main_v2) (V c main_arg3) (V c main_v6) (V c main_v8) :=
  (dat1 (F := Ideal) V c).arrAt_eq_of_cover 4 (Cert.Spec.ActFun (V c main_v2) (V c main_arg3) (V c main_v6) (V c main_v8))
    (fun t _ => Val1.flushed1_eq V c t) Val1.cover1

end Cert.KernelIdeal.Hand

end
-- ==== Proof.KI.Val2.lean ====
/-
  Region 2's result array at the ideal instance: the scratch after step k of a contraction holds the sum of the first
  k + 1 blocks' products (by induction over the steps, the first starting from zero), so the block written back at
  k = 10 is the eleven blocks' sum plus the residual block; the 4 × 4 blocks of 1024 × 1024 tile the array.
-/
import proofs.«135343_j29592324669776_1_alg».proof.Proof.KI.Region2
import proofs.«135343_j29592324669776_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The three payloads at an entry (p, q) of a 1024 × 1024 block -/

/-- The reset value is zero at every entry. -/
theorem reset2_apply (p q : Fin 1024) : (reset2 (F := Ideal) : S1024x1024.Idx → EReal) (ix2 p q) = 0 := by
  unfold reset2 k2_pay1
  rw [shapeCast_self]
  exact Ideal.ofBits_zero_f32

/-- The left operand's index of the product at output entry i and contraction position q: row i₀, -/
theorem lhs_step2_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- column q; -/
theorem lhs_step2_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand's: row q, -/
theorem rhs_step2_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- column i₁. -/
theorem rhs_step2_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A step adds, at entry (p, q), the row p of the first block times the column q of the second. -/
theorem step2_apply (s : Vec Ideal S1024x1024 .f32) (a d : Vec Ideal S1024x1024 .bf16) (p q : Fin 1024) :
    (step2 (F := Ideal) s a d : S1024x1024.Idx → EReal) (ix2 p q)
      = (s (ix2 p q) : EReal) + ∑ u : Fin 1024, (a (ix2 p u) : EReal) * (d (ix2 u q) : EReal) := by
  unfold step2 k2_pay2
  simp only [shapeCast_self]
  rw [addf_apply]
  refine congrArg (_ + ·) ?_
  refine (Ideal.matmul_constant_zero_apply (φ₁ := .bf16) (φ₂ := .bf16) dot_S1024x1024_S1024x1024_S1024x1024_1_0_0_1_n_n none a d (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_step2_0 _ _
    | ⟨1, _⟩ => exact (lhs_step2_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_step2_0 _ _).trans hk
    | ⟨1, _⟩ => exact rhs_step2_1 _ _)
  rw [el, er]

/-- The last step's store adds the residual block to the scratch, entry by entry. -/
theorem fin2_apply (s x : Vec Ideal S1024x1024 .f32) (p q : Fin 1024) :
    (fin2 (F := Ideal) s x : S1024x1024.Idx → EReal) (ix2 p q) = (s (ix2 p q) : EReal) + (x (ix2 p q) : EReal) := by
  unfold fin2 k2_pay3
  rw [shapeCast_self]
  rfl

/-! ## The arrays and the blocks a point reads -/

variable (V : (c : Dev nD) → (b : Ref sig .tc) → Buf (Elt Ideal) ((c : Thread nD τ).loc b))

/-- The three operand arrays as the region finds them: activations, down weight, residual. -/
abbrev arrA2 (c : Dev nD) : S4096x11264.Idx → EReal := V c main_v11
abbrev arrD2 (c : Dev nD) : S11264x4096.Idx → EReal := V c main_v10
abbrev arrY2 (c : Dev nD) : S4096x4096.Idx → EReal := V c main_v2
/-- Their blocks at point t. -/
abbrev blkA2 (c : Dev nD) (t : Fin cfg2.N) : S1024x1024.Idx → EReal := iblk2 (F := Ideal) V c 0 t
abbrev blkD2 (c : Dev nD) (t : Fin cfg2.N) : S1024x1024.Idx → EReal := iblk2 (F := Ideal) V c 1 t
abbrev blkY2 (c : Dev nD) (t : Fin cfg2.N) : S1024x1024.Idx → EReal := iblk2 (F := Ideal) V c 2 t

/-- The printed index maps in closed form, decided over the grid: point t = (i · 4 + j) · 11 + k reads block (i, k) of the
    activations, block (k, j) of the down weight, block (i, j) of the residual, and owns block (i, j) of the output. -/
theorem idx_facts2 : ∀ t : Fin cfg2.N,
    win2_0.index t (0 : Fin 2) = t.val / 44 ∧ win2_0.index t (1 : Fin 2) = t.val % 11
    ∧ win2_1.index t (0 : Fin 2) = t.val % 11 ∧ win2_1.index t (1 : Fin 2) = t.val / 11 % 4
    ∧ win2_2.index t (0 : Fin 2) = t.val / 44 ∧ win2_2.index t (1 : Fin 2) = t.val / 11 % 4
    ∧ win2_3.index t (0 : Fin 2) = t.val / 44 ∧ win2_3.index t (1 : Fin 2) = t.val / 11 % 4 :=
  (by decide +kernel : ∀ t : Fin grid2.N, _)

/-- The activations' block at point t, entry (p, u): row (t / 44) · 1024 + p, column (t % 11) · 1024 + u of the array. -/
theorem blkA2_apply (c : Dev nD) (t : Fin cfg2.N) (p u : Fin 1024) (r : Fin 4096) (i : Fin 11264)
    (hr : r.val = t.val / 44 * 1024 + p.val) (hi : i.val = t.val % 11 * 1024 + u.val) :
    blkA2 V c t (ix2 p u) = arrA2 V c (ix2 r i) := by
  obtain ⟨e0, e1, -⟩ := idx_facts2 t
  unfold blkA2 arrA2 iblk2
  rw [View.read_apply]
  show V c main_v11 _ = V c main_v11 _
  congr 1
  funext a
  apply Fin.ext
  match a with
  | ⟨0, _⟩ => show win2_0.index t 0 * 1024 + 1 * p.val = r.val; rw [e0, hr]; omega
  | ⟨1, _⟩ => show win2_0.index t 1 * 1024 + 1 * u.val = i.val; rw [e1, hi]; omega

/-- The down weight's block at point t, entry (u, q): row (t % 11) · 1024 + u, column (t / 11 % 4) · 1024 + q. -/
theorem blkD2_apply (c : Dev nD) (t : Fin cfg2.N) (u q : Fin 1024) (i : Fin 11264) (e : Fin 4096)
    (hi : i.val = t.val % 11 * 1024 + u.val) (he : e.val = t.val / 11 % 4 * 1024 + q.val) :
    blkD2 V c t (ix2 u q) = arrD2 V c (ix2 i e) := by
  obtain ⟨-, -, e0, e1, -⟩ := idx_facts2 t
  unfold blkD2 arrD2 iblk2
  rw [View.read_apply]
  show V c main_v10 _ = V c main_v10 _
  congr 1
  funext a
  apply Fin.ext
  match a with
  | ⟨0, _⟩ => show win2_1.index t 0 * 1024 + 1 * u.val = i.val; rw [e0, hi]; omega
  | ⟨1, _⟩ => show win2_1.index t 1 * 1024 + 1 * q.val = e.val; rw [e1, he]; omega

/-- The residual's block at point t, entry (p, q): row (t / 44) · 1024 + p, column (t / 11 % 4) · 1024 + q. -/
theorem blkY2_apply (c : Dev nD) (t : Fin cfg2.N) (p q : Fin 1024) (r e : Fin 4096)
    (hr : r.val = t.val / 44 * 1024 + p.val) (he : e.val = t.val / 11 % 4 * 1024 + q.val) :
    blkY2 V c t (ix2 p q) = arrY2 V c (ix2 r e) := by
  obtain ⟨-, -, -, -, e0, e1, -⟩ := idx_facts2 t
  unfold blkY2 arrY2 iblk2
  rw [View.read_apply]
  show V c main_v2 _ = V c main_v2 _
  congr 1
  funext a
  apply Fin.ext
  match a with
  | ⟨0, _⟩ => show win2_2.index t 0 * 1024 + 1 * p.val = r.val; rw [e0, hr]; omega
  | ⟨1, _⟩ => show win2_2.index t 1 * 1024 + 1 * q.val = e.val; rw [e1, he]; omega

/-! ## The scratch over the steps of one contraction -/

/-- Block k's share of the contraction at row r and column e of the arrays (nothing past the eleventh block). -/
def blockSum2 (c : Dev nD) (r e : Fin 4096) (k : ℕ) : EReal :=
  if h : k < 11 then
    ∑ u : Fin 1024, arrA2 V c (ix2 r (Cert.Spec.kIdx ⟨k, h⟩ u)) * arrD2 V c (ix2 (Cert.Spec.kIdx ⟨k, h⟩ u) e)
  else 0

/-- What a point's step adds at entry (p, q) is its block's share, at the row and column the point's blocks sit at. -/
theorem step_term2 (c : Dev nD) (t : Fin cfg2.N) (p q : Fin 1024) (r e : Fin 4096)
    (hr : r.val = t.val / 44 * 1024 + p.val) (he : e.val = t.val / 11 % 4 * 1024 + q.val) :
    (∑ u : Fin 1024, blkA2 V c t (ix2 p u) * blkD2 V c t (ix2 u q)) = blockSum2 V c r e (t.val % 11) := by
  unfold blockSum2
  rw [dif_pos (Nat.mod_lt _ (by decide))]
  refine Finset.sum_congr rfl fun u _ => ?_
  rw [blkA2_apply V c t p u r (Cert.Spec.kIdx ⟨t.val % 11, Nat.mod_lt _ (by decide)⟩ u) hr rfl,
    blkD2_apply V c t u q (Cert.Spec.kIdx ⟨t.val % 11, Nat.mod_lt _ (by decide)⟩ u) e rfl he]

/-- The scratch after the point at position n, as a block of extended reals. -/
abbrev scr2 (c : Dev nD) (n : ℕ) (hn : n < cfg2.N) : S1024x1024.Idx → EReal := acc2 (F := Ideal) V c n hn

/-- THE INDUCTION over the points: after the point at position n, which is step n % 11 of its contraction, the scratch
    holds at entry (p, q) the shares of blocks 0 … n % 11 added up, at the row and column the point's output block sits at. -/
theorem scr2_apply (c : Dev nD) : ∀ (n : ℕ) (hn : n < cfg2.N) (p q : Fin 1024) (r e : Fin 4096),
    r.val = n / 44 * 1024 + p.val → e.val = n / 11 % 4 * 1024 + q.val →
    scr2 V c n hn (ix2 p q) = ∑ k ∈ Finset.range (n % 11 + 1), blockSum2 V c r e k
  | 0, hn, p, q, r, e, hr, he => by
    have h0 : scr2 V c 0 hn = step2 (F := Ideal) reset2 (blkA2 V c ⟨0, hn⟩) (blkD2 V c ⟨0, hn⟩) :=
      acc2_reset (F := Ideal) V c ⟨0, hn⟩ rfl
    refine (congrFun h0 (ix2 p q)).trans ?_
    rw [step2_apply, reset2_apply, zero_add, step_term2 V c ⟨0, hn⟩ p q r e hr he]
    exact (Finset.sum_range_one _).symm
  | n + 1, hn, p, q, r, e, hr, he => by
    by_cases h : (n + 1) % 11 = 0
    · have h0 : scr2 V c (n + 1) hn = step2 (F := Ideal) reset2 (blkA2 V c ⟨n + 1, hn⟩) (blkD2 V c ⟨n + 1, hn⟩) :=
        acc2_reset (F := Ideal) V c ⟨n + 1, hn⟩ h
      refine (congrFun h0 (ix2 p q)).trans ?_
      rw [step2_apply, reset2_apply, zero_add, step_term2 V c ⟨n + 1, hn⟩ p q r e hr he]
      show blockSum2 V c r e ((n + 1) % 11) = _
      rw [h]
      exact (Finset.sum_range_one _).symm
    · have h0 : scr2 V c (n + 1) hn = step2 (F := Ideal) (scr2 V c n (Nat.lt_of_succ_lt hn)) (blkA2 V c ⟨n + 1, hn⟩) (blkD2 V c ⟨n + 1, hn⟩) :=
        acc2_step (F := Ideal) V c ⟨n + 1, hn⟩ h
      refine (congrFun h0 (ix2 p q)).trans ?_
      rw [step2_apply, step_term2 V c ⟨n + 1, hn⟩ p q r e hr he]
      show scr2 V c n _ (ix2 p q) + blockSum2 V c r e ((n + 1) % 11) = _
      rw [scr2_apply c n (Nat.lt_of_succ_lt hn) p q r e (by omega) (by omega),
        show (n + 1) % 11 + 1 = (n % 11 + 1) + 1 from by omega, Finset.sum_range_succ _ (n % 11 + 1),
        show n % 11 + 1 = (n + 1) % 11 from by omega]

/-! ## From the output's blocks to the array -/

/-- The array the output is to end holding: the blocked down-projection plus residual of the three operand arrays. -/
abbrev G2 (c : Dev nD) : S4096x4096.Idx → EReal := Cert.Spec.DownFun (V c main_v11) (V c main_v10) (V c main_v2)

/-- At row r and column e it is the eleven blocks' shares added up, plus the residual there. -/
theorem G2_apply (c : Dev nD) (r e : Fin 4096) :
    G2 V c (ix2 r e) = (∑ k ∈ Finset.range 11, blockSum2 V c r e k) + arrY2 V c (ix2 r e) := by
  show (∑ k : Fin 11, ∑ u : Fin 1024, arrA2 V c (ix2 r (Cert.Spec.kIdx k u)) * arrD2 V c (ix2 (Cert.Spec.kIdx k u) e))
      + arrY2 V c (ix2 r e) = _
  rw [Finset.sum_range]
  refine congrArg (· + arrY2 V c (ix2 r e)) (Finset.sum_congr rfl fun k _ => ?_)
  unfold blockSum2
  rw [dif_pos k.isLt]

/-- Output block t read out of a whole array. -/
abbrev oblk2 (G : S4096x4096.Idx → EReal) (t : Fin cfg2.N) : S1024x1024.Idx → EReal :=
  ((cfg2.win 3).blk t).view.read (Elt Ideal) G

/-- Its entry (p, q) is the array at row (t / 44) · 1024 + p, column (t / 11 % 4) · 1024 + q. -/
theorem oblk2_apply (G : S4096x4096.Idx → EReal) (t : Fin cfg2.N) (p q : Fin 1024) (r e : Fin 4096)
    (hr : r.val = t.val / 44 * 1024 + p.val) (he : e.val = t.val / 11 % 4 * 1024 + q.val) :
    oblk2 G t (ix2 p q) = G (ix2 r e) := by
  obtain ⟨-, -, -, -, -, -, e0, e1⟩ := idx_facts2 t
  unfold oblk2
  rw [View.read_apply]
  show G _ = G _
  congr 1
  funext a
  apply Fin.ext
  match a with
  | ⟨0, _⟩ => show win2_3.index t 0 * 1024 + 1 * p.val = r.val; rw [e0, hr]; omega
  | ⟨1, _⟩ => show win2_3.index t 1 * 1024 + 1 * q.val = e.val; rw [e1, he]; omega

/-- At the last step of a contraction the stored block — the scratch plus the residual block — is the target's block. -/
theorem out_block2 (c : Dev nD) (t : Fin cfg2.N) (h10 : t.val % 11 = 10) :
    fin2 (F := Ideal) (scr2 V c t.val t.isLt) (blkY2 V c t) = oblk2 (G2 V c) t := by
  funext j
  obtain ⟨p, q, rfl⟩ : ∃ (p : Fin 1024) (q : Fin 1024), j = ix2 p q := ⟨j 0, j 1, eq_ix2 j⟩
  have hp := p.isLt
  have hq := q.isLt
  have ht : t.val < 176 := Nat.lt_of_lt_of_eq t.isLt N_2
  obtain ⟨r, hr⟩ : ∃ r : Fin 4096, r.val = t.val / 44 * 1024 + p.val := ⟨⟨t.val / 44 * 1024 + p.val, by omega⟩, rfl⟩
  obtain ⟨e, he⟩ : ∃ e : Fin 4096, e.val = t.val / 11 % 4 * 1024 + q.val := ⟨⟨t.val / 11 % 4 * 1024 + q.val, by omega⟩, rfl⟩
  rw [fin2_apply, scr2_apply V c t.val t.isLt p q r e hr he, blkY2_apply V c t p q r e hr he,
    oblk2_apply (G2 V c) t p q r e hr he, G2_apply, h10]

/-- WHAT A FLUSHING POINT WRITES BACK is its block of the target array. -/
theorem flushed2_eq (c : Dev nD) (t : Fin cfg2.N) (hf : (cfg2.win 3).flush t = true) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  exact out_block2 V c t ((flush2_3 t).mp hf)

/-- An index of the array is in point t's output block iff each coordinate is in the block's range on its axis. -/
theorem mem_oblk2 (t : Fin cfg2.N) (i : S4096x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v12).slice (win2_3.rect t)).set ↔ _
  rw [View.set_slice_whole, Rect.mem_set_unit]
  exact Iff.rfl

/-- THE COVER: entry (r, e) lies in the output block of the last step of contraction (r / 1024, e / 1024). -/
theorem out_cover2 (i : S4096x4096.Idx) : ∃ t : Fin cfg2.N, (cfg2.win 3).flush t = true ∧ i ∈ ((cfg2.win 3).blk t).view.set := by
  have h0 : (i 0).val < 4096 := (i 0).isLt
  have h1 : (i 1).val < 4096 := (i 1).isLt
  have hN : cfg2.N = 176 := N_2
  obtain ⟨t, ht⟩ : ∃ t : Fin cfg2.N, t.val = ((i 0).val / 1024 * 4 + (i 1).val / 1024) * 11 + 10 :=
    ⟨⟨((i 0).val / 1024 * 4 + (i 1).val / 1024) * 11 + 10, by rw [hN]; omega⟩, rfl⟩
  obtain ⟨-, -, -, -, -, -, e0, e1⟩ := idx_facts2 t
  refine ⟨t, (flush2_3 t).mpr (by omega), ?_⟩
  rw [mem_oblk2]
  intro a
  match a with
  | ⟨0, _⟩ =>
    show win2_3.index t (0 : Fin 2) * 1024 ≤ (i 0).val ∧ (i 0).val < win2_3.index t (0 : Fin 2) * 1024 + 1024
    rw [e0]; omega
  | ⟨1, _⟩ =>
    show win2_3.index t (1 : Fin 2) * 1024 ≤ (i 1).val ∧ (i 1).val < win2_3.index t (1 : Fin 2) * 1024 + 1024
    rw [e1]; omega

/-- Region 2's output array after the run is the blocked down-projection plus residual of its operand arrays. -/
theorem final2 (c : Dev nD) :
    ((dat2 (F := Ideal) V c).arrAt 3 cfg2.N : S4096x4096.Idx → EReal)
      = Cert.Spec.DownFun (V c main_v11) (V c main_v10) (V c main_v2) :=
  (dat2 (F := Ideal) V c).arrAt_eq_of_cover 3 (G2 V c) (fun t hf => flushed2_eq V c t hf) out_cover2

end Cert.KernelIdeal.Hand

end
-- ==== Proof.KI.HostStages.lean ====
/-
  Between the regions @main only re-lays arrays: the input [2, 2048, 4096] is flattened to [4096, 4096] rows (row
  b·2048 + s), the projection weight changes format (the identity here), the fused gate/up weight is cut into its two halves
  of 11008 columns, each padded with 256 columns of zero and changed in format, the down weight is padded with 256 rows of
  zero and changed in format, and the last region's [4096, 4096] result is folded back to [2, 2048, 4096]. Reading these
  stages at an index and composing them with the three regions' result arrays gives the kernel's whole function of the six
  argument arrays.
-/
import proofs.«135343_j29592324669776_1_alg».proof.Proof.KI.Fold
import proofs.«135343_j29592324669776_1_alg».proof.Proof.Spec
import proofs.«135343_j29592324669776_1_alg».proof.Proof.Gen.KernelIdeal.Regions
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

namespace Host

/-! ## The host stages read at an index, over any operand -/

/-- The flattening [2, 2048, 4096] → [4096, 4096] read at (r, d): row r is (r / 2048, r % 2048). -/
theorem flatten_apply (x : S2x2048x4096.Idx → EReal) (r d : Fin 4096) (h1 : r.val / 2048 < 2) (h2 : r.val % 2048 < 2048) :
    shapeCast S4096x4096 x shapeCasts_S2x2048x4096_S4096x4096 (ix2 r d) = x (ix3 ⟨r.val / 2048, h1⟩ ⟨r.val % 2048, h2⟩ d) := by
  refine shapeCast_apply _ _ (ix2 r d) (ix3 ⟨r.val / 2048, h1⟩ ⟨r.val % 2048, h2⟩ d) ?_
  rw [Shape.rowMajor_val_two, Shape.rowMajor_val_three]
  show ((r.val / 2048) * 2048 + r.val % 2048) * 4096 + d.val = r.val * 4096 + d.val
  omega

/-- The folding back [4096, 4096] → [2, 2048, 4096] read at (b, s, e): row b·2048 + s. -/
theorem unflatten_apply (x : S4096x4096.Idx → EReal) (b : Fin 2) (s : Fin 2048) (e : Fin 4096) :
    shapeCast S2x2048x4096 x shapeCasts_S4096x4096_S2x2048x4096 (ix3 b s e) = x (ix2 (Cert.Spec.rowOf b s) e) := by
  refine shapeCast_apply _ _ (ix3 b s e) (ix2 (Cert.Spec.rowOf b s) e) ?_
  rw [Shape.rowMajor_val_two, Shape.rowMajor_val_three]
  show (b.val * 2048 + s.val) * 4096 + e.val = (b.val * 2048 + s.val) * 4096 + e.val
  rfl

/-- The gate half: columns 0 … 11007 of the fused weight, then 256 columns of zero. -/
theorem gateStage_apply (x : S4096x22016.Idx → EReal) (d : Fin 4096) (i : Fin 11264) :
    (truncf (F := Ideal) .bf16 (pad S4096x11264 ![0, 0] ![0, 256] ![0, 0]
        (extractStridedSlice S4096x11008 ![0, 0] x slices_S4096x22016_S4096x11008_0_0)
        (sitofp (F := Ideal) .f32 (constantI S_ 32 0#32)) pads_S4096x11008_S4096x11264_000_02560 h_S_) bitsLt_bf16_f32
        : S4096x11264.Idx → EReal) (ix2 d i)
      = Cert.Spec.padCols (Cert.Spec.gateOf fun a b => x (ix2 a b)) d i := by
  rw [truncf_apply]
  unfold Cert.Spec.padCols
  by_cases h : i.val < 11008
  · rw [dif_pos h]
    refine (pad_apply_of_inside _ _ _ _ _ _ _ (ix2 d i) (ix2 d (⟨i.val, h⟩ : Fin 11008)) ?_).trans ?_
    · intro a
      match a with
      | ⟨0, _⟩ => show d.val = 0 + d.val * (0 + 1); omega
      | ⟨1, _⟩ => show i.val = 0 + i.val * (0 + 1); omega
    · exact slice2_axis1_apply 0 x _ d (⟨i.val, h⟩ : Fin 11008) ⟨i.val, by omega⟩ (by show i.val = 0 + i.val; omega)
  · rw [dif_neg h]
    refine (pad_apply_of_not_inside _ _ _ _ _ _ _ (ix2 d i) (⟨1, by decide⟩ : Fin S4096x11008.rank) ?_).trans ?_
    · show ¬ (0 ≤ i.val ∧ (i.val - 0) % (0 + 1) = 0 ∧ (i.val - 0) / (0 + 1) < 11008)
      omega
    · exact sitofp_zero

/-- The up half: columns 11008 … 22015 of the fused weight, then 256 columns of zero. -/
theorem upStage_apply (x : S4096x22016.Idx → EReal) (d : Fin 4096) (i : Fin 11264) :
    (truncf (F := Ideal) .bf16 (pad S4096x11264 ![0, 0] ![0, 256] ![0, 0]
        (extractStridedSlice S4096x11008 ![0, 11008] x slices_S4096x22016_S4096x11008_0_11008)
        (sitofp (F := Ideal) .f32 (constantI S_ 32 0#32)) pads_S4096x11008_S4096x11264_000_02560 h_S_) bitsLt_bf16_f32
        : S4096x11264.Idx → EReal) (ix2 d i)
      = Cert.Spec.padCols (Cert.Spec.upOf fun a b => x (ix2 a b)) d i := by
  rw [truncf_apply]
  unfold Cert.Spec.padCols
  by_cases h : i.val < 11008
  · rw [dif_pos h]
    refine (pad_apply_of_inside _ _ _ _ _ _ _ (ix2 d i) (ix2 d (⟨i.val, h⟩ : Fin 11008)) ?_).trans ?_
    · intro a
      match a with
      | ⟨0, _⟩ => show d.val = 0 + d.val * (0 + 1); omega
      | ⟨1, _⟩ => show i.val = 0 + i.val * (0 + 1); omega
    · exact slice2_axis1_apply 11008 x _ d (⟨i.val, h⟩ : Fin 11008) ⟨11008 + i.val, by omega⟩ rfl
  · rw [dif_neg h]
    refine (pad_apply_of_not_inside _ _ _ _ _ _ _ (ix2 d i) (⟨1, by decide⟩ : Fin S4096x11008.rank) ?_).trans ?_
    · show ¬ (0 ≤ i.val ∧ (i.val - 0) % (0 + 1) = 0 ∧ (i.val - 0) / (0 + 1) < 11008)
      omega
    · exact sitofp_zero

/-- The down weight: its 11008 rows, then 256 rows of zero. -/
theorem downStage_apply (x : S11008x4096.Idx → EReal) (i : Fin 11264) (e : Fin 4096) :
    (truncf (F := Ideal) .bf16 (pad S11264x4096 ![0, 0] ![256, 0] ![0, 0] x
        (sitofp (F := Ideal) .f32 (constantI S_ 32 0#32)) pads_S11008x4096_S11264x4096_02560_000 h_S_) bitsLt_bf16_f32
        : S11264x4096.Idx → EReal) (ix2 i e)
      = Cert.Spec.padRows (fun a b => x (ix2 a b)) i e := by
  rw [truncf_apply]
  unfold Cert.Spec.padRows
  by_cases h : i.val < 11008
  · rw [dif_pos h]
    refine pad_apply_of_inside _ _ _ _ _ _ _ (ix2 i e) (ix2 (⟨i.val, h⟩ : Fin 11008) e) ?_
    intro a
    match a with
    | ⟨0, _⟩ => show i.val = 0 + i.val * (0 + 1); omega
    | ⟨1, _⟩ => show e.val = 0 + e.val * (0 + 1); omega
  · rw [dif_neg h]
    refine (pad_apply_of_not_inside _ _ _ _ _ _ _ (ix2 i e) (⟨0, by decide⟩ : Fin S11008x4096.rank) ?_).trans ?_
    · show ¬ (0 ≤ i.val ∧ (i.val - 0) % (0 + 1) = 0 ∧ (i.val - 0) / (0 + 1) < 11008)
      omega
    · exact sitofp_zero

/-! ## A core's buffers through the items -/

/-- What the first stretch does not write is the launch memory's. -/
theorem W1_of (c : Dev nD) (r : Ref sig .tc) (h : r ∉ hostOps0_W) :
    W1 (F := Ideal) m c (Proc.devRef .tc r) = m ((c.tc : Thread nD τ).loc r) :=
  StableHlo.after_of_writes_sub hostOps0 _ hostOps0_writes h

/-- What neither the first stretch nor region 0 writes is still the launch memory's after region 0. -/
theorem W2_of (c : Dev nD) (r : Ref sig .tc) (h : r ∉ hostOps0_W) (hw : ∀ w, Pipeline.arrRef spec0 w ≠ r) :
    W2 (F := Ideal) m c (Proc.devRef .tc r) = m ((c.tc : Thread nD τ).loc r) :=
  (W2_of_ne m c r hw).trans (W1_of m c r h)

/-- Region 0's three operand arrays. -/
theorem V1_v0 (c : Dev nD) :
    (V1 (F := Ideal) m c main_v0 : S4096x4096.Idx → EReal)
      = shapeCast S4096x4096 ((m ((c.tc : Thread nD τ).loc main_arg0)) : S2x2048x4096.Idx → EReal) shapeCasts_S2x2048x4096_S4096x4096 := by
  show StableHlo.after hostOps0 _ (Proc.devRef .tc main_v0) = _
  after_results
  rfl
theorem V1_v1 (c : Dev nD) :
    (V1 (F := Ideal) m c main_v1 : S4096x4096.Idx → EReal) = (m ((c.tc : Thread nD τ).loc main_arg2)) := by
  show StableHlo.after hostOps0 _ (Proc.devRef .tc main_v1) = _
  after_results
  rfl
theorem V1_arg1 (c : Dev nD) :
    (V1 (F := Ideal) m c main_arg1 : S4096.Idx → EReal) = (m ((c.tc : Thread nD τ).loc main_arg1)) :=
  W1_of m c main_arg1 (by decide)

/-- Region 1's operand arrays, and the down weight region 2 takes, after the seven stretches. -/
theorem W9_v2 (c : Dev nD) :
    W9 (F := Ideal) m c (Proc.devRef .tc main_v2) = W2 (F := Ideal) m c (Proc.devRef .tc main_v2) := by
  dsimp only [W9, W8, W7, W6, W5, W4, W3]
  after_results
theorem W9_arg3 (c : Dev nD) :
    (W9 (F := Ideal) m c (Proc.devRef .tc main_arg3) : S4096.Idx → EReal) = (m ((c.tc : Thread nD τ).loc main_arg3)) := by
  refine Eq.trans ?_ (W2_of m c main_arg3 (by decide) (by decide))
  dsimp only [W9, W8, W7, W6, W5, W4, W3]
  after_results
theorem W9_v6 (c : Dev nD) :
    (W9 (F := Ideal) m c (Proc.devRef .tc main_v6) : S4096x11264.Idx → EReal)
      = (truncf (F := Ideal) .bf16 (pad S4096x11264 ![0, 0] ![0, 256] ![0, 0]
        (extractStridedSlice S4096x11008 ![0, 0] ((m ((c.tc : Thread nD τ).loc main_arg4)) : S4096x22016.Idx → EReal) slices_S4096x22016_S4096x11008_0_0)
        (sitofp (F := Ideal) .f32 (constantI S_ 32 0#32)) pads_S4096x11008_S4096x11264_000_02560 h_S_) bitsLt_bf16_f32) := by
  rw [← W2_of m c main_arg4 (by decide) (by decide)]
  dsimp only [W9, W8, W7, W6, W5, W4, W3]
  after_results
  rfl
theorem W9_v8 (c : Dev nD) :
    (W9 (F := Ideal) m c (Proc.devRef .tc main_v8) : S4096x11264.Idx → EReal)
      = (truncf (F := Ideal) .bf16 (pad S4096x11264 ![0, 0] ![0, 256] ![0, 0]
        (extractStridedSlice S4096x11008 ![0, 11008] ((m ((c.tc : Thread nD τ).loc main_arg4)) : S4096x22016.Idx → EReal) slices_S4096x22016_S4096x11008_0_11008)
        (sitofp (F := Ideal) .f32 (constantI S_ 32 0#32)) pads_S4096x11008_S4096x11264_000_02560 h_S_) bitsLt_bf16_f32) := by
  rw [← W2_of m c main_arg4 (by decide) (by decide)]
  dsimp only [W9, W8, W7, W6, W5, W4, W3]
  after_results
  rfl
theorem W9_v10 (c : Dev nD) :
    (W9 (F := Ideal) m c (Proc.devRef .tc main_v10) : S11264x4096.Idx → EReal)
      = (truncf (F := Ideal) .bf16 (pad S11264x4096 ![0, 0] ![256, 0] ![0, 0] ((m ((c.tc : Thread nD τ).loc main_arg5)) : S11008x4096.Idx → EReal)
        (sitofp (F := Ideal) .f32 (constantI S_ 32 0#32)) pads_S11008x4096_S11264x4096_02560_000 h_S_) bitsLt_bf16_f32) := by
  rw [← W2_of m c main_arg5 (by decide) (by decide)]
  dsimp only [W9, W8, W7, W6, W5, W4, W3]
  after_results
  rfl

/-- Region 2's operand arrays: region 1's result, the down weight as it was, and the attention residual, an
    input of region 1, as region 1 found it. -/
theorem W10_v11 (c : Dev nD) :
    W10 (F := Ideal) m c (Proc.devRef .tc main_v11) = (dat1 (F := Ideal) (V9 m) c).arrAt 4 cfg1.N :=
  W10_arr m c 4
theorem W10_v10 (c : Dev nD) :
    W10 (F := Ideal) m c (Proc.devRef .tc main_v10) = W9 (F := Ideal) m c (Proc.devRef .tc main_v10) :=
  W10_of_ne m c main_v10 (by decide)
theorem W10_v2 (c : Dev nD) :
    W10 (F := Ideal) m c (Proc.devRef .tc main_v2) = W9 (F := Ideal) m c (Proc.devRef .tc main_v2) :=
  (W10_arr m c 0).trans (((dat1 (F := Ideal) (V9 m) c).arrAt_in 0 rfl _).trans (A_eq1 (V9 m) c 0))
theorem W11_v12 (c : Dev nD) :
    W11 (F := Ideal) m c (Proc.devRef .tc main_v12) = (dat2 (F := Ideal) (V10 m) c).arrAt 3 cfg2.N :=
  W11_arr m c 3
theorem W2_v2 (c : Dev nD) :
    W2 (F := Ideal) m c (Proc.devRef .tc main_v2) = (dat0 (F := Ideal) (V1 m) c).arrAt 3 cfg0.N :=
  W2_arr m c 3
theorem W12_v13 (c : Dev nD) :
    (W12 (F := Ideal) m c (Proc.devRef .tc main_v13) : S2x2048x4096.Idx → EReal)
      = shapeCast S2x2048x4096 (W11 (F := Ideal) m c (Proc.devRef .tc main_v12) : S4096x4096.Idx → EReal) shapeCasts_S4096x4096_S2x2048x4096 := by
  show StableHlo.after hostOps3 _ (Proc.devRef .tc main_v13) = _
  after_results
  rfl

/-! ## The regions' result arrays, over the six argument arrays -/

/-- The attention residual, region 0's result, by coordinates. -/
theorem Y2_eq (c : Dev nD) (h0 : ((dat0 (F := Ideal) (V1 m) c).arrAt 3 cfg0.N : S4096x4096.Idx → EReal)
      = Cert.Spec.X2fun (V1 m c main_v0) (V1 m c main_arg1) (V1 m c main_v1)) :
    (fun (r e : Fin 4096) => (W2 (F := Ideal) m c (Proc.devRef .tc main_v2) : S4096x4096.Idx → EReal) (ix2 r e)) = (Cert.Spec.xAt (fun (r d : Fin 4096) => ((m ((c.tc : Thread nD τ).loc main_arg0)) : S2x2048x4096.Idx → EReal) (ix3 (⟨r.val / 2048, by have := r.isLt; omega⟩ : Fin 2) (⟨r.val % 2048, Nat.mod_lt _ (by norm_num)⟩ : Fin 2048) d)) (fun (a : Fin 4096) => ((m ((c.tc : Thread nD τ).loc main_arg1)) : S4096.Idx → EReal) (ix1 a)) (fun (a b : Fin 4096) => ((m ((c.tc : Thread nD τ).loc main_arg2)) : S4096x4096.Idx → EReal) (ix2 a b))) := by
  have hx : (fun (a b : Fin 4096) => (V1 (F := Ideal) m c main_v0 : S4096x4096.Idx → EReal) (ix2 a b)) = (fun (r d : Fin 4096) => ((m ((c.tc : Thread nD τ).loc main_arg0)) : S2x2048x4096.Idx → EReal) (ix3 (⟨r.val / 2048, by have := r.isLt; omega⟩ : Fin 2) (⟨r.val % 2048, Nat.mod_lt _ (by norm_num)⟩ : Fin 2048) d)) := by
    funext a b
    rw [V1_v0]
    exact flatten_apply _ a b _ _
  funext r e
  refine (congrFun ((W2_v2 m c).trans h0) (ix2 r e)).trans ?_
  show Cert.Spec.xAt (fun (a b : Fin 4096) => (V1 (F := Ideal) m c main_v0 : S4096x4096.Idx → EReal) (ix2 a b))
      (fun (a : Fin 4096) => (V1 (F := Ideal) m c main_arg1 : S4096.Idx → EReal) (ix1 a))
      (fun (a b : Fin 4096) => (V1 (F := Ideal) m c main_v1 : S4096x4096.Idx → EReal) (ix2 a b)) r e = _
  rw [hx, V1_arg1, V1_v1]

/-- It is what region 1 and region 2 are entered with. -/
theorem Y9_eq (c : Dev nD) (h0 : ((dat0 (F := Ideal) (V1 m) c).arrAt 3 cfg0.N : S4096x4096.Idx → EReal)
      = Cert.Spec.X2fun (V1 m c main_v0) (V1 m c main_arg1) (V1 m c main_v1)) :
    (fun (r e : Fin 4096) => (V9 (F := Ideal) m c main_v2 : S4096x4096.Idx → EReal) (ix2 r e)) = (Cert.Spec.xAt (fun (r d : Fin 4096) => ((m ((c.tc : Thread nD τ).loc main_arg0)) : S2x2048x4096.Idx → EReal) (ix3 (⟨r.val / 2048, by have := r.isLt; omega⟩ : Fin 2) (⟨r.val % 2048, Nat.mod_lt _ (by norm_num)⟩ : Fin 2048) d)) (fun (a : Fin 4096) => ((m ((c.tc : Thread nD τ).loc main_arg1)) : S4096.Idx → EReal) (ix1 a)) (fun (a b : Fin 4096) => ((m ((c.tc : Thread nD τ).loc main_arg2)) : S4096x4096.Idx → EReal) (ix2 a b))) := by
  refine Eq.trans ?_ (Y2_eq m c h0)
  funext r e
  exact congrFun (W9_v2 m c) (ix2 r e)
theorem Y10_eq (c : Dev nD) (h0 : ((dat0 (F := Ideal) (V1 m) c).arrAt 3 cfg0.N : S4096x4096.Idx → EReal)
      = Cert.Spec.X2fun (V1 m c main_v0) (V1 m c main_arg1) (V1 m c main_v1)) :
    (fun (r e : Fin 4096) => (V10 (F := Ideal) m c main_v2 : S4096x4096.Idx → EReal) (ix2 r e)) = (Cert.Spec.xAt (fun (r d : Fin 4096) => ((m ((c.tc : Thread nD τ).loc main_arg0)) : S2x2048x4096.Idx → EReal) (ix3 (⟨r.val / 2048, by have := r.isLt; omega⟩ : Fin 2) (⟨r.val % 2048, Nat.mod_lt _ (by norm_num)⟩ : Fin 2048) d)) (fun (a : Fin 4096) => ((m ((c.tc : Thread nD τ).loc main_arg1)) : S4096.Idx → EReal) (ix1 a)) (fun (a b : Fin 4096) => ((m ((c.tc : Thread nD τ).loc main_arg2)) : S4096x4096.Idx → EReal) (ix2 a b))) := by
  refine Eq.trans ?_ (Y9_eq m c h0)
  funext r e
  exact congrFun (W10_v2 m c) (ix2 r e)

/-- The padded down weight region 2 is entered with, by coordinates. -/
theorem Down10_eq (c : Dev nD) :
    (fun (i : Fin 11264) (e : Fin 4096) => (V10 (F := Ideal) m c main_v10 : S11264x4096.Idx → EReal) (ix2 i e))
      = Cert.Spec.padRows (fun (a : Fin 11008) (b : Fin 4096) => ((m ((c.tc : Thread nD τ).loc main_arg5)) : S11008x4096.Idx → EReal) (ix2 a b)) := by
  funext i e
  refine (congrFun ((W10_v10 m c).trans (W9_v10 m c)) (ix2 i e)).trans ?_
  exact downStage_apply _ i e

/-- The gated activation, region 1's result, by coordinates. -/
theorem Act10_eq (c : Dev nD) (h0 : ((dat0 (F := Ideal) (V1 m) c).arrAt 3 cfg0.N : S4096x4096.Idx → EReal)
      = Cert.Spec.X2fun (V1 m c main_v0) (V1 m c main_arg1) (V1 m c main_v1)) (h1 : ((dat1 (F := Ideal) (V9 m) c).arrAt 4 cfg1.N : S4096x11264.Idx → EReal)
      = Cert.Spec.ActFun (V9 m c main_v2) (V9 m c main_arg3) (V9 m c main_v6) (V9 m c main_v8)) :
    (fun (r : Fin 4096) (i : Fin 11264) => (V10 (F := Ideal) m c main_v11 : S4096x11264.Idx → EReal) (ix2 r i))
      = Cert.Spec.actAt (Cert.Spec.xAt (fun (r d : Fin 4096) => ((m ((c.tc : Thread nD τ).loc main_arg0)) : S2x2048x4096.Idx → EReal) (ix3 (⟨r.val / 2048, by have := r.isLt; omega⟩ : Fin 2) (⟨r.val % 2048, Nat.mod_lt _ (by norm_num)⟩ : Fin 2048) d)) (fun (a : Fin 4096) => ((m ((c.tc : Thread nD τ).loc main_arg1)) : S4096.Idx → EReal) (ix1 a)) (fun (a b : Fin 4096) => ((m ((c.tc : Thread nD τ).loc main_arg2)) : S4096x4096.Idx → EReal) (ix2 a b))) (fun (a : Fin 4096) => ((m ((c.tc : Thread nD τ).loc main_arg3)) : S4096.Idx → EReal) (ix1 a)) (Cert.Spec.padCols (Cert.Spec.gateOf (fun (a : Fin 4096) (b : Fin 22016) => ((m ((c.tc : Thread nD τ).loc main_arg4)) : S4096x22016.Idx → EReal) (ix2 a b)))) (Cert.Spec.padCols (Cert.Spec.upOf (fun (a : Fin 4096) (b : Fin 22016) => ((m ((c.tc : Thread nD τ).loc main_arg4)) : S4096x22016.Idx → EReal) (ix2 a b)))) := by
  have hg : (fun (a : Fin 4096) (b : Fin 11264) => (V9 (F := Ideal) m c main_v6 : S4096x11264.Idx → EReal) (ix2 a b))
      = Cert.Spec.padCols (Cert.Spec.gateOf (fun (a : Fin 4096) (b : Fin 22016) => ((m ((c.tc : Thread nD τ).loc main_arg4)) : S4096x22016.Idx → EReal) (ix2 a b))) := by
    funext a b
    refine (congrFun (W9_v6 m c) (ix2 a b)).trans ?_
    exact gateStage_apply _ a b
  have hu : (fun (a : Fin 4096) (b : Fin 11264) => (V9 (F := Ideal) m c main_v8 : S4096x11264.Idx → EReal) (ix2 a b))
      = Cert.Spec.padCols (Cert.Spec.upOf (fun (a : Fin 4096) (b : Fin 22016) => ((m ((c.tc : Thread nD τ).loc main_arg4)) : S4096x22016.Idx → EReal) (ix2 a b))) := by
    funext a b
    refine (congrFun (W9_v8 m c) (ix2 a b)).trans ?_
    exact upStage_apply _ a b
  have hw : (fun (a : Fin 4096) => (V9 (F := Ideal) m c main_arg3 : S4096.Idx → EReal) (ix1 a)) = (fun (a : Fin 4096) => ((m ((c.tc : Thread nD τ).loc main_arg3)) : S4096.Idx → EReal) (ix1 a)) := by
    funext a
    exact congrFun (W9_arg3 m c) (ix1 a)
  funext r i
  refine (congrFun ((W10_v11 m c).trans h1) (ix2 r i)).trans ?_
  show Cert.Spec.actAt (fun (a b : Fin 4096) => (V9 (F := Ideal) m c main_v2 : S4096x4096.Idx → EReal) (ix2 a b))
      (fun (a : Fin 4096) => (V9 (F := Ideal) m c main_arg3 : S4096.Idx → EReal) (ix1 a))
      (fun (a : Fin 4096) (b : Fin 11264) => (V9 (F := Ideal) m c main_v6 : S4096x11264.Idx → EReal) (ix2 a b))
      (fun (a : Fin 4096) (b : Fin 11264) => (V9 (F := Ideal) m c main_v8 : S4096x11264.Idx → EReal) (ix2 a b)) r i = _
  rw [Y9_eq m c h0, hw, hg, hu]

end Host

/-- The program's result array, from the three regions' result arrays (each the specification's function of the
    region's operand arrays as it finds them) and the host stages between them, is the specification's kernel function of
    the six argument arrays. -/
theorem kernel_value (c : Dev nD)
    (h0 : ((dat0 (F := Ideal) (V1 m) c).arrAt 3 cfg0.N : S4096x4096.Idx → EReal)
      = Cert.Spec.X2fun (V1 m c main_v0) (V1 m c main_arg1) (V1 m c main_v1))
    (h1 : ((dat1 (F := Ideal) (V9 m) c).arrAt 4 cfg1.N : S4096x11264.Idx → EReal)
      = Cert.Spec.ActFun (V9 m c main_v2) (V9 m c main_arg3) (V9 m c main_v6) (V9 m c main_v8))
    (h2 : ((dat2 (F := Ideal) (V10 m) c).arrAt 3 cfg2.N : S4096x4096.Idx → EReal)
      = Cert.Spec.DownFun (V10 m c main_v11) (V10 m c main_v10) (V10 m c main_v2)) :
    (W12 (F := Ideal) m c (Proc.devRef .tc main_v13) : S2x2048x4096.Idx → EReal)
      = Cert.Spec.KFun (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext j
  obtain ⟨b, s, e, rfl⟩ : ∃ (b : Fin 2) (s : Fin 2048) (e : Fin 4096), j = ix3 b s e := ⟨j 0, j 1, j 2, eq_ix3 j⟩
  refine (congrFun (Host.W12_v13 m c) (ix3 b s e)).trans ?_
  refine (Host.unflatten_apply _ b s e).trans ?_
  refine (congrFun ((Host.W11_v12 m c).trans h2) (ix2 (Cert.Spec.rowOf b s) e)).trans ?_
  show Cert.Spec.downK
      (fun (r : Fin 4096) (i : Fin 11264) => (V10 (F := Ideal) m c main_v11 : S4096x11264.Idx → EReal) (ix2 r i))
      (fun (i : Fin 11264) (e : Fin 4096) => (V10 (F := Ideal) m c main_v10 : S11264x4096.Idx → EReal) (ix2 i e))
      (fun (r e : Fin 4096) => (V10 (F := Ideal) m c main_v2 : S4096x4096.Idx → EReal) (ix2 r e)) (Cert.Spec.rowOf b s) e = _
  rw [Host.Act10_eq m c h0 h1, Host.Down10_eq m c, Host.Y10_eq m c h0]
  rfl

end Cert.KernelIdeal.Hand

end
-- ==== Proof.RefG.lean ====
/-
  The reference at the ideal instance is the specification's reference function: read one operation at a time, its result
  at (b, s, e) is  y_e + Σ_i (silu(Σ_d h(y)_d · W[d, i]) · (Σ_d h(y)_d · W[d, 11008 + i])) · D[i, e]  with
  y_e = x[b, s, e] + Σ_d h(x[b, s])_d · O[d, e]; the host's quotient, reciprocal square root, exponential and sums are the
  extended reals' own, and 1 / (1 + exp(−g)) is the logistic function.
-/
import proofs.«135343_j29592324669776_1_alg».proof.Proof.Gen.ReferenceIdeal.Read
import proofs.«135343_j29592324669776_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read
open scoped BigOperators

/-- The float word 0x3F800000 denotes one. -/
theorem ofBits_one_f32 : Ideal.ofBits .f32 0x3F800000#32 = (1 : EReal) := by
  simp [Ideal.ofBits, Ideal.ieee, -EReal.coe_mul]; norm_num

variable (x0 : (⟨S2x2048x4096, .f32⟩ : BufTy).Contents (Elt Ideal)) (x1 : (⟨S4096, .f32⟩ : BufTy).Contents (Elt Ideal))
  (x2 : (⟨S4096x4096, .f32⟩ : BufTy).Contents (Elt Ideal)) (x3 : (⟨S4096, .f32⟩ : BufTy).Contents (Elt Ideal))
  (x4 : (⟨S4096x22016, .f32⟩ : BufTy).Contents (Elt Ideal)) (x5 : (⟨S11008x4096, .f32⟩ : BufTy).Contents (Elt Ideal))

/-- Row (b, s) of the input, and the two norm weights, as curried functions. -/
abbrev xRow (b : Fin 2) (s : Fin 2048) : Fin 4096 → EReal := fun d => x0 (ix3 b s d)
abbrev wOf (w : (⟨S4096, .f32⟩ : BufTy).Contents (Elt Ideal)) : Fin 4096 → EReal := fun a => w (ix1 a)

/-- The RMS factor of the input's row (b, s): the keepdims column read at its one position. -/
theorem v7_at (b : Fin 2) (s : Fin 2048) (z : Fin 1) :
    val_main_v7 (F := Ideal) x0 (ix3 b s z) = Spec.rms (xRow x0 b s) := by
  have e1 : ∀ k : Fin 4096, idx_main_v1 (idx_main_v2 (ix3 b s z)) k = ix3 b s k := fun k =>
    funext fun a => Fin.ext (by match a with | ⟨0, _⟩ => rfl | ⟨1, _⟩ => rfl | ⟨2, _⟩ => rfl)
  rw [val_main_v7_apply, val_main_v6_apply, val_main_v4_apply, val_main_v2_apply, val_main_v1_apply,
    val_main_v3_apply, val_main_v5_apply, val_main_cst_apply, val_main_cst_0_apply, val_main_cst_1_apply]
  simp only [val_main_v0_apply, e1, Ideal.hostUnary_rsqrt_def, Ideal.addf_def, Ideal.hostDivf_def, Ideal.mulf_def,
    Ideal.ofBits_def, Ideal.ofBits_zero_f32, zero_add]
  rfl

/-- The normalised, weighted input row at d. -/
theorem v12_at (b : Fin 2) (s : Fin 2048) (d : Fin 4096) :
    val_main_v12 (F := Ideal) x0 x1 (ix3 b s d) = Spec.hrow (xRow x0 b s) (wOf x1) d := by
  have e8 : idx_main_v8 (ix3 b s d) = ix3 b s (⟨0, Nat.one_pos⟩ : Fin 1) :=
    funext fun a => Fin.ext (by match a with | ⟨0, _⟩ => rfl | ⟨1, _⟩ => rfl | ⟨2, _⟩ => rfl)
  have e10 : idx_main_v10 (idx_main_v11 (ix3 b s d)) = ix1 d :=
    funext fun a => Fin.ext (by match a with | ⟨0, _⟩ => rfl)
  rw [val_main_v12_apply, val_main_v9_apply, val_main_v8_apply, e8, v7_at, val_main_v11_apply, val_main_v10_apply, e10]
  rfl

/-- The first residual's row (b, s): y_e = x_e + Σ_d h(x)_d · O[d, e]. -/
def yRow (b : Fin 2) (s : Fin 2048) : Fin 4096 → EReal := fun e' =>
  x0 (ix3 b s e') + ∑ d : Fin 4096, Spec.hrow (xRow x0 b s) (wOf x1) d * x2 (ix2 d e')

/-- The first residual at (b, s, e). -/
theorem v14_at (b : Fin 2) (s : Fin 2048) (e : Fin 4096) :
    val_main_v14 (F := Ideal) x0 x1 x2 (ix3 b s e) = yRow x0 x1 x2 b s e := by
  have el : ∀ k : Fin 4096, lidx_main_v13 (ix3 b s e) k = ix3 b s k := fun k =>
    funext fun a => Fin.ext (by match a with | ⟨0, _⟩ => rfl | ⟨1, _⟩ => rfl | ⟨2, _⟩ => rfl)
  have er : ∀ k : Fin 4096, ridx_main_v13 (ix3 b s e) k = ix2 k e := fun k =>
    funext fun a => Fin.ext (by match a with | ⟨0, _⟩ => rfl | ⟨1, _⟩ => rfl)
  rw [val_main_v14_apply, val_main_v13_apply]
  simp only [el, er, v12_at, Ideal.addf_def]
  rfl

/-- The RMS factor of the residual's row (b, s). -/
theorem v22_at (b : Fin 2) (s : Fin 2048) (z : Fin 1) :
    val_main_v22 (F := Ideal) x0 x1 x2 (ix3 b s z) = Spec.rms (yRow x0 x1 x2 b s) := by
  have e1 : ∀ k : Fin 4096, idx_main_v16 (idx_main_v17 (ix3 b s z)) k = ix3 b s k := fun k =>
    funext fun a => Fin.ext (by match a with | ⟨0, _⟩ => rfl | ⟨1, _⟩ => rfl | ⟨2, _⟩ => rfl)
  rw [val_main_v22_apply, val_main_v21_apply, val_main_v19_apply, val_main_v17_apply, val_main_v16_apply,
    val_main_v18_apply, val_main_v20_apply, val_main_cst_2_apply, val_main_cst_3_apply, val_main_cst_4_apply]
  simp only [val_main_v15_apply, e1, v14_at, Ideal.hostUnary_rsqrt_def, Ideal.addf_def, Ideal.hostDivf_def, Ideal.mulf_def,
    Ideal.ofBits_def, Ideal.ofBits_zero_f32, zero_add]
  rfl

/-- The normalised, weighted residual row at d. -/
theorem v27_at (b : Fin 2) (s : Fin 2048) (d : Fin 4096) :
    val_main_v27 (F := Ideal) x0 x1 x2 x3 (ix3 b s d) = Spec.hrow (yRow x0 x1 x2 b s) (wOf x3) d := by
  have e23 : idx_main_v23 (ix3 b s d) = ix3 b s (⟨0, Nat.one_pos⟩ : Fin 1) :=
    funext fun a => Fin.ext (by match a with | ⟨0, _⟩ => rfl | ⟨1, _⟩ => rfl | ⟨2, _⟩ => rfl)
  have e25 : idx_main_v25 (idx_main_v26 (ix3 b s d)) = ix1 d :=
    funext fun a => Fin.ext (by match a with | ⟨0, _⟩ => rfl)
  rw [val_main_v27_apply, val_main_v24_apply, val_main_v23_apply, e23, v22_at, v14_at, val_main_v26_apply,
    val_main_v25_apply, e25]
  rfl

/-- The fused gate/up projection at column c of the 22016. -/
theorem v28_at (b : Fin 2) (s : Fin 2048) (c : Fin 22016) :
    val_main_v28 (F := Ideal) x0 x1 x2 x3 x4 (ix3 b s c)
      = ∑ d : Fin 4096, Spec.hrow (yRow x0 x1 x2 b s) (wOf x3) d * x4 (ix2 d c) := by
  have el : ∀ k : Fin 4096, lidx_main_v28 (ix3 b s c) k = ix3 b s k := fun k =>
    funext fun a => Fin.ext (by match a with | ⟨0, _⟩ => rfl | ⟨1, _⟩ => rfl | ⟨2, _⟩ => rfl)
  have er : ∀ k : Fin 4096, ridx_main_v28 (ix3 b s c) k = ix2 k c := fun k =>
    funext fun a => Fin.ext (by match a with | ⟨0, _⟩ => rfl | ⟨1, _⟩ => rfl)
  rw [val_main_v28_apply]
  simp only [el, er, v27_at]

/-- The fused weight as a curried function. -/
abbrev guOf : Fin 4096 → Fin 22016 → EReal := fun a c => x4 (ix2 a c)

/-- The gate half at i: the first slice. -/
theorem v29_at (b : Fin 2) (s : Fin 2048) (i : Fin 11008) :
    val_main_v29 (F := Ideal) x0 x1 x2 x3 x4 (ix3 b s i)
      = ∑ d : Fin 4096, Spec.hrow (yRow x0 x1 x2 b s) (wOf x3) d * Spec.gateOf (guOf x4) d i := by
  have e : idx_main_v29 (ix3 b s i) = ix3 b s (⟨i.val, by have := i.isLt; omega⟩ : Fin 22016) :=
    funext fun a => Fin.ext (by match a with | ⟨0, _⟩ => rfl | ⟨1, _⟩ => rfl | ⟨2, _⟩ => rfl)
  rw [val_main_v29_apply, e, v28_at]
  rfl

/-- The up half at i: the second slice. -/
theorem v30_at (b : Fin 2) (s : Fin 2048) (i : Fin 11008) :
    val_main_v30 (F := Ideal) x0 x1 x2 x3 x4 (ix3 b s i)
      = ∑ d : Fin 4096, Spec.hrow (yRow x0 x1 x2 b s) (wOf x3) d * Spec.upOf (guOf x4) d i := by
  have e : idx_main_v30 (ix3 b s i) = ix3 b s (⟨11008 + i.val, by have := i.isLt; omega⟩ : Fin 22016) :=
    funext fun a => Fin.ext (by match a with | ⟨0, _⟩ => rfl | ⟨1, _⟩ => rfl | ⟨2, _⟩ => rfl)
  rw [val_main_v30_apply, e, v28_at]
  rfl

/-- The reference's silu at an index: g · (1 / (1 + exp(−g))) is g times the logistic function of g. -/
theorem v31_at (j : S2x2048x11008.Idx) :
    val_main_v31 (F := Ideal) x0 x1 x2 x3 x4 j = Spec.silu (val_main_v29 (F := Ideal) x0 x1 x2 x3 x4 j) := by
  rw [val_main_v31_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.hostUnary_exp_def, Ideal.addf_def, Ideal.hostDivf_def, Ideal.mulf_def, Ideal.hostNegf_def, Ideal.negf_def,
    Ideal.ofBits_def, ofBits_one_f32]
  rfl

/-- The gated activation at (b, s, i). -/
theorem v32_at (b : Fin 2) (s : Fin 2048) (i : Fin 11008) :
    val_main_v32 (F := Ideal) x0 x1 x2 x3 x4 (ix3 b s i)
      = Spec.silu (∑ d : Fin 4096, Spec.hrow (yRow x0 x1 x2 b s) (wOf x3) d * Spec.gateOf (guOf x4) d i)
        * (∑ d : Fin 4096, Spec.hrow (yRow x0 x1 x2 b s) (wOf x3) d * Spec.upOf (guOf x4) d i) := by
  rw [val_main_v32_apply, v31_at, v29_at, v30_at]
  rfl

/-- The block's result at (b, s, e): the residual plus the whole down-projection. -/
theorem v34_at (b : Fin 2) (s : Fin 2048) (e : Fin 4096) :
    val_main_v34 (F := Ideal) x0 x1 x2 x3 x4 x5 (ix3 b s e)
      = yRow x0 x1 x2 b s e + ∑ i : Fin 11008,
          (Spec.silu (∑ d : Fin 4096, Spec.hrow (yRow x0 x1 x2 b s) (wOf x3) d * Spec.gateOf (guOf x4) d i)
            * (∑ d : Fin 4096, Spec.hrow (yRow x0 x1 x2 b s) (wOf x3) d * Spec.upOf (guOf x4) d i)) * x5 (ix2 i e) := by
  have el : ∀ k : Fin 11008, lidx_main_v33 (ix3 b s e) k = ix3 b s k := fun k =>
    funext fun a => Fin.ext (by match a with | ⟨0, _⟩ => rfl | ⟨1, _⟩ => rfl | ⟨2, _⟩ => rfl)
  have er : ∀ k : Fin 11008, ridx_main_v33 (ix3 b s e) k = ix2 k e := fun k =>
    funext fun a => Fin.ext (by match a with | ⟨0, _⟩ => rfl | ⟨1, _⟩ => rfl)
  rw [val_main_v34_apply, val_main_v33_apply, v14_at]
  simp only [el, er, v32_at, Ideal.addf_def]

/-- The reference's last stage, as a function of the six argument arrays, is the specification's reference function. -/
theorem ref_eq (x0 : (⟨S2x2048x4096, .f32⟩ : BufTy).Contents (Elt Ideal)) (x1 : (⟨S4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x22016, .f32⟩ : BufTy).Contents (Elt Ideal)) (x5 : (⟨S11008x4096, .f32⟩ : BufTy).Contents (Elt Ideal)) :
    (val_main_v34 (F := Ideal) x0 x1 x2 x3 x4 x5 : S2x2048x4096.Idx → EReal) = Cert.Spec.RFun x0 x1 x2 x3 x4 x5 := by
  funext j
  obtain ⟨b, s, e, rfl⟩ : ∃ (b : Fin 2) (s : Fin 2048) (e : Fin 4096), j = ix3 b s e := ⟨j 0, j 1, j 2, eq_ix3 j⟩
  rw [v34_at]
  rfl

end Cert.ReferenceIdeal.RefValue

end
-- ==== Proof.lean ====
/-
  The certificate of a transformer block written as three kernels — an RMS-normalised projection with its residual, a gated
  (silu) up-projection over a contraction axis padded from 11008 to 11264 with zeros, and a down-projection accumulated
  over eleven blocks of that axis with its residual — against the plain formulation.
  At the ideal instance both compute, at (b, s, e),  y_e + Σ_i silu(Σ_d h(y)_d G[d, i]) · (Σ_d h(y)_d U[d, i]) · D[i, e]  with
  y_e = x_e + Σ_d h(x)_d O[d, e]  and  h(x)_d = x_d · rsqrt(Σ x² / 4096 + ε) · w_d : the format changes are the identity, the
  padded terms are products with zero, the blocked sum is a regrouping of the whole one, and the last addition commutes
  (Spec.lean; no finiteness is used, so the precondition is never opened).
  The three frames: the kernel programs' by the several-regions launch over hand-written proof data for each region (the
  third carries its accumulator between grid points), once for each of the two printed programs; the reference's by its run.
  The kernel's value: each region's result array as the specification's function of the arrays the region finds
  (Val0, Val1, Val2), composed through the host stages (HostStages); the reference's: its stages read one at a time (RefG).
-/
import proofs.«135343_j29592324669776_1_alg».proof.Defs
import proofs.«135343_j29592324669776_1_alg».proof.Proof.Gen.Kernel
import proofs.«135343_j29592324669776_1_alg».proof.Proof.Gen.KernelIdeal
import proofs.«135343_j29592324669776_1_alg».proof.Proof.Gen.ReferenceIdeal
import proofs.«135343_j29592324669776_1_alg».proof.Proof.Gen.Pre_finite_inputs
import proofs.«135343_j29592324669776_1_alg».proof.Proof.Gen.ReferenceIdeal.Run
import proofs.«135343_j29592324669776_1_alg».proof.Proof.Gen.ReferenceIdeal.Read
import proofs.«135343_j29592324669776_1_alg».proof.Proof.K.Run
import proofs.«135343_j29592324669776_1_alg».proof.Proof.KI.Run
import proofs.«135343_j29592324669776_1_alg».proof.Proof.KI.Val0
import proofs.«135343_j29592324669776_1_alg».proof.Proof.KI.Val1
import proofs.«135343_j29592324669776_1_alg».proof.Proof.KI.Val2
import proofs.«135343_j29592324669776_1_alg».proof.Proof.KI.HostStages
import proofs.«135343_j29592324669776_1_alg».proof.Proof.RefG
import proofs.«135343_j29592324669776_1_alg».proof.Proof.Spec
import Idealize.ShloMosaic.Adequacy
import Idealize.ShloMosaic.Init

noncomputable section

namespace Cert.Proof

open Idealize.ShloMosaic Idealize.ShloMosaic.TcCoe Idealize.SL.Sem

/-- The word-level program runs to the end and keeps its arguments: the several-regions launch. -/
theorem frame_k : Cert.frame_Kernel := fun m ρ _ => Cert.Kernel.Hand.frame m ρ

/-- So does the idealized program: the same launch at the ideal instance. -/
theorem frame_ki : Cert.frame_KernelIdeal := fun m ρ _ => Cert.KernelIdeal.Hand.frame m ρ

/-- The reference runs to the end and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Run from memories that agree on the six arguments, both idealized programs end with the specification's function of
    them in their result array — the kernel's by the three regions' values through the host stages, the reference's by
    its stages read one at a time — and the kernel's and the reference's forms of that function are equal. -/
theorem algebraic : Cert.algebraic_KernelIdeal_ReferenceIdeal := by
  intro m ρ m' ρ' _ hagree
  refine ⟨fun c => Cert.Spec.KFun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨?_, ?_⟩) (Cert.KernelIdeal.Hand.run_all (F := Ideal) m ρ)
    · exact (h c _ (Cert.KernelIdeal.Hand.mem_uc Cert.KernelIdeal.main_v13 (by decide))).trans
        (Cert.KernelIdeal.Hand.kernel_value m c (Cert.KernelIdeal.Hand.final0 _ c) (Cert.KernelIdeal.Hand.final1 _ c) (Cert.KernelIdeal.Hand.final2 _ c))
    · exact ⟨(h c _ (Cert.KernelIdeal.Hand.mem_uc Cert.KernelIdeal.main_arg0 (by decide))).trans (Cert.KernelIdeal.Hand.W12_main_arg0 m c),
        (h c _ (Cert.KernelIdeal.Hand.mem_uc Cert.KernelIdeal.main_arg1 (by decide))).trans (Cert.KernelIdeal.Hand.W12_main_arg1 m c),
        (h c _ (Cert.KernelIdeal.Hand.mem_uc Cert.KernelIdeal.main_arg2 (by decide))).trans (Cert.KernelIdeal.Hand.W12_main_arg2 m c),
        (h c _ (Cert.KernelIdeal.Hand.mem_uc Cert.KernelIdeal.main_arg3 (by decide))).trans (Cert.KernelIdeal.Hand.W12_main_arg3 m c),
        (h c _ (Cert.KernelIdeal.Hand.mem_uc Cert.KernelIdeal.main_arg4 (by decide))).trans (Cert.KernelIdeal.Hand.W12_main_arg4 m c),
        (h c _ (Cert.KernelIdeal.Hand.mem_uc Cert.KernelIdeal.main_arg5 (by decide))).trans (Cert.KernelIdeal.Hand.W12_main_arg5 m c)⟩
  · refine (θ_run Cert.ReferenceIdeal.defs _ _).mono (fun r h c => ⟨(h c).1.trans ?_, (h c).2⟩) (Cert.ReferenceIdeal.Value.run (F := Ideal) m' ρ')
    rw [Cert.ReferenceIdeal.Read.val_main_v34_eq, (hagree c).1, (hagree c).2.1, (hagree c).2.2.1, (hagree c).2.2.2.1, (hagree c).2.2.2.2.1, (hagree c).2.2.2.2.2]
    exact (Cert.ReferenceIdeal.RefValue.ref_eq _ _ _ _ _ _).trans (Cert.Spec.KFun_eq_RFun _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
